-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn_part1 {F : FTy → Type} [FloatOps F] (main_arg5 : FVec F S4096x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg5
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  main_v23

def fn {F : FTy → Type} [FloatOps F] (main_arg0 : FVec F S4096x4096 .f32) (main_arg1 : FVec F S4096x4096 .f32) (main_arg2 : IVec S4096x4096 32) (main_arg3 : FVec F S4096x4096 .f32) (main_arg4 : FVec F S4096x4096 .f32) (main_arg5 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg3
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg4
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg5 main_v13 main_v16
-- ==== Kernel.lean ====
abbrev S4096x4096 : Shape := ⟨2, ![4096, 4096]⟩
abbrev S512x512 : Shape := ⟨2, ![512, 512]⟩

abbrev nBuf : Space → Nat
  | .hbm => 9
  | .vmem => 20
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .i32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .i32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .i32⟩
  | .local _ .vmem, ⟨11, _⟩ => ⟨S512x512, .i32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .i32⟩
  | .local _ .vmem, ⟨17, _⟩ => ⟨S512x512, .i32⟩
  | .local _ .vmem, ⟨18, _⟩ => ⟨S512x512, .f32⟩
  | .local _ .vmem, ⟨19, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 8, 8], ![false, false, false]⟩

def k0_cond3 (i : grid0.Coords) : BitVec 1 :=
  let arg2 : BitVec 32 := BitVec.ofNat 32 (i 2).val
  let c7_i32 : BitVec 32 := 7#32
  let v31 : BitVec 1 := Scalar.cmpi .eq arg2 c7_i32
  let v32 : BitVec 32 := Scalar.extui v31
  let c0_i32_15 : BitVec 32 := 0#32
  let v33 : BitVec 1 := Scalar.cmpi .ne v32 c0_i32_15
  v33

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x512 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

class Facts₀ : Prop where
  inb_S512x512_S512x512_0_0 : ∀ a, (![0, 0] : Fin 2 → Nat) a + S512x512.size a ≤ S512x512.size a
  h_S512x512 : 0 < S512x512.numel
  shapeCasts_S512x512_S512x512 : S512x512.ShapeCasts S512x512
  iota_S512x512_d0_w32 : S512x512.Iotas .tc 32 [0]
  iota_S512x512_d1_w32 : S512x512.Iotas .tc 32 [1]
  natLt_1_32 : 1 < 32
  bitsLt_bf16_f32 : FTy.bits .bf16 < FTy.bits .f32
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .f32 = 32 ∨ (Rect.block (s := S4096x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .f32 = 32 ∨ (Rect.block (s := S4096x4096) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x4096.size a
  hwx0_4 : ∀ i : grid0.Coords, EltTy.bits .f32 = 32 ∨ (Rect.block (s := S4096x4096) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x4096.size a
  hwx0_5 : ∀ i : grid0.Coords, EltTy.bits .i32 = 32 ∨ (Rect.block (s := S4096x4096) S512x512.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S4096x4096.size a
  hwx0_6 : ∀ i : grid0.Coords, EltTy.bits .f32 = 32 ∨ (Rect.block (s := S4096x4096) S512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S4096x4096.size a
  hwx0_7 : ∀ i : grid0.Coords, EltTy.bits .f32 = 32 ∨ (Rect.block (s := S4096x4096) S512x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S4096x4096.size a
  hwx0_8 : ∀ i : grid0.Coords, EltTy.bits .i32 = 32 ∨ (Rect.block (s := S4096x4096) S512x512.size (cc0_transform_8 i) (hinb0_8 i)).WholeWords (EltTy.packing .i32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S512x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S512x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S512x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_2) S512x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun i => !(k0_cond3 i == 1#1) | 7 => fun i => !(k0_cond3 i == 1#1) | 8 => fun i => !(k0_cond3 i == 1#1) | ⟨_ + 9, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .i32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .i32⟩
  | .hbm, ⟨7, _⟩ => ⟨S4096x4096, .i32⟩
  | .hbm, ⟨8, _⟩ => ⟨S_, .i32⟩
  | .hbm, ⟨9, _⟩ => ⟨S4096x4096, .i32⟩
  | .hbm, ⟨10, _⟩ => ⟨S4096x4096, .i32⟩
  | .hbm, ⟨11, _⟩ => ⟨S4096x4096, .i1⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .i1⟩
  | .hbm, ⟨40, _⟩ => ⟨S4096x4096, .f32⟩
  | .hbm, ⟨41, _⟩ => ⟨S_, .i32⟩
  | .hbm, ⟨42, _⟩ => ⟨S4096x4096, .i32⟩
  | .hbm, ⟨43, _⟩ => ⟨S4096x4096, .i1⟩
  | .hbm, ⟨44, _⟩ => ⟨S_, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S_, .i32⟩
  | .hbm, ⟨49, _⟩ => ⟨S4096x4096, .i32⟩
  | .hbm, ⟨50, _⟩ => ⟨S4096x4096, .i32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S4096x4096, .i32⟩
  | .hbm, ⟨55, _⟩ => ⟨S4096x4096, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S4096x4096, .i32⟩
  | .hbm, ⟨60, _⟩ => ⟨S4096x4096, .i32⟩
  | .hbm, ⟨61, _⟩ => ⟨S_, .i32⟩
  | .hbm, ⟨62, _⟩ => ⟨S4096x4096, .i32⟩
  | .hbm, ⟨63, _⟩ => ⟨S4096x4096, .i32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_call0_v0 : Ref sig .tc := ⟨.hbm, 45, rfl⟩
abbrev main_call0_v1 : Ref sig .tc := ⟨.hbm, 46, rfl⟩
abbrev main_v29 : Ref sig .tc := ⟨.hbm, 47, rfl⟩
abbrev main_c_8 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_10 : Ref sig .tc := ⟨.hbm, 56, rfl⟩
abbrev main_c_11 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_v36 : Ref sig .tc := ⟨.hbm, 63, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.K.Runs.lean ====
/-
  The fused LIF step keeps two 512x512 scratch blocks between grid points (bi, bj, bk): the running sum of the
  two matrix products over the reduction blocks bk (reset where bk = 0) and the (bi, bj) block of the spikes z0,
  captured where bk = bj; the three results are stored only where bk = 7. Here: the three branch conditions as
  propositions over a grid point, where the output windows are idle, and the names of the memrefs the body is
  called with.
-/
import proofs.«152879_j87522843560962_1_alg».proof.Proof.Gen.Kernel.Frame
import proofs.«152879_j87522843560962_1_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions -/

/-- The reduction block is the first one (bk = 0): the running sum is reset. -/
abbrev condZ (i : grid0.Coords) : Prop :=
  (Scalar.cmpi .ne (Scalar.extui (Scalar.cmpi .eq (BitVec.ofNat 32 (i 2).val) 0#32)) 0#32) = 1#1
/-- The reduction block is the diagonal one (bk = bj): the spikes' block is captured. -/
abbrev condD (i : grid0.Coords) : Prop :=
  (Scalar.cmpi .ne (Scalar.extui (Scalar.cmpi .eq (BitVec.ofNat 32 (i 2).val) (BitVec.ofNat 32 (i 1).val))) 0#32) = 1#1
/-- The reduction block is the last one (bk = 7): the results are stored. -/
abbrev condL (i : grid0.Coords) : Prop := k0_cond3 i = 1#1

instance (i : grid0.Coords) : Decidable (condZ i) := by unfold condZ; infer_instance
instance (i : grid0.Coords) : Decidable (condD i) := by unfold condD; infer_instance
instance (i : grid0.Coords) : Decidable (condL i) := by unfold condL; infer_instance

theorem condZ_iff : ∀ t : Fin cfg0.N, condZ (grid0.coords t) ↔ t.val % 8 = 0 :=
  (by decide +kernel : ∀ t : Fin grid0.N, condZ (grid0.coords t) ↔ t.val % 8 = 0)
theorem condD_iff : ∀ t : Fin cfg0.N, condD (grid0.coords t) ↔ t.val % 8 = (t.val / 8) % 8 :=
  (by decide +kernel : ∀ t : Fin grid0.N, condD (grid0.coords t) ↔ t.val % 8 = (t.val / 8) % 8)
theorem condL_iff : ∀ t : Fin cfg0.N, condL (grid0.coords t) ↔ t.val % 8 = 7 :=
  (by decide +kernel : ∀ t : Fin grid0.N, condL (grid0.coords t) ↔ t.val % 8 = 7)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
/-- Away from the last reduction block the three results' windows are idle and not written back. -/
theorem idle_6 : ∀ t : Fin cfg0.N, ¬condL (grid0.coords t) → cfg0.idle 6 (grid0.coords t) = true := by decide +kernel
theorem idle_7 : ∀ t : Fin cfg0.N, ¬condL (grid0.coords t) → cfg0.idle 7 (grid0.coords t) = true := by decide +kernel
theorem idle_8 : ∀ t : Fin cfg0.N, ¬condL (grid0.coords t) → cfg0.idle 8 (grid0.coords t) = true := by decide +kernel
theorem noFlush_6 : ∀ t : Fin cfg0.N, ¬condL (grid0.coords t) → (cfg0.win 6).flush t = false := by decide +kernel
theorem noFlush_7 : ∀ t : Fin cfg0.N, ¬condL (grid0.coords t) → (cfg0.win 7).flush t = false := by decide +kernel
theorem noFlush_8 : ∀ t : Fin cfg0.N, ¬condL (grid0.coords t) → (cfg0.win 8).flush t = false := by decide +kernel
/-- At the last reduction block they are live. -/
theorem live_6 : ∀ t : Fin cfg0.N, condL (grid0.coords t) → cfg0.idle 6 (grid0.coords t) = false := by decide +kernel
theorem live_7 : ∀ t : Fin cfg0.N, condL (grid0.coords t) → cfg0.idle 7 (grid0.coords t) = false := by decide +kernel
theorem live_8 : ∀ t : Fin cfg0.N, condL (grid0.coords t) → cfg0.idle 8 (grid0.coords t) = false := by decide +kernel

/-! ## The memrefs the body is called with -/

abbrev ms0 (t : Fin cfg0.N) : Memref sig .tc .vmem S512x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x512 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x512 .i32 := win0_8.stage (cfg0.slots t 8)
abbrev hs8 (t : Fin cfg0.N) : (ms8 t).IsWhole := hstage0_8 ((cfg0.slots t 8).cast nbuf0_8)
/-- The running sum's scratch block and the captured spikes' scratch block. -/
abbrev accM : Memref sig .tc .vmem S512x512 .f32 := Memref.whole cc0_scratch0
abbrev diagM : Memref sig .tc .vmem S512x512 .f32 := Memref.whole cc0_scratch1
/-- One view per kind of block, through which contents are read back. -/
abbrev VF : View sig .tc .vmem S512x512 .f32 := accM.view
abbrev VD : View sig .tc .vmem S512x512 .f32 := diagM.view
abbrev VO6 : View sig .tc .vmem S512x512 .f32 := (Memref.whole cc0_stg6_0 : Memref sig .tc .vmem S512x512 .f32).view
abbrev VO7 : View sig .tc .vmem S512x512 .f32 := (Memref.whole cc0_stg7_0 : Memref sig .tc .vmem S512x512 .f32).view
abbrev VO8 : View sig .tc .vmem S512x512 .i32 := (Memref.whole cc0_stg8_0 : Memref sig .tc .vmem S512x512 .i32).view

/-- What the launch hands the region besides the windows: the two scratch blocks at some contents, and the
    generator register. -/
theorem PhiA_eq (c : Dev nD) :
    (Pipeline.ΦA spec0 c : sProp 𝕄)
      = iprop(iprop((∃ d, owns (c : Thread nD τ) accM fullShare d) ∗ (∃ d, owns (c : Thread nD τ) diagM fullShare d)) ∗ (∃ r, prngReg c r)) := by
  unfold Pipeline.ΦA; rw [scopedRest0_eq]; simp only [accM, diagM, owns_whole]; try rfl

end Cert.Kernel.Body

end
-- ==== Proof.K.RunA.lean ====
/-
  The body of the fused LIF step run at a grid point of one kind — the first reduction block, on the diagonal (bk = 0 = bj): the running sum is reset and the spikes' block captured.
  On whole memrefs holding the six input blocks, the three result buffers at contents handed back untouched, the running sum's
  scratch at anything (it is reset before it is read) and the captured block's scratch at anything (it is overwritten), the body runs to the end;
  what it stores into each buffer it writes is found as a list of pieces (the last store first).
-/
import proofs.«152879_j87522843560962_1_alg».proof.Proof.K.Runs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunA (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : condZ i) (hD : condD i) (hL : ¬condL i)
    (x0 x1 x2 x3 x4 : Vec F S512x512 .f32) (x5 : Vec F S512x512 .i32) :
    Σ' (LS0 : List (View.Piece (Elt F) S512x512 .f32)), { LS1 : List (View.Piece (Elt F) S512x512 .f32) //
      ∀ (xi6 xi7 : Vec F S512x512 .f32) (xi8 : Vec F S512x512 .i32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xi7 ∗ owns (c : Thread nD τ) arg11 fullShare xi8 ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xi7 ∗ owns (c : Thread nD τ) arg11 fullShare xi8 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13) K } := by
  refine ⟨?_, ?_, fun xi6 xi7 xi8 E K => ?run⟩
  case run =>
    simp only [cc0__lif_kernel_eq_skeleton]; unfold cc0__lif_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | exact hZ | exact hD | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    iexists _; iexact H10

end Cert.Kernel.Body

end
-- ==== Proof.K.RunB.lean ====
/-
  The body of the fused LIF step run at a grid point of one kind — the first reduction block, off the diagonal (bk = 0 ≠ bj): the running sum is reset.
  On whole memrefs holding the six input blocks, the three result buffers at contents handed back untouched, the running sum's
  scratch at anything (it is reset before it is read) and the captured block's scratch at what the point before left, the body runs to the end;
  what it stores into each buffer it writes is found as a list of pieces (the last store first).
-/
import proofs.«152879_j87522843560962_1_alg».proof.Proof.K.RunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunB (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : condZ i) (hD : ¬condD i) (hL : ¬condL i)
    (x0 x1 x2 x3 x4 : Vec F S512x512 .f32) (x5 : Vec F S512x512 .i32) (xs1 : Vec F S512x512 .f32) :
    { LS0 : List (View.Piece (Elt F) S512x512 .f32) //
      ∀ (xi6 xi7 : Vec F S512x512 .f32) (xi8 : Vec F S512x512 .i32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xi7 ∗ owns (c : Thread nD τ) arg11 fullShare xi8 ∗ (∃ d, owns (c : Thread nD τ) arg12 fullShare d) ∗ owns (c : Thread nD τ) arg13 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xi7 ∗ owns (c : Thread nD τ) arg11 fullShare xi8 ∗ (∃ f, arg12.view.loc (c : Thread nD τ) ↦[arg12.view.set]{fullShare} arg12.view.writes (Elt F) f LS0) ∗ owns (c : Thread nD τ) arg13 fullShare xs1) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13) K } := by
  refine ⟨?_, fun xi6 xi7 xi8 E K => ?run⟩
  case run =>
    simp only [cc0__lif_kernel_eq_skeleton]; unfold cc0__lif_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg13.eq_unread hf10
    sl_exec (disch := first | exact hZ | exact hD | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    iexists _; isplitr; · ipureintro; exact harg13.read_unread _
    iexact H10

end Cert.Kernel.Body

end
-- ==== Proof.K.RunC.lean ====
/-
  The body of the fused LIF step run at a grid point of one kind — a later reduction block on the diagonal, not the last (0 < bk = bj < 7): the spikes' block is captured.
  On whole memrefs holding the six input blocks, the three result buffers at contents handed back untouched, the running sum's
  scratch at what the point before left and the captured block's scratch at anything (it is overwritten), the body runs to the end;
  what it stores into each buffer it writes is found as a list of pieces (the last store first).
-/
import proofs.«152879_j87522843560962_1_alg».proof.Proof.K.RunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunC (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : ¬condL i)
    (x0 x1 x2 x3 x4 : Vec F S512x512 .f32) (x5 : Vec F S512x512 .i32) (xs0 : Vec F S512x512 .f32) :
    Σ' (LS0 : List (View.Piece (Elt F) S512x512 .f32)), { LS1 : List (View.Piece (Elt F) S512x512 .f32) //
      ∀ (xi6 xi7 : Vec F S512x512 .f32) (xi8 : Vec F S512x512 .i32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xi7 ∗ owns (c : Thread nD τ) arg11 fullShare xi8 ∗ owns (c : Thread nD τ) arg12 fullShare xs0 ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xi7 ∗ owns (c : Thread nD τ) arg11 fullShare xi8 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13) K } := by
  refine ⟨?_, ?_, fun xi6 xi7 xi8 E K => ?run⟩
  case run =>
    simp only [cc0__lif_kernel_eq_skeleton]; unfold cc0__lif_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | exact hZ | exact hD | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    iexists _; iexact H10

end Cert.Kernel.Body

end
-- ==== Proof.K.RunD.lean ====
/-
  The body of the fused LIF step run at a grid point of one kind — a later reduction block off the diagonal, not the last: only the running sum moves.
  On whole memrefs holding the six input blocks, the three result buffers at contents handed back untouched, the running sum's
  scratch at what the point before left and the captured block's scratch at what the point before left, the body runs to the end;
  what it stores into each buffer it writes is found as a list of pieces (the last store first).
-/
import proofs.«152879_j87522843560962_1_alg».proof.Proof.K.RunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunD (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : ¬condL i)
    (x0 x1 x2 x3 x4 : Vec F S512x512 .f32) (x5 : Vec F S512x512 .i32) (xs0 : Vec F S512x512 .f32) (xs1 : Vec F S512x512 .f32) :
    { LS0 : List (View.Piece (Elt F) S512x512 .f32) //
      ∀ (xi6 xi7 : Vec F S512x512 .f32) (xi8 : Vec F S512x512 .i32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xi7 ∗ owns (c : Thread nD τ) arg11 fullShare xi8 ∗ owns (c : Thread nD τ) arg12 fullShare xs0 ∗ owns (c : Thread nD τ) arg13 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xi7 ∗ owns (c : Thread nD τ) arg11 fullShare xi8 ∗ (∃ f, arg12.view.loc (c : Thread nD τ) ↦[arg12.view.set]{fullShare} arg12.view.writes (Elt F) f LS0) ∗ owns (c : Thread nD τ) arg13 fullShare xs1) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13) K } := by
  refine ⟨?_, fun xi6 xi7 xi8 E K => ?run⟩
  case run =>
    simp only [cc0__lif_kernel_eq_skeleton]; unfold cc0__lif_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    sl_exec (disch := first | exact hZ | exact hD | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    iexists _; isplitr; · ipureintro; exact harg13.read_unread _
    iexact H10

end Cert.Kernel.Body

end
-- ==== Proof.K.RunE.lean ====
/-
  The body of the fused LIF step run at a grid point of one kind — the last reduction block, on the diagonal (bk = 7 = bj): the spikes' block is captured and the results stored.
  On whole memrefs holding the six input blocks, the three result buffers at anything, the running sum's
  scratch at what the point before left and the captured block's scratch at anything (it is overwritten), the body runs to the end;
  what it stores into each buffer it writes is found as a list of pieces (the last store first).
-/
import proofs.«152879_j87522843560962_1_alg».proof.Proof.K.RunD

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunE (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : condL i)
    (x0 x1 x2 x3 x4 : Vec F S512x512 .f32) (x5 : Vec F S512x512 .i32) (xs0 : Vec F S512x512 .f32) :
    Σ' (L6 : List (View.Piece (Elt F) S512x512 .f32)) (L7 : List (View.Piece (Elt F) S512x512 .f32)) (L8 : List (View.Piece (Elt F) S512x512 .i32)) (LS0 : List (View.Piece (Elt F) S512x512 .f32)), { LS1 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0__lif_kernel_eq_skeleton]; unfold cc0__lif_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%d10, %f10, -, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg12.eq_unread hf9
    sl_exec (disch := first | exact hZ | exact hD | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [H8]; · iexists _; iexact H8
    isplitl [H9]; · iexists _; iexact H9
    iexists _; iexact H10

end Cert.Kernel.Body

end
-- ==== Proof.K.RunG.lean ====
/-
  The body of the fused LIF step run at a grid point of one kind — the last reduction block, off the diagonal (bk = 7 ≠ bj): the results are stored.
  On whole memrefs holding the six input blocks, the three result buffers at anything, the running sum's
  scratch at what the point before left and the captured block's scratch at what the point before left, the body runs to the end;
  what it stores into each buffer it writes is found as a list of pieces (the last store first).
-/
import proofs.«152879_j87522843560962_1_alg».proof.Proof.K.RunE

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunG (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : condL i)
    (x0 x1 x2 x3 x4 : Vec F S512x512 .f32) (x5 : Vec F S512x512 .i32) (xs0 : Vec F S512x512 .f32) (xs1 : Vec F S512x512 .f32) :
    Σ' (L6 : List (View.Piece (Elt F) S512x512 .f32)) (L7 : List (View.Piece (Elt F) S512x512 .f32)) (L8 : List (View.Piece (Elt F) S512x512 .i32)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0) ∗ owns (c : Thread nD τ) arg13 fullShare xs1) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0__lif_kernel_eq_skeleton]; unfold cc0__lif_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg12.eq_unread hf9; obtain rfl := harg13.eq_unread hf10
    sl_exec (disch := first | exact hZ | exact hD | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [H8]; · iexists _; iexact H8
    isplitl [H9]; · iexists _; iexact H9
    iexists _; isplitr; · ipureintro; exact harg13.read_unread _
    iexact H10

end Cert.Kernel.Body

end
-- ==== Proof.K.Data.lean ====
/-
  The proof data of the fused LIF step's one pipeline, and its frame. After the body at grid point t the three
  result buffers and the two scratch blocks hold a tuple computed by recursion on the point: the kind of the point
  (which of bk = 0, bk = bj, bk = 7 hold) selects the run, which is given the six input blocks at t and, where it
  reads them, the running sum and the captured block the point before left. The results' windows are idle except
  at the last reduction block, where they are stored and then written back.
-/
import proofs.«152879_j87522843560962_1_alg».proof.Proof.K.RunG

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves, read back from the run's pieces -/

theorem accA_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : condZ i) (hD : condD i) (hL : ¬condL i)
    (x0 x1 x2 x3 x4 : Vec F S512x512 .f32) (x5 : Vec F S512x512 .i32) (y : S512x512.Idx) :
    ∃ pc ∈ (kernelRunA c i arg3 harg3 arg4 harg4 arg5 harg5 arg6 harg6 arg7 harg7 arg8 harg8 arg9 harg9 arg10 harg10 arg11 harg11 arg12 harg12 arg13 harg13 hZ hD hL x0 x1 x2 x3 x4 x5).1, y ∈ pc.1.set :=
  View.cover_of_tiledL (kernelRunA c i arg3 harg3 arg4 harg4 arg5 harg5 arg6 harg6 arg7 harg7 arg8 harg8 arg9 harg9 arg10 harg10 arg11 harg11 arg12 harg12 arg13 harg13 hZ hD hL x0 x1 x2 x3 x4 x5).1 S512x512.size (by sl_kernel_rfl) y

def accA (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : condZ i) (hD : condD i) (hL : ¬condL i)
    (x0 x1 x2 x3 x4 : Vec F S512x512 .f32) (x5 : Vec F S512x512 .i32) : Vec F S512x512 .f32 :=
  VF.read (Elt F) (VF.writes (Elt F) VF.junk (kernelRunA c i arg3 harg3 arg4 harg4 arg5 harg5 arg6 harg6 arg7 harg7 arg8 harg8 arg9 harg9 arg10 harg10 arg11 harg11 arg12 harg12 arg13 harg13 hZ hD hL x0 x1 x2 x3 x4 x5).1)

theorem diagA_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : condZ i) (hD : condD i) (hL : ¬condL i)
    (x0 x1 x2 x3 x4 : Vec F S512x512 .f32) (x5 : Vec F S512x512 .i32) (y : S512x512.Idx) :
    ∃ pc ∈ (kernelRunA c i arg3 harg3 arg4 harg4 arg5 harg5 arg6 harg6 arg7 harg7 arg8 harg8 arg9 harg9 arg10 harg10 arg11 harg11 arg12 harg12 arg13 harg13 hZ hD hL x0 x1 x2 x3 x4 x5).2.1, y ∈ pc.1.set :=
  View.cover_of_tiledL (kernelRunA c i arg3 harg3 arg4 harg4 arg5 harg5 arg6 harg6 arg7 harg7 arg8 harg8 arg9 harg9 arg10 harg10 arg11 harg11 arg12 harg12 arg13 harg13 hZ hD hL x0 x1 x2 x3 x4 x5).2.1 S512x512.size (by sl_kernel_rfl) y

def diagA (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : condZ i) (hD : condD i) (hL : ¬condL i)
    (x0 x1 x2 x3 x4 : Vec F S512x512 .f32) (x5 : Vec F S512x512 .i32) : Vec F S512x512 .f32 :=
  VD.read (Elt F) (VD.writes (Elt F) VD.junk (kernelRunA c i arg3 harg3 arg4 harg4 arg5 harg5 arg6 harg6 arg7 harg7 arg8 harg8 arg9 harg9 arg10 harg10 arg11 harg11 arg12 harg12 arg13 harg13 hZ hD hL x0 x1 x2 x3 x4 x5).2.1)

theorem accB_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : condZ i) (hD : ¬condD i) (hL : ¬condL i)
    (x0 x1 x2 x3 x4 : Vec F S512x512 .f32) (x5 : Vec F S512x512 .i32) (xs1 : Vec F S512x512 .f32) (y : S512x512.Idx) :
    ∃ pc ∈ (kernelRunB c i arg3 harg3 arg4 harg4 arg5 harg5 arg6 harg6 arg7 harg7 arg8 harg8 arg9 harg9 arg10 harg10 arg11 harg11 arg12 harg12 arg13 harg13 hZ hD hL x0 x1 x2 x3 x4 x5 xs1).1, y ∈ pc.1.set :=
  View.cover_of_tiledL (kernelRunB c i arg3 harg3 arg4 harg4 arg5 harg5 arg6 harg6 arg7 harg7 arg8 harg8 arg9 harg9 arg10 harg10 arg11 harg11 arg12 harg12 arg13 harg13 hZ hD hL x0 x1 x2 x3 x4 x5 xs1).1 S512x512.size (by sl_kernel_rfl) y

def accB (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : condZ i) (hD : ¬condD i) (hL : ¬condL i)
    (x0 x1 x2 x3 x4 : Vec F S512x512 .f32) (x5 : Vec F S512x512 .i32) (xs1 : Vec F S512x512 .f32) : Vec F S512x512 .f32 :=
  VF.read (Elt F) (VF.writes (Elt F) VF.junk (kernelRunB c i arg3 harg3 arg4 harg4 arg5 harg5 arg6 harg6 arg7 harg7 arg8 harg8 arg9 harg9 arg10 harg10 arg11 harg11 arg12 harg12 arg13 harg13 hZ hD hL x0 x1 x2 x3 x4 x5 xs1).1)

theorem accC_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : ¬condL i)
    (x0 x1 x2 x3 x4 : Vec F S512x512 .f32) (x5 : Vec F S512x512 .i32) (xs0 : Vec F S512x512 .f32) (y : S512x512.Idx) :
    ∃ pc ∈ (kernelRunC c i arg3 harg3 arg4 harg4 arg5 harg5 arg6 harg6 arg7 harg7 arg8 harg8 arg9 harg9 arg10 harg10 arg11 harg11 arg12 harg12 arg13 harg13 hZ hD hL x0 x1 x2 x3 x4 x5 xs0).1, y ∈ pc.1.set :=
  View.cover_of_tiledL (kernelRunC c i arg3 harg3 arg4 harg4 arg5 harg5 arg6 harg6 arg7 harg7 arg8 harg8 arg9 harg9 arg10 harg10 arg11 harg11 arg12 harg12 arg13 harg13 hZ hD hL x0 x1 x2 x3 x4 x5 xs0).1 S512x512.size (by sl_kernel_rfl) y

def accC (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : ¬condL i)
    (x0 x1 x2 x3 x4 : Vec F S512x512 .f32) (x5 : Vec F S512x512 .i32) (xs0 : Vec F S512x512 .f32) : Vec F S512x512 .f32 :=
  VF.read (Elt F) (VF.writes (Elt F) VF.junk (kernelRunC c i arg3 harg3 arg4 harg4 arg5 harg5 arg6 harg6 arg7 harg7 arg8 harg8 arg9 harg9 arg10 harg10 arg11 harg11 arg12 harg12 arg13 harg13 hZ hD hL x0 x1 x2 x3 x4 x5 xs0).1)

theorem diagC_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : ¬condL i)
    (x0 x1 x2 x3 x4 : Vec F S512x512 .f32) (x5 : Vec F S512x512 .i32) (xs0 : Vec F S512x512 .f32) (y : S512x512.Idx) :
    ∃ pc ∈ (kernelRunC c i arg3 harg3 arg4 harg4 arg5 harg5 arg6 harg6 arg7 harg7 arg8 harg8 arg9 harg9 arg10 harg10 arg11 harg11 arg12 harg12 arg13 harg13 hZ hD hL x0 x1 x2 x3 x4 x5 xs0).2.1, y ∈ pc.1.set :=
  View.cover_of_tiledL (kernelRunC c i arg3 harg3 arg4 harg4 arg5 harg5 arg6 harg6 arg7 harg7 arg8 harg8 arg9 harg9 arg10 harg10 arg11 harg11 arg12 harg12 arg13 harg13 hZ hD hL x0 x1 x2 x3 x4 x5 xs0).2.1 S512x512.size (by sl_kernel_rfl) y

def diagC (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : ¬condL i)
    (x0 x1 x2 x3 x4 : Vec F S512x512 .f32) (x5 : Vec F S512x512 .i32) (xs0 : Vec F S512x512 .f32) : Vec F S512x512 .f32 :=
  VD.read (Elt F) (VD.writes (Elt F) VD.junk (kernelRunC c i arg3 harg3 arg4 harg4 arg5 harg5 arg6 harg6 arg7 harg7 arg8 harg8 arg9 harg9 arg10 harg10 arg11 harg11 arg12 harg12 arg13 harg13 hZ hD hL x0 x1 x2 x3 x4 x5 xs0).2.1)

theorem accD_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : ¬condL i)
    (x0 x1 x2 x3 x4 : Vec F S512x512 .f32) (x5 : Vec F S512x512 .i32) (xs0 : Vec F S512x512 .f32) (xs1 : Vec F S512x512 .f32) (y : S512x512.Idx) :
    ∃ pc ∈ (kernelRunD c i arg3 harg3 arg4 harg4 arg5 harg5 arg6 harg6 arg7 harg7 arg8 harg8 arg9 harg9 arg10 harg10 arg11 harg11 arg12 harg12 arg13 harg13 hZ hD hL x0 x1 x2 x3 x4 x5 xs0 xs1).1, y ∈ pc.1.set :=
  View.cover_of_tiledL (kernelRunD c i arg3 harg3 arg4 harg4 arg5 harg5 arg6 harg6 arg7 harg7 arg8 harg8 arg9 harg9 arg10 harg10 arg11 harg11 arg12 harg12 arg13 harg13 hZ hD hL x0 x1 x2 x3 x4 x5 xs0 xs1).1 S512x512.size (by sl_kernel_rfl) y

def accD (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : ¬condL i)
    (x0 x1 x2 x3 x4 : Vec F S512x512 .f32) (x5 : Vec F S512x512 .i32) (xs0 : Vec F S512x512 .f32) (xs1 : Vec F S512x512 .f32) : Vec F S512x512 .f32 :=
  VF.read (Elt F) (VF.writes (Elt F) VF.junk (kernelRunD c i arg3 harg3 arg4 harg4 arg5 harg5 arg6 harg6 arg7 harg7 arg8 harg8 arg9 harg9 arg10 harg10 arg11 harg11 arg12 harg12 arg13 harg13 hZ hD hL x0 x1 x2 x3 x4 x5 xs0 xs1).1)

theorem o6E_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : condL i)
    (x0 x1 x2 x3 x4 : Vec F S512x512 .f32) (x5 : Vec F S512x512 .i32) (xs0 : Vec F S512x512 .f32) (y : S512x512.Idx) :
    ∃ pc ∈ (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).1, y ∈ pc.1.set :=
  View.cover_of_tiledL (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).1 S512x512.size (by sl_kernel_rfl) y

def o6E (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : condL i)
    (x0 x1 x2 x3 x4 : Vec F S512x512 .f32) (x5 : Vec F S512x512 .i32) (xs0 : Vec F S512x512 .f32) : Vec F S512x512 .f32 :=
  VO6.read (Elt F) (VO6.writes (Elt F) VO6.junk (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).1)

theorem o7E_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : condL i)
    (x0 x1 x2 x3 x4 : Vec F S512x512 .f32) (x5 : Vec F S512x512 .i32) (xs0 : Vec F S512x512 .f32) (y : S512x512.Idx) :
    ∃ pc ∈ (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).2.1, y ∈ pc.1.set :=
  View.cover_of_tiledL (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).2.1 S512x512.size (by sl_kernel_rfl) y

def o7E (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : condL i)
    (x0 x1 x2 x3 x4 : Vec F S512x512 .f32) (x5 : Vec F S512x512 .i32) (xs0 : Vec F S512x512 .f32) : Vec F S512x512 .f32 :=
  VO7.read (Elt F) (VO7.writes (Elt F) VO7.junk (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).2.1)

theorem o8E_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : condL i)
    (x0 x1 x2 x3 x4 : Vec F S512x512 .f32) (x5 : Vec F S512x512 .i32) (xs0 : Vec F S512x512 .f32) (y : S512x512.Idx) :
    ∃ pc ∈ (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).2.2.1, y ∈ pc.1.set :=
  View.cover_of_tiledL (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).2.2.1 S512x512.size (by sl_kernel_rfl) y

def o8E (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : condL i)
    (x0 x1 x2 x3 x4 : Vec F S512x512 .f32) (x5 : Vec F S512x512 .i32) (xs0 : Vec F S512x512 .f32) : Vec F S512x512 .i32 :=
  VO8.read (Elt F) (VO8.writes (Elt F) VO8.junk (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).2.2.1)

theorem accE_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : condL i)
    (x0 x1 x2 x3 x4 : Vec F S512x512 .f32) (x5 : Vec F S512x512 .i32) (xs0 : Vec F S512x512 .f32) (y : S512x512.Idx) :
    ∃ pc ∈ (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).2.2.2.1, y ∈ pc.1.set :=
  View.cover_of_tiledL (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).2.2.2.1 S512x512.size (by sl_kernel_rfl) y

def accE (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : condL i)
    (x0 x1 x2 x3 x4 : Vec F S512x512 .f32) (x5 : Vec F S512x512 .i32) (xs0 : Vec F S512x512 .f32) : Vec F S512x512 .f32 :=
  VF.read (Elt F) (VF.writes (Elt F) VF.junk (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).2.2.2.1)

theorem diagE_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : condL i)
    (x0 x1 x2 x3 x4 : Vec F S512x512 .f32) (x5 : Vec F S512x512 .i32) (xs0 : Vec F S512x512 .f32) (y : S512x512.Idx) :
    ∃ pc ∈ (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).2.2.2.2.1, y ∈ pc.1.set :=
  View.cover_of_tiledL (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).2.2.2.2.1 S512x512.size (by sl_kernel_rfl) y

def diagE (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : condL i)
    (x0 x1 x2 x3 x4 : Vec F S512x512 .f32) (x5 : Vec F S512x512 .i32) (xs0 : Vec F S512x512 .f32) : Vec F S512x512 .f32 :=
  VD.read (Elt F) (VD.writes (Elt F) VD.junk (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).2.2.2.2.1)

theorem o6G_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : condL i)
    (x0 x1 x2 x3 x4 : Vec F S512x512 .f32) (x5 : Vec F S512x512 .i32) (xs0 : Vec F S512x512 .f32) (xs1 : Vec F S512x512 .f32) (y : S512x512.Idx) :
    ∃ pc ∈ (kernelRunG c i arg3 harg3 arg4 harg4 arg5 harg5 arg6 harg6 arg7 harg7 arg8 harg8 arg9 harg9 arg10 harg10 arg11 harg11 arg12 harg12 arg13 harg13 hZ hD hL x0 x1 x2 x3 x4 x5 xs0 xs1).1, y ∈ pc.1.set :=
  View.cover_of_tiledL (kernelRunG c i arg3 harg3 arg4 harg4 arg5 harg5 arg6 harg6 arg7 harg7 arg8 harg8 arg9 harg9 arg10 harg10 arg11 harg11 arg12 harg12 arg13 harg13 hZ hD hL x0 x1 x2 x3 x4 x5 xs0 xs1).1 S512x512.size (by sl_kernel_rfl) y

def o6G (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : condL i)
    (x0 x1 x2 x3 x4 : Vec F S512x512 .f32) (x5 : Vec F S512x512 .i32) (xs0 : Vec F S512x512 .f32) (xs1 : Vec F S512x512 .f32) : Vec F S512x512 .f32 :=
  VO6.read (Elt F) (VO6.writes (Elt F) VO6.junk (kernelRunG c i arg3 harg3 arg4 harg4 arg5 harg5 arg6 harg6 arg7 harg7 arg8 harg8 arg9 harg9 arg10 harg10 arg11 harg11 arg12 harg12 arg13 harg13 hZ hD hL x0 x1 x2 x3 x4 x5 xs0 xs1).1)

theorem o7G_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : condL i)
    (x0 x1 x2 x3 x4 : Vec F S512x512 .f32) (x5 : Vec F S512x512 .i32) (xs0 : Vec F S512x512 .f32) (xs1 : Vec F S512x512 .f32) (y : S512x512.Idx) :
    ∃ pc ∈ (kernelRunG c i arg3 harg3 arg4 harg4 arg5 harg5 arg6 harg6 arg7 harg7 arg8 harg8 arg9 harg9 arg10 harg10 arg11 harg11 arg12 harg12 arg13 harg13 hZ hD hL x0 x1 x2 x3 x4 x5 xs0 xs1).2.1, y ∈ pc.1.set :=
  View.cover_of_tiledL (kernelRunG c i arg3 harg3 arg4 harg4 arg5 harg5 arg6 harg6 arg7 harg7 arg8 harg8 arg9 harg9 arg10 harg10 arg11 harg11 arg12 harg12 arg13 harg13 hZ hD hL x0 x1 x2 x3 x4 x5 xs0 xs1).2.1 S512x512.size (by sl_kernel_rfl) y

def o7G (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : condL i)
    (x0 x1 x2 x3 x4 : Vec F S512x512 .f32) (x5 : Vec F S512x512 .i32) (xs0 : Vec F S512x512 .f32) (xs1 : Vec F S512x512 .f32) : Vec F S512x512 .f32 :=
  VO7.read (Elt F) (VO7.writes (Elt F) VO7.junk (kernelRunG c i arg3 harg3 arg4 harg4 arg5 harg5 arg6 harg6 arg7 harg7 arg8 harg8 arg9 harg9 arg10 harg10 arg11 harg11 arg12 harg12 arg13 harg13 hZ hD hL x0 x1 x2 x3 x4 x5 xs0 xs1).2.1)

theorem o8G_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : condL i)
    (x0 x1 x2 x3 x4 : Vec F S512x512 .f32) (x5 : Vec F S512x512 .i32) (xs0 : Vec F S512x512 .f32) (xs1 : Vec F S512x512 .f32) (y : S512x512.Idx) :
    ∃ pc ∈ (kernelRunG c i arg3 harg3 arg4 harg4 arg5 harg5 arg6 harg6 arg7 harg7 arg8 harg8 arg9 harg9 arg10 harg10 arg11 harg11 arg12 harg12 arg13 harg13 hZ hD hL x0 x1 x2 x3 x4 x5 xs0 xs1).2.2.1, y ∈ pc.1.set :=
  View.cover_of_tiledL (kernelRunG c i arg3 harg3 arg4 harg4 arg5 harg5 arg6 harg6 arg7 harg7 arg8 harg8 arg9 harg9 arg10 harg10 arg11 harg11 arg12 harg12 arg13 harg13 hZ hD hL x0 x1 x2 x3 x4 x5 xs0 xs1).2.2.1 S512x512.size (by sl_kernel_rfl) y

def o8G (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : condL i)
    (x0 x1 x2 x3 x4 : Vec F S512x512 .f32) (x5 : Vec F S512x512 .i32) (xs0 : Vec F S512x512 .f32) (xs1 : Vec F S512x512 .f32) : Vec F S512x512 .i32 :=
  VO8.read (Elt F) (VO8.writes (Elt F) VO8.junk (kernelRunG c i arg3 harg3 arg4 harg4 arg5 harg5 arg6 harg6 arg7 harg7 arg8 harg8 arg9 harg9 arg10 harg10 arg11 harg11 arg12 harg12 arg13 harg13 hZ hD hL x0 x1 x2 x3 x4 x5 xs0 xs1).2.2.1)

theorem accG_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : condL i)
    (x0 x1 x2 x3 x4 : Vec F S512x512 .f32) (x5 : Vec F S512x512 .i32) (xs0 : Vec F S512x512 .f32) (xs1 : Vec F S512x512 .f32) (y : S512x512.Idx) :
    ∃ pc ∈ (kernelRunG c i arg3 harg3 arg4 harg4 arg5 harg5 arg6 harg6 arg7 harg7 arg8 harg8 arg9 harg9 arg10 harg10 arg11 harg11 arg12 harg12 arg13 harg13 hZ hD hL x0 x1 x2 x3 x4 x5 xs0 xs1).2.2.2.1, y ∈ pc.1.set :=
  View.cover_of_tiledL (kernelRunG c i arg3 harg3 arg4 harg4 arg5 harg5 arg6 harg6 arg7 harg7 arg8 harg8 arg9 harg9 arg10 harg10 arg11 harg11 arg12 harg12 arg13 harg13 hZ hD hL x0 x1 x2 x3 x4 x5 xs0 xs1).2.2.2.1 S512x512.size (by sl_kernel_rfl) y

def accG (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : condL i)
    (x0 x1 x2 x3 x4 : Vec F S512x512 .f32) (x5 : Vec F S512x512 .i32) (xs0 : Vec F S512x512 .f32) (xs1 : Vec F S512x512 .f32) : Vec F S512x512 .f32 :=
  VF.read (Elt F) (VF.writes (Elt F) VF.junk (kernelRunG c i arg3 harg3 arg4 harg4 arg5 harg5 arg6 harg6 arg7 harg7 arg8 harg8 arg9 harg9 arg10 harg10 arg11 harg11 arg12 harg12 arg13 harg13 hZ hD hL x0 x1 x2 x3 x4 x5 xs0 xs1).2.2.2.1)

/-! ## The tuple after each point -/

/-- The three result buffers, the running sum and the captured block. -/
abbrev Tup (F : FTy → Type) [FloatOps F] : Type :=
  Vec F S512x512 .f32 × Vec F S512x512 .f32 × Vec F S512x512 .i32 × Vec F S512x512 .f32 × Vec F S512x512 .f32

/-- What an idle result buffer is said to hold: never consulted. -/
def junk6 : Vec F S512x512 .f32 := VO6.read (Elt F) VO6.junk
def junk7 : Vec F S512x512 .f32 := VO7.read (Elt F) VO7.junk
def junk8 : Vec F S512x512 .i32 := VO8.read (Elt F) VO8.junk

/-- The six input blocks at a point, at their literal types. -/
abbrev b0 (c : Dev nD) (t : Fin cfg0.N) : Vec F S512x512 .f32 := iblk m c 0 t
abbrev b1 (c : Dev nD) (t : Fin cfg0.N) : Vec F S512x512 .f32 := iblk m c 1 t
abbrev b2 (c : Dev nD) (t : Fin cfg0.N) : Vec F S512x512 .f32 := iblk m c 2 t
abbrev b3 (c : Dev nD) (t : Fin cfg0.N) : Vec F S512x512 .f32 := iblk m c 3 t
abbrev b4 (c : Dev nD) (t : Fin cfg0.N) : Vec F S512x512 .f32 := iblk m c 4 t
abbrev b5 (c : Dev nD) (t : Fin cfg0.N) : Vec F S512x512 .i32 := iblk m c 5 t

/-- The tuple a point of kind A leaves. -/
def tupA (c : Dev nD) (t : Fin cfg0.N) (hZ : condZ (grid0.coords t)) (hD : condD (grid0.coords t)) (hL : ¬condL (grid0.coords t)) : Tup F :=
  (junk6, junk7, junk8, accA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t), diagA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t))

/-- The tuple a point of kind B leaves. -/
def tupB (c : Dev nD) (t : Fin cfg0.N) (hZ : condZ (grid0.coords t)) (hD : ¬condD (grid0.coords t)) (hL : ¬condL (grid0.coords t)) (xs1 : Vec F S512x512 .f32) : Tup F :=
  (junk6, junk7, junk8, accB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t) xs1, xs1)

/-- The tuple a point of kind C leaves. -/
def tupC (c : Dev nD) (t : Fin cfg0.N) (hZ : ¬condZ (grid0.coords t)) (hD : condD (grid0.coords t)) (hL : ¬condL (grid0.coords t)) (xs0 : Vec F S512x512 .f32) : Tup F :=
  (junk6, junk7, junk8, accC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t) xs0, diagC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t) xs0)

/-- The tuple a point of kind D leaves. -/
def tupD (c : Dev nD) (t : Fin cfg0.N) (hZ : ¬condZ (grid0.coords t)) (hD : ¬condD (grid0.coords t)) (hL : ¬condL (grid0.coords t)) (xs0 : Vec F S512x512 .f32) (xs1 : Vec F S512x512 .f32) : Tup F :=
  (junk6, junk7, junk8, accD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t) xs0 xs1, xs1)

/-- The tuple a point of kind E leaves. -/
def tupE (c : Dev nD) (t : Fin cfg0.N) (hZ : ¬condZ (grid0.coords t)) (hD : condD (grid0.coords t)) (hL : condL (grid0.coords t)) (xs0 : Vec F S512x512 .f32) : Tup F :=
  (o6E c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t) xs0, o7E c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t) xs0, o8E c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t) xs0, accE c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t) xs0, diagE c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t) xs0)

/-- The tuple a point of kind G leaves. -/
def tupG (c : Dev nD) (t : Fin cfg0.N) (hZ : ¬condZ (grid0.coords t)) (hD : ¬condD (grid0.coords t)) (hL : condL (grid0.coords t)) (xs0 : Vec F S512x512 .f32) (xs1 : Vec F S512x512 .f32) : Tup F :=
  (o6G c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t) xs0 xs1, o7G c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t) xs0 xs1, o8G c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t) xs0 xs1, accG c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t) xs0 xs1, xs1)

/-- THE RECURSION over the points: the kind of the point selects the run; the running sum and the captured block
    are taken from the point before where the run reads them. (The reset and the results never meet at one point:
    that branch repeats the point before and is never reached.) -/
def outsAt (c : Dev nD) : (n : ℕ) → n < cfg0.N → Tup F
  | 0, hn => tupA m c ⟨0, hn⟩ ((condZ_iff ⟨0, hn⟩).mpr (Nat.zero_mod _)) ((condD_iff ⟨0, hn⟩).mpr (show (0 : ℕ) % 8 = 0 / 8 % 8 from rfl)) (fun h => absurd ((condL_iff ⟨0, hn⟩).mp h) (show ¬ (0 : ℕ) % 8 = 7 by decide))
  | n + 1, hn =>
    if hZ : condZ (grid0.coords ⟨n + 1, hn⟩) then
      if hD : condD (grid0.coords ⟨n + 1, hn⟩) then
        if hL : condL (grid0.coords ⟨n + 1, hn⟩) then outsAt c n (Nat.lt_of_succ_lt hn)
        else tupA m c ⟨n + 1, hn⟩ hZ hD hL
      else
        if hL : condL (grid0.coords ⟨n + 1, hn⟩) then outsAt c n (Nat.lt_of_succ_lt hn)
        else tupB m c ⟨n + 1, hn⟩ hZ hD hL (outsAt c n (Nat.lt_of_succ_lt hn)).2.2.2.2
    else
      if hD : condD (grid0.coords ⟨n + 1, hn⟩) then
        if hL : condL (grid0.coords ⟨n + 1, hn⟩) then tupE m c ⟨n + 1, hn⟩ hZ hD hL (outsAt c n (Nat.lt_of_succ_lt hn)).2.2.2.1
        else tupC m c ⟨n + 1, hn⟩ hZ hD hL (outsAt c n (Nat.lt_of_succ_lt hn)).2.2.2.1
      else
        if hL : condL (grid0.coords ⟨n + 1, hn⟩) then tupG m c ⟨n + 1, hn⟩ hZ hD hL (outsAt c n (Nat.lt_of_succ_lt hn)).2.2.2.1 (outsAt c n (Nat.lt_of_succ_lt hn)).2.2.2.2
        else tupD m c ⟨n + 1, hn⟩ hZ hD hL (outsAt c n (Nat.lt_of_succ_lt hn)).2.2.2.1 (outsAt c n (Nat.lt_of_succ_lt hn)).2.2.2.2

/-- The point before, as a bound. -/
theorem pred_lt (t : Fin cfg0.N) : t.val - 1 < cfg0.N := Nat.lt_of_le_of_lt (Nat.sub_le _ _) t.isLt

theorem ne_zero_of_notZ (t : Fin cfg0.N) (hZ : ¬condZ (grid0.coords t)) : t.val ≠ 0 := fun h0 =>
  hZ ((condZ_iff t).mpr (by rw [h0]))
theorem ne_zero_of_notD (t : Fin cfg0.N) (hD : ¬condD (grid0.coords t)) : t.val ≠ 0 := fun h0 =>
  hD ((condD_iff t).mpr (by rw [h0]))

theorem outsAt_A (c : Dev nD) (t : Fin cfg0.N) (hZ : condZ (grid0.coords t)) (hD : condD (grid0.coords t)) (hL : ¬condL (grid0.coords t)) :
    outsAt m c t.val t.isLt = tupA m c t hZ hD hL := by
  obtain ⟨n, hn⟩ := t
  cases n with
  | zero => exact rfl
  | succ n => exact (dif_pos hZ).trans ((dif_pos hD).trans ((dif_neg hL).trans rfl))

theorem outsAt_B (c : Dev nD) (t : Fin cfg0.N) (hZ : condZ (grid0.coords t)) (hD : ¬condD (grid0.coords t)) (hL : ¬condL (grid0.coords t)) :
    outsAt m c t.val t.isLt = tupB m c t hZ hD hL (outsAt m c (t.val - 1) (pred_lt t)).2.2.2.2 := by
  obtain ⟨n, hn⟩ := t
  cases n with
  | zero => exact absurd rfl (ne_zero_of_notD ⟨0, hn⟩ hD)
  | succ n => exact (dif_pos hZ).trans ((dif_neg hD).trans ((dif_neg hL).trans rfl))

theorem outsAt_C (c : Dev nD) (t : Fin cfg0.N) (hZ : ¬condZ (grid0.coords t)) (hD : condD (grid0.coords t)) (hL : ¬condL (grid0.coords t)) :
    outsAt m c t.val t.isLt = tupC m c t hZ hD hL (outsAt m c (t.val - 1) (pred_lt t)).2.2.2.1 := by
  obtain ⟨n, hn⟩ := t
  cases n with
  | zero => exact absurd rfl (ne_zero_of_notZ ⟨0, hn⟩ hZ)
  | succ n => exact (dif_neg hZ).trans ((dif_pos hD).trans ((dif_neg hL).trans rfl))

theorem outsAt_D (c : Dev nD) (t : Fin cfg0.N) (hZ : ¬condZ (grid0.coords t)) (hD : ¬condD (grid0.coords t)) (hL : ¬condL (grid0.coords t)) :
    outsAt m c t.val t.isLt = tupD m c t hZ hD hL (outsAt m c (t.val - 1) (pred_lt t)).2.2.2.1 (outsAt m c (t.val - 1) (pred_lt t)).2.2.2.2 := by
  obtain ⟨n, hn⟩ := t
  cases n with
  | zero => exact absurd rfl (ne_zero_of_notZ ⟨0, hn⟩ hZ)
  | succ n => exact (dif_neg hZ).trans ((dif_neg hD).trans ((dif_neg hL).trans rfl))

theorem outsAt_E (c : Dev nD) (t : Fin cfg0.N) (hZ : ¬condZ (grid0.coords t)) (hD : condD (grid0.coords t)) (hL : condL (grid0.coords t)) :
    outsAt m c t.val t.isLt = tupE m c t hZ hD hL (outsAt m c (t.val - 1) (pred_lt t)).2.2.2.1 := by
  obtain ⟨n, hn⟩ := t
  cases n with
  | zero => exact absurd rfl (ne_zero_of_notZ ⟨0, hn⟩ hZ)
  | succ n => exact (dif_neg hZ).trans ((dif_pos hD).trans ((dif_pos hL).trans rfl))

theorem outsAt_G (c : Dev nD) (t : Fin cfg0.N) (hZ : ¬condZ (grid0.coords t)) (hD : ¬condD (grid0.coords t)) (hL : condL (grid0.coords t)) :
    outsAt m c t.val t.isLt = tupG m c t hZ hD hL (outsAt m c (t.val - 1) (pred_lt t)).2.2.2.1 (outsAt m c (t.val - 1) (pred_lt t)).2.2.2.2 := by
  obtain ⟨n, hn⟩ := t
  cases n with
  | zero => exact absurd rfl (ne_zero_of_notZ ⟨0, hn⟩ hZ)
  | succ n => exact (dif_neg hZ).trans ((dif_neg hD).trans ((dif_pos hL).trans rfl))

/-! ## The invariant between points -/

/-- Before the first point the two scratch blocks hold anything; afterwards what the point before left. -/
def PhiS (c : Dev nD) : (n : ℕ) → n ≤ cfg0.N → sProp 𝕄
  | 0, _ => Pipeline.ΦA spec0 c
  | n + 1, hn => iprop(iprop(owns (c : Thread nD τ) accM fullShare ((outsAt m c n hn).2.2.2.1) ∗ owns (c : Thread nD τ) diagM fullShare ((outsAt m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((outsAt m c n hn).2.2.2.1) ∗ owns (c : Thread nD τ) diagM fullShare ((outsAt m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) accM fullShare ((outsAt m c (n - 1) (by omega)).2.2.2.1) ∗ owns (c : Thread nD τ) diagM fullShare ((outsAt m c (n - 1) (by omega)).2.2.2.2)) ∗ (∃ r, prngReg c r)) := by
  cases n with
  | zero => exact absurd rfl hz
  | succ n => rfl

/-- At any point the invariant holds the two scratch blocks at some contents. -/
theorem PhiS_weak (c : Dev nD) (n : ℕ) (h : n ≤ cfg0.N) :
    PhiS m c n h ⊢ iprop(iprop((∃ d, owns (c : Thread nD τ) accM fullShare d) ∗ (∃ d, owns (c : Thread nD τ) diagM fullShare d)) ∗ (∃ r, prngReg c r)) := by
  cases n with
  | zero => rw [PhiS_zero m c 0 h rfl, PhiA_eq]
  | succ n =>
    rw [PhiS_succ]
    iintro ⟨⟨HS0, HS1⟩, Hg⟩
    isplitl [HS0 HS1]
    · isplitl [HS0]
      · iexists _; iexact HS0
      iexists _; iexact HS1
    iexact Hg

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
    | ⟨7, _⟩ => (outsAt m c t.val t.isLt).2.1
    | ⟨8, _⟩ => (outsAt m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (outsAt m c t.val t.isLt).1 := by dsimp only [dats]
theorem after_7 (c : Dev nD) (t : Fin cfg0.N) : (dats m 0 c).after 7 t = (outsAt m c t.val t.isLt).2.1 := by dsimp only [dats]
theorem after_8 (c : Dev nD) (t : Fin cfg0.N) : (dats m 0 c).after 8 t = (outsAt m c t.val t.isLt).2.2.1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

end Cert.Kernel.Body

end
-- ==== Proof.K.Body.lean ====
/-
  The body obligation of the fused LIF step's pipeline, the run of @main and the frame: at every grid point the
  body, given the invariant's two scratch blocks, the inputs' buffers at their blocks and the results' buffers,
  runs to the end and leaves the tuple the recursion computes; so every weakly fair execution of @main terminates
  with the argument arrays unchanged and each result array at what the proof data's write-backs assemble.
-/
import proofs.«152879_j87522843560962_1_alg».proof.Proof.K.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 8000000 in
/-- The body at any point: its kind is decided by the three conditions; the invariant hands the body the two
    scratch blocks (at what the point before left, or at anything at the very first point) and takes them back
    at this point's tuple; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  rw [show (dats m 0 c).leavesExact 3 t = owns (c : Thread nD τ) (ms3 t) fullShare ((dats m 0 c).after 3 t) from by
    unfold Dat.leavesExact; rw [live_3 t], after_3]
  rw [show (dats m 0 c).leavesExact 4 t = owns (c : Thread nD τ) (ms4 t) fullShare ((dats m 0 c).after 4 t) from by
    unfold Dat.leavesExact; rw [live_4 t], after_4]
  rw [show (dats m 0 c).leavesExact 5 t = owns (c : Thread nD τ) (ms5 t) fullShare ((dats m 0 c).after 5 t) from by
    unfold Dat.leavesExact; rw [live_5 t], after_5]
  by_cases hZ : condZ (grid0.coords t)
  · by_cases hD : condD (grid0.coords t)
    · by_cases hL : condL (grid0.coords t)
      · exfalso; have h1 := (condZ_iff t).mp hZ; have h2 := (condL_iff t).mp hL; omega
      · rw [Dat.leavesExact_idle (dats m 0 c) 6 t (idle_6 t hL) (noFlush_6 t hL)]
        rw [Dat.leavesExact_idle (dats m 0 c) 7 t (idle_7 t hL) (noFlush_7 t hL)]
        rw [Dat.leavesExact_idle (dats m 0 c) 8 t (idle_8 t hL) (noFlush_8 t hL)]
        rw [outsAt_A m c t hZ hD hL]
        unfold tupA accA diagA; (try dsimp only)
        rw [PhiS_castSucc m c t]
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        ihave HΦ' := (PhiS_weak m c _ _) $$ HΦ
        icases HΦ' with ⟨⟨HS0, HS1⟩, Hg⟩
        iapply ((kernelRunA c (grid0.coords t) _ _ _ _ _ _ _ _ _ _ _ _ _ _ _ _ _ _ _ _ _ _ hZ hD hL (b0 m c t) (b1 m c t) (b2 m c t) (b3 m c t) (b4 m c t) (b5 m c t)).2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (accA_cover c _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (diagA_cover c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        iexists _; iexact H8
    · by_cases hL : condL (grid0.coords t)
      · exfalso; have h1 := (condZ_iff t).mp hZ; have h2 := (condL_iff t).mp hL; omega
      · rw [Dat.leavesExact_idle (dats m 0 c) 6 t (idle_6 t hL) (noFlush_6 t hL)]
        rw [Dat.leavesExact_idle (dats m 0 c) 7 t (idle_7 t hL) (noFlush_7 t hL)]
        rw [Dat.leavesExact_idle (dats m 0 c) 8 t (idle_8 t hL) (noFlush_8 t hL)]
        rw [outsAt_B m c t hZ hD hL]
        unfold tupB accB; (try dsimp only)
        rw [PhiS_castSucc m c t, PhiS_pos m c _ _ (ne_zero_of_notD t hD)]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRunB c (grid0.coords t) _ _ _ _ _ _ _ _ _ _ _ _ _ _ _ _ _ _ _ _ _ _ hZ hD hL (b0 m c t) (b1 m c t) (b2 m c t) (b3 m c t) (b4 m c t) (b5 m c t) _).2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        isplitl [HS1]; · iexact HS1
        iintro ⟨H0, H1, H2, H3, H4, H5, H6, H7, H8, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (accB_cover c _ _ _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        iexists _; iexact H8
  · by_cases hD : condD (grid0.coords t)
    · by_cases hL : condL (grid0.coords t)
      · rw [show (dats m 0 c).leavesExact 6 t = owns (c : Thread nD τ) (ms6 t) fullShare ((dats m 0 c).after 6 t) from by
          unfold Dat.leavesExact; rw [live_6 t hL], after_6]
        rw [show (dats m 0 c).leavesExact 7 t = owns (c : Thread nD τ) (ms7 t) fullShare ((dats m 0 c).after 7 t) from by
          unfold Dat.leavesExact; rw [live_7 t hL], after_7]
        rw [show (dats m 0 c).leavesExact 8 t = owns (c : Thread nD τ) (ms8 t) fullShare ((dats m 0 c).after 8 t) from by
          unfold Dat.leavesExact; rw [live_8 t hL], after_8]
        rw [outsAt_E m c t hZ hD hL]
        unfold tupE o6E o7E o8E accE diagE; (try dsimp only)
        rw [PhiS_castSucc m c t, PhiS_pos m c _ _ (ne_zero_of_notZ t hZ)]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRunE c (grid0.coords t) _ _ _ _ _ _ _ _ _ _ _ _ _ _ _ _ _ _ _ _ _ _ hZ hD hL (b0 m c t) (b1 m c t) (b2 m c t) (b3 m c t) (b4 m c t) (b5 m c t) _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [HS0]; · iexact HS0
        isplitl [HS1]; · iexists _; iexact HS1
        iintro ⟨H0, H1, H2, H3, H4, H5, ⟨%e6, H6⟩, ⟨%e7, H7⟩, ⟨%e8, H8⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (accE_cover c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (diagE_cover c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (o6E_cover c _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (o7E_cover c _ _ _ _ _ _ _ _ _ _ _ _ _ _ _ _ _ _ _ _ _ _ _ _ _ _ _ _ _ _ _ _ _)
        unfold owns; iexists _; isplitr
        swap; · iexact H8
        ipureintro; exact View.read_writes_of_cover _ _ _ _ _ (o8E_cover c _ _ _ _ _ _ _ _ _ _ _ _ _ _ _ _ _ _ _ _ _ _ _ _ _ _ _ _ _ _ _ _ _)
      · rw [Dat.leavesExact_idle (dats m 0 c) 6 t (idle_6 t hL) (noFlush_6 t hL)]
        rw [Dat.leavesExact_idle (dats m 0 c) 7 t (idle_7 t hL) (noFlush_7 t hL)]
        rw [Dat.leavesExact_idle (dats m 0 c) 8 t (idle_8 t hL) (noFlush_8 t hL)]
        rw [outsAt_C m c t hZ hD hL]
        unfold tupC accC diagC; (try dsimp only)
        rw [PhiS_castSucc m c t, PhiS_pos m c _ _ (ne_zero_of_notZ t hZ)]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRunC c (grid0.coords t) _ _ _ _ _ _ _ _ _ _ _ _ _ _ _ _ _ _ _ _ _ _ hZ hD hL (b0 m c t) (b1 m c t) (b2 m c t) (b3 m c t) (b4 m c t) (b5 m c t) _).2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexists _; iexact HS1
        iintro ⟨H0, H1, H2, H3, H4, H5, H6, H7, H8, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (accC_cover c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (diagC_cover c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        iexists _; iexact H8
    · by_cases hL : condL (grid0.coords t)
      · rw [show (dats m 0 c).leavesExact 6 t = owns (c : Thread nD τ) (ms6 t) fullShare ((dats m 0 c).after 6 t) from by
          unfold Dat.leavesExact; rw [live_6 t hL], after_6]
        rw [show (dats m 0 c).leavesExact 7 t = owns (c : Thread nD τ) (ms7 t) fullShare ((dats m 0 c).after 7 t) from by
          unfold Dat.leavesExact; rw [live_7 t hL], after_7]
        rw [show (dats m 0 c).leavesExact 8 t = owns (c : Thread nD τ) (ms8 t) fullShare ((dats m 0 c).after 8 t) from by
          unfold Dat.leavesExact; rw [live_8 t hL], after_8]
        rw [outsAt_G m c t hZ hD hL]
        unfold tupG o6G o7G o8G accG; (try dsimp only)
        rw [PhiS_castSucc m c t, PhiS_pos m c _ _ (ne_zero_of_notZ t hZ)]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRunG c (grid0.coords t) _ _ _ _ _ _ _ _ _ _ _ _ _ _ _ _ _ _ _ _ _ _ hZ hD hL (b0 m c t) (b1 m c t) (b2 m c t) (b3 m c t) (b4 m c t) (b5 m c t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [HS0]; · iexact HS0
        isplitl [HS1]; · iexact HS1
        iintro ⟨H0, H1, H2, H3, H4, H5, ⟨%e6, H6⟩, ⟨%e7, H7⟩, ⟨%e8, H8⟩, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (accG_cover c _ _ _ _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (o6G_cover c _ _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (o7G_cover c _ _ _ _ _ _ _ _ _ _ _ _ _ _ _ _ _ _ _ _ _ _ _ _ _ _ _ _ _ _ _ _ _ _)
        unfold owns; iexists _; isplitr
        swap; · iexact H8
        ipureintro; exact View.read_writes_of_cover _ _ _ _ _ (o8G_cover c _ _ _ _ _ _ _ _ _ _ _ _ _ _ _ _ _ _ _ _ _ _ _ _ _ _ _ _ _ _ _ _ _ _)
      · rw [Dat.leavesExact_idle (dats m 0 c) 6 t (idle_6 t hL) (noFlush_6 t hL)]
        rw [Dat.leavesExact_idle (dats m 0 c) 7 t (idle_7 t hL) (noFlush_7 t hL)]
        rw [Dat.leavesExact_idle (dats m 0 c) 8 t (idle_8 t hL) (noFlush_8 t hL)]
        rw [outsAt_D m c t hZ hD hL]
        unfold tupD accD; (try dsimp only)
        rw [PhiS_castSucc m c t, PhiS_pos m c _ _ (ne_zero_of_notZ t hZ)]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRunD c (grid0.coords t) _ _ _ _ _ _ _ _ _ _ _ _ _ _ _ _ _ _ _ _ _ _ hZ hD hL (b0 m c t) (b1 m c t) (b2 m c t) (b3 m c t) (b4 m c t) (b5 m c t) _ _).2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (accD_cover c _ _ _ _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch blocks back at some contents. -/
theorem Phi_weak (c : Dev nD) (t : Fin (cfg0.N + 1)) : (dats m 0 c).Φ t ⊢ Pipeline.ΦA spec0 c := by
  rw [show (dats m 0 c).Φ t = PhiS m c t.val (Nat.le_of_lt_succ t.isLt) from rfl, PhiA_eq]
  exact PhiS_weak m c _ _

theorem hout (c : Dev nD) : (dats m 0 c).Φ (Fin.last cfg0.N) ⊢ Pipeline.ΦA spec0 c := Phi_weak m c _

set_option backward.isDefEq.respectTransparency.types false in
/-- Every weakly fair execution of @main terminates, every array of the pipeline at what the proof data's
    write-backs assemble and nothing else changed. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: @main runs to the end and leaves its six argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KI.Runs.lean ====
/-
  The fused LIF step keeps two 512x512 scratch blocks between grid points (bi, bj, bk): the running sum of the
  two matrix products over the reduction blocks bk (reset where bk = 0) and the (bi, bj) block of the spikes z0,
  captured where bk = bj; the three results are stored only where bk = 7. Here: the three branch conditions as
  propositions over a grid point, where the output windows are idle, and the names of the memrefs the body is
  called with.
-/
import proofs.«152879_j87522843560962_1_alg».proof.Proof.Gen.KernelIdeal.Frame
import proofs.«152879_j87522843560962_1_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions -/

/-- The reduction block is the first one (bk = 0): the running sum is reset. -/
abbrev condZ (i : grid0.Coords) : Prop :=
  (Scalar.cmpi .ne (Scalar.extui (Scalar.cmpi .eq (BitVec.ofNat 32 (i 2).val) 0#32)) 0#32) = 1#1
/-- The reduction block is the diagonal one (bk = bj): the spikes' block is captured. -/
abbrev condD (i : grid0.Coords) : Prop :=
  (Scalar.cmpi .ne (Scalar.extui (Scalar.cmpi .eq (BitVec.ofNat 32 (i 2).val) (BitVec.ofNat 32 (i 1).val))) 0#32) = 1#1
/-- The reduction block is the last one (bk = 7): the results are stored. -/
abbrev condL (i : grid0.Coords) : Prop := k0_cond3 i = 1#1

instance (i : grid0.Coords) : Decidable (condZ i) := by unfold condZ; infer_instance
instance (i : grid0.Coords) : Decidable (condD i) := by unfold condD; infer_instance
instance (i : grid0.Coords) : Decidable (condL i) := by unfold condL; infer_instance

theorem condZ_iff : ∀ t : Fin cfg0.N, condZ (grid0.coords t) ↔ t.val % 8 = 0 :=
  (by decide +kernel : ∀ t : Fin grid0.N, condZ (grid0.coords t) ↔ t.val % 8 = 0)
theorem condD_iff : ∀ t : Fin cfg0.N, condD (grid0.coords t) ↔ t.val % 8 = (t.val / 8) % 8 :=
  (by decide +kernel : ∀ t : Fin grid0.N, condD (grid0.coords t) ↔ t.val % 8 = (t.val / 8) % 8)
theorem condL_iff : ∀ t : Fin cfg0.N, condL (grid0.coords t) ↔ t.val % 8 = 7 :=
  (by decide +kernel : ∀ t : Fin grid0.N, condL (grid0.coords t) ↔ t.val % 8 = 7)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
/-- Away from the last reduction block the three results' windows are idle and not written back. -/
theorem idle_6 : ∀ t : Fin cfg0.N, ¬condL (grid0.coords t) → cfg0.idle 6 (grid0.coords t) = true := by decide +kernel
theorem idle_7 : ∀ t : Fin cfg0.N, ¬condL (grid0.coords t) → cfg0.idle 7 (grid0.coords t) = true := by decide +kernel
theorem idle_8 : ∀ t : Fin cfg0.N, ¬condL (grid0.coords t) → cfg0.idle 8 (grid0.coords t) = true := by decide +kernel
theorem noFlush_6 : ∀ t : Fin cfg0.N, ¬condL (grid0.coords t) → (cfg0.win 6).flush t = false := by decide +kernel
theorem noFlush_7 : ∀ t : Fin cfg0.N, ¬condL (grid0.coords t) → (cfg0.win 7).flush t = false := by decide +kernel
theorem noFlush_8 : ∀ t : Fin cfg0.N, ¬condL (grid0.coords t) → (cfg0.win 8).flush t = false := by decide +kernel
/-- At the last reduction block they are live. -/
theorem live_6 : ∀ t : Fin cfg0.N, condL (grid0.coords t) → cfg0.idle 6 (grid0.coords t) = false := by decide +kernel
theorem live_7 : ∀ t : Fin cfg0.N, condL (grid0.coords t) → cfg0.idle 7 (grid0.coords t) = false := by decide +kernel
theorem live_8 : ∀ t : Fin cfg0.N, condL (grid0.coords t) → cfg0.idle 8 (grid0.coords t) = false := by decide +kernel

/-! ## The memrefs the body is called with -/

abbrev ms0 (t : Fin cfg0.N) : Memref sig .tc .vmem S512x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x512 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x512 .i32 := win0_8.stage (cfg0.slots t 8)
abbrev hs8 (t : Fin cfg0.N) : (ms8 t).IsWhole := hstage0_8 ((cfg0.slots t 8).cast nbuf0_8)
/-- The running sum's scratch block and the captured spikes' scratch block. -/
abbrev accM : Memref sig .tc .vmem S512x512 .f32 := Memref.whole cc0_scratch0
abbrev diagM : Memref sig .tc .vmem S512x512 .f32 := Memref.whole cc0_scratch1
/-- One view per kind of block, through which contents are read back. -/
abbrev VF : View sig .tc .vmem S512x512 .f32 := accM.view
abbrev VD : View sig .tc .vmem S512x512 .f32 := diagM.view
abbrev VO6 : View sig .tc .vmem S512x512 .f32 := (Memref.whole cc0_stg6_0 : Memref sig .tc .vmem S512x512 .f32).view
abbrev VO7 : View sig .tc .vmem S512x512 .f32 := (Memref.whole cc0_stg7_0 : Memref sig .tc .vmem S512x512 .f32).view
abbrev VO8 : View sig .tc .vmem S512x512 .i32 := (Memref.whole cc0_stg8_0 : Memref sig .tc .vmem S512x512 .i32).view

/-- What the launch hands the region besides the windows: the two scratch blocks at some contents, and the
    generator register. -/
theorem PhiA_eq (c : Dev nD) :
    (Pipeline.ΦA spec0 c : sProp 𝕄)
      = iprop(iprop((∃ d, owns (c : Thread nD τ) accM fullShare d) ∗ (∃ d, owns (c : Thread nD τ) diagM fullShare d)) ∗ (∃ r, prngReg c r)) := by
  unfold Pipeline.ΦA; rw [scopedRest0_eq]; simp only [accM, diagM, owns_whole]; try rfl

end Cert.KernelIdeal.Body

end
-- ==== Proof.KI.RunA.lean ====
/-
  The body of the fused LIF step run at a grid point of one kind — the first reduction block, on the diagonal (bk = 0 = bj): the running sum is reset and the spikes' block captured.
  On whole memrefs holding the six input blocks, the three result buffers at contents handed back untouched, the running sum's
  scratch at anything (it is reset before it is read) and the captured block's scratch at anything (it is overwritten), the body runs to the end;
  what it stores into each buffer it writes is found as a list of pieces (the last store first).
-/
import proofs.«152879_j87522843560962_1_alg».proof.Proof.KI.Runs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunA (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : condZ i) (hD : condD i) (hL : ¬condL i)
    (x0 x1 x2 x3 x4 : Vec F S512x512 .f32) (x5 : Vec F S512x512 .i32) :
    Σ' (LS0 : List (View.Piece (Elt F) S512x512 .f32)), { LS1 : List (View.Piece (Elt F) S512x512 .f32) //
      ∀ (xi6 xi7 : Vec F S512x512 .f32) (xi8 : Vec F S512x512 .i32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xi7 ∗ owns (c : Thread nD τ) arg11 fullShare xi8 ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xi7 ∗ owns (c : Thread nD τ) arg11 fullShare xi8 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13) K } := by
  refine ⟨?_, ?_, fun xi6 xi7 xi8 E K => ?run⟩
  case run =>
    simp only [cc0__lif_kernel_eq_skeleton]; unfold cc0__lif_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | exact hZ | exact hD | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    iexists _; iexact H10

end Cert.KernelIdeal.Body

end
-- ==== Proof.KI.RunB.lean ====
/-
  The body of the fused LIF step run at a grid point of one kind — the first reduction block, off the diagonal (bk = 0 ≠ bj): the running sum is reset.
  On whole memrefs holding the six input blocks, the three result buffers at contents handed back untouched, the running sum's
  scratch at anything (it is reset before it is read) and the captured block's scratch at what the point before left, the body runs to the end;
  what it stores into each buffer it writes is found as a list of pieces (the last store first).
-/
import proofs.«152879_j87522843560962_1_alg».proof.Proof.KI.RunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunB (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : condZ i) (hD : ¬condD i) (hL : ¬condL i)
    (x0 x1 x2 x3 x4 : Vec F S512x512 .f32) (x5 : Vec F S512x512 .i32) (xs1 : Vec F S512x512 .f32) :
    { LS0 : List (View.Piece (Elt F) S512x512 .f32) //
      ∀ (xi6 xi7 : Vec F S512x512 .f32) (xi8 : Vec F S512x512 .i32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xi7 ∗ owns (c : Thread nD τ) arg11 fullShare xi8 ∗ (∃ d, owns (c : Thread nD τ) arg12 fullShare d) ∗ owns (c : Thread nD τ) arg13 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xi7 ∗ owns (c : Thread nD τ) arg11 fullShare xi8 ∗ (∃ f, arg12.view.loc (c : Thread nD τ) ↦[arg12.view.set]{fullShare} arg12.view.writes (Elt F) f LS0) ∗ owns (c : Thread nD τ) arg13 fullShare xs1) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13) K } := by
  refine ⟨?_, fun xi6 xi7 xi8 E K => ?run⟩
  case run =>
    simp only [cc0__lif_kernel_eq_skeleton]; unfold cc0__lif_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg13.eq_unread hf10
    sl_exec (disch := first | exact hZ | exact hD | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    iexists _; isplitr; · ipureintro; exact harg13.read_unread _
    iexact H10

end Cert.KernelIdeal.Body

end
-- ==== Proof.KI.RunC.lean ====
/-
  The body of the fused LIF step run at a grid point of one kind — a later reduction block on the diagonal, not the last (0 < bk = bj < 7): the spikes' block is captured.
  On whole memrefs holding the six input blocks, the three result buffers at contents handed back untouched, the running sum's
  scratch at what the point before left and the captured block's scratch at anything (it is overwritten), the body runs to the end;
  what it stores into each buffer it writes is found as a list of pieces (the last store first).
-/
import proofs.«152879_j87522843560962_1_alg».proof.Proof.KI.RunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunC (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : ¬condL i)
    (x0 x1 x2 x3 x4 : Vec F S512x512 .f32) (x5 : Vec F S512x512 .i32) (xs0 : Vec F S512x512 .f32) :
    Σ' (LS0 : List (View.Piece (Elt F) S512x512 .f32)), { LS1 : List (View.Piece (Elt F) S512x512 .f32) //
      ∀ (xi6 xi7 : Vec F S512x512 .f32) (xi8 : Vec F S512x512 .i32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xi7 ∗ owns (c : Thread nD τ) arg11 fullShare xi8 ∗ owns (c : Thread nD τ) arg12 fullShare xs0 ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xi7 ∗ owns (c : Thread nD τ) arg11 fullShare xi8 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13) K } := by
  refine ⟨?_, ?_, fun xi6 xi7 xi8 E K => ?run⟩
  case run =>
    simp only [cc0__lif_kernel_eq_skeleton]; unfold cc0__lif_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | exact hZ | exact hD | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    iexists _; iexact H10

end Cert.KernelIdeal.Body

end
-- ==== Proof.KI.RunD.lean ====
/-
  The body of the fused LIF step run at a grid point of one kind — a later reduction block off the diagonal, not the last: only the running sum moves.
  On whole memrefs holding the six input blocks, the three result buffers at contents handed back untouched, the running sum's
  scratch at what the point before left and the captured block's scratch at what the point before left, the body runs to the end;
  what it stores into each buffer it writes is found as a list of pieces (the last store first).
-/
import proofs.«152879_j87522843560962_1_alg».proof.Proof.KI.RunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunD (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : ¬condL i)
    (x0 x1 x2 x3 x4 : Vec F S512x512 .f32) (x5 : Vec F S512x512 .i32) (xs0 : Vec F S512x512 .f32) (xs1 : Vec F S512x512 .f32) :
    { LS0 : List (View.Piece (Elt F) S512x512 .f32) //
      ∀ (xi6 xi7 : Vec F S512x512 .f32) (xi8 : Vec F S512x512 .i32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xi7 ∗ owns (c : Thread nD τ) arg11 fullShare xi8 ∗ owns (c : Thread nD τ) arg12 fullShare xs0 ∗ owns (c : Thread nD τ) arg13 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xi7 ∗ owns (c : Thread nD τ) arg11 fullShare xi8 ∗ (∃ f, arg12.view.loc (c : Thread nD τ) ↦[arg12.view.set]{fullShare} arg12.view.writes (Elt F) f LS0) ∗ owns (c : Thread nD τ) arg13 fullShare xs1) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13) K } := by
  refine ⟨?_, fun xi6 xi7 xi8 E K => ?run⟩
  case run =>
    simp only [cc0__lif_kernel_eq_skeleton]; unfold cc0__lif_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    sl_exec (disch := first | exact hZ | exact hD | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    iexists _; isplitr; · ipureintro; exact harg13.read_unread _
    iexact H10

end Cert.KernelIdeal.Body

end
-- ==== Proof.KI.RunE.lean ====
/-
  The body of the fused LIF step run at a grid point of one kind — the last reduction block, on the diagonal (bk = 7 = bj): the spikes' block is captured and the results stored.
  On whole memrefs holding the six input blocks, the three result buffers at anything, the running sum's
  scratch at what the point before left and the captured block's scratch at anything (it is overwritten), the body runs to the end;
  what it stores into each buffer it writes is found as a list of pieces (the last store first).
-/
import proofs.«152879_j87522843560962_1_alg».proof.Proof.KI.RunD

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunE (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : condL i)
    (x0 x1 x2 x3 x4 : Vec F S512x512 .f32) (x5 : Vec F S512x512 .i32) (xs0 : Vec F S512x512 .f32) :
    Σ' (L6 : List (View.Piece (Elt F) S512x512 .f32)) (L7 : List (View.Piece (Elt F) S512x512 .f32)) (L8 : List (View.Piece (Elt F) S512x512 .i32)) (LS0 : List (View.Piece (Elt F) S512x512 .f32)), { LS1 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0__lif_kernel_eq_skeleton]; unfold cc0__lif_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%d10, %f10, -, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg12.eq_unread hf9
    sl_exec (disch := first | exact hZ | exact hD | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [H8]; · iexists _; iexact H8
    isplitl [H9]; · iexists _; iexact H9
    iexists _; iexact H10

end Cert.KernelIdeal.Body

end
-- ==== Proof.KI.RunG.lean ====
/-
  The body of the fused LIF step run at a grid point of one kind — the last reduction block, off the diagonal (bk = 7 ≠ bj): the results are stored.
  On whole memrefs holding the six input blocks, the three result buffers at anything, the running sum's
  scratch at what the point before left and the captured block's scratch at what the point before left, the body runs to the end;
  what it stores into each buffer it writes is found as a list of pieces (the last store first).
-/
import proofs.«152879_j87522843560962_1_alg».proof.Proof.KI.RunE

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunG (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : condL i)
    (x0 x1 x2 x3 x4 : Vec F S512x512 .f32) (x5 : Vec F S512x512 .i32) (xs0 : Vec F S512x512 .f32) (xs1 : Vec F S512x512 .f32) :
    Σ' (L6 : List (View.Piece (Elt F) S512x512 .f32)) (L7 : List (View.Piece (Elt F) S512x512 .f32)) (L8 : List (View.Piece (Elt F) S512x512 .i32)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0) ∗ owns (c : Thread nD τ) arg13 fullShare xs1) -∗ K ⟨⟩))
          ⊢ wp frame (wpE (defs₀ (F := F)) Variants.none c none) E (cc0__lif_kernel i arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0__lif_kernel_eq_skeleton]; unfold cc0__lif_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg12.eq_unread hf9; obtain rfl := harg13.eq_unread hf10
    sl_exec (disch := first | exact hZ | exact hD | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [H8]; · iexists _; iexact H8
    isplitl [H9]; · iexists _; iexact H9
    iexists _; isplitr; · ipureintro; exact harg13.read_unread _
    iexact H10

end Cert.KernelIdeal.Body

end
-- ==== Proof.KI.Data.lean ====
/-
  The proof data of the fused LIF step's one pipeline, and its frame. After the body at grid point t the three
  result buffers and the two scratch blocks hold a tuple computed by recursion on the point: the kind of the point
  (which of bk = 0, bk = bj, bk = 7 hold) selects the run, which is given the six input blocks at t and, where it
  reads them, the running sum and the captured block the point before left. The results' windows are idle except
  at the last reduction block, where they are stored and then written back.
-/
import proofs.«152879_j87522843560962_1_alg».proof.Proof.KI.RunG

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves, read back from the run's pieces -/

theorem accA_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : condZ i) (hD : condD i) (hL : ¬condL i)
    (x0 x1 x2 x3 x4 : Vec F S512x512 .f32) (x5 : Vec F S512x512 .i32) (y : S512x512.Idx) :
    ∃ pc ∈ (kernelRunA c i arg3 harg3 arg4 harg4 arg5 harg5 arg6 harg6 arg7 harg7 arg8 harg8 arg9 harg9 arg10 harg10 arg11 harg11 arg12 harg12 arg13 harg13 hZ hD hL x0 x1 x2 x3 x4 x5).1, y ∈ pc.1.set :=
  View.cover_of_tiledL (kernelRunA c i arg3 harg3 arg4 harg4 arg5 harg5 arg6 harg6 arg7 harg7 arg8 harg8 arg9 harg9 arg10 harg10 arg11 harg11 arg12 harg12 arg13 harg13 hZ hD hL x0 x1 x2 x3 x4 x5).1 S512x512.size (by sl_kernel_rfl) y

def accA (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : condZ i) (hD : condD i) (hL : ¬condL i)
    (x0 x1 x2 x3 x4 : Vec F S512x512 .f32) (x5 : Vec F S512x512 .i32) : Vec F S512x512 .f32 :=
  VF.read (Elt F) (VF.writes (Elt F) VF.junk (kernelRunA c i arg3 harg3 arg4 harg4 arg5 harg5 arg6 harg6 arg7 harg7 arg8 harg8 arg9 harg9 arg10 harg10 arg11 harg11 arg12 harg12 arg13 harg13 hZ hD hL x0 x1 x2 x3 x4 x5).1)

theorem diagA_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : condZ i) (hD : condD i) (hL : ¬condL i)
    (x0 x1 x2 x3 x4 : Vec F S512x512 .f32) (x5 : Vec F S512x512 .i32) (y : S512x512.Idx) :
    ∃ pc ∈ (kernelRunA c i arg3 harg3 arg4 harg4 arg5 harg5 arg6 harg6 arg7 harg7 arg8 harg8 arg9 harg9 arg10 harg10 arg11 harg11 arg12 harg12 arg13 harg13 hZ hD hL x0 x1 x2 x3 x4 x5).2.1, y ∈ pc.1.set :=
  View.cover_of_tiledL (kernelRunA c i arg3 harg3 arg4 harg4 arg5 harg5 arg6 harg6 arg7 harg7 arg8 harg8 arg9 harg9 arg10 harg10 arg11 harg11 arg12 harg12 arg13 harg13 hZ hD hL x0 x1 x2 x3 x4 x5).2.1 S512x512.size (by sl_kernel_rfl) y

def diagA (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : condZ i) (hD : condD i) (hL : ¬condL i)
    (x0 x1 x2 x3 x4 : Vec F S512x512 .f32) (x5 : Vec F S512x512 .i32) : Vec F S512x512 .f32 :=
  VD.read (Elt F) (VD.writes (Elt F) VD.junk (kernelRunA c i arg3 harg3 arg4 harg4 arg5 harg5 arg6 harg6 arg7 harg7 arg8 harg8 arg9 harg9 arg10 harg10 arg11 harg11 arg12 harg12 arg13 harg13 hZ hD hL x0 x1 x2 x3 x4 x5).2.1)

theorem accB_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : condZ i) (hD : ¬condD i) (hL : ¬condL i)
    (x0 x1 x2 x3 x4 : Vec F S512x512 .f32) (x5 : Vec F S512x512 .i32) (xs1 : Vec F S512x512 .f32) (y : S512x512.Idx) :
    ∃ pc ∈ (kernelRunB c i arg3 harg3 arg4 harg4 arg5 harg5 arg6 harg6 arg7 harg7 arg8 harg8 arg9 harg9 arg10 harg10 arg11 harg11 arg12 harg12 arg13 harg13 hZ hD hL x0 x1 x2 x3 x4 x5 xs1).1, y ∈ pc.1.set :=
  View.cover_of_tiledL (kernelRunB c i arg3 harg3 arg4 harg4 arg5 harg5 arg6 harg6 arg7 harg7 arg8 harg8 arg9 harg9 arg10 harg10 arg11 harg11 arg12 harg12 arg13 harg13 hZ hD hL x0 x1 x2 x3 x4 x5 xs1).1 S512x512.size (by sl_kernel_rfl) y

def accB (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : condZ i) (hD : ¬condD i) (hL : ¬condL i)
    (x0 x1 x2 x3 x4 : Vec F S512x512 .f32) (x5 : Vec F S512x512 .i32) (xs1 : Vec F S512x512 .f32) : Vec F S512x512 .f32 :=
  VF.read (Elt F) (VF.writes (Elt F) VF.junk (kernelRunB c i arg3 harg3 arg4 harg4 arg5 harg5 arg6 harg6 arg7 harg7 arg8 harg8 arg9 harg9 arg10 harg10 arg11 harg11 arg12 harg12 arg13 harg13 hZ hD hL x0 x1 x2 x3 x4 x5 xs1).1)

theorem accC_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : ¬condL i)
    (x0 x1 x2 x3 x4 : Vec F S512x512 .f32) (x5 : Vec F S512x512 .i32) (xs0 : Vec F S512x512 .f32) (y : S512x512.Idx) :
    ∃ pc ∈ (kernelRunC c i arg3 harg3 arg4 harg4 arg5 harg5 arg6 harg6 arg7 harg7 arg8 harg8 arg9 harg9 arg10 harg10 arg11 harg11 arg12 harg12 arg13 harg13 hZ hD hL x0 x1 x2 x3 x4 x5 xs0).1, y ∈ pc.1.set :=
  View.cover_of_tiledL (kernelRunC c i arg3 harg3 arg4 harg4 arg5 harg5 arg6 harg6 arg7 harg7 arg8 harg8 arg9 harg9 arg10 harg10 arg11 harg11 arg12 harg12 arg13 harg13 hZ hD hL x0 x1 x2 x3 x4 x5 xs0).1 S512x512.size (by sl_kernel_rfl) y

def accC (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : ¬condL i)
    (x0 x1 x2 x3 x4 : Vec F S512x512 .f32) (x5 : Vec F S512x512 .i32) (xs0 : Vec F S512x512 .f32) : Vec F S512x512 .f32 :=
  VF.read (Elt F) (VF.writes (Elt F) VF.junk (kernelRunC c i arg3 harg3 arg4 harg4 arg5 harg5 arg6 harg6 arg7 harg7 arg8 harg8 arg9 harg9 arg10 harg10 arg11 harg11 arg12 harg12 arg13 harg13 hZ hD hL x0 x1 x2 x3 x4 x5 xs0).1)

theorem diagC_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : ¬condL i)
    (x0 x1 x2 x3 x4 : Vec F S512x512 .f32) (x5 : Vec F S512x512 .i32) (xs0 : Vec F S512x512 .f32) (y : S512x512.Idx) :
    ∃ pc ∈ (kernelRunC c i arg3 harg3 arg4 harg4 arg5 harg5 arg6 harg6 arg7 harg7 arg8 harg8 arg9 harg9 arg10 harg10 arg11 harg11 arg12 harg12 arg13 harg13 hZ hD hL x0 x1 x2 x3 x4 x5 xs0).2.1, y ∈ pc.1.set :=
  View.cover_of_tiledL (kernelRunC c i arg3 harg3 arg4 harg4 arg5 harg5 arg6 harg6 arg7 harg7 arg8 harg8 arg9 harg9 arg10 harg10 arg11 harg11 arg12 harg12 arg13 harg13 hZ hD hL x0 x1 x2 x3 x4 x5 xs0).2.1 S512x512.size (by sl_kernel_rfl) y

def diagC (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : ¬condL i)
    (x0 x1 x2 x3 x4 : Vec F S512x512 .f32) (x5 : Vec F S512x512 .i32) (xs0 : Vec F S512x512 .f32) : Vec F S512x512 .f32 :=
  VD.read (Elt F) (VD.writes (Elt F) VD.junk (kernelRunC c i arg3 harg3 arg4 harg4 arg5 harg5 arg6 harg6 arg7 harg7 arg8 harg8 arg9 harg9 arg10 harg10 arg11 harg11 arg12 harg12 arg13 harg13 hZ hD hL x0 x1 x2 x3 x4 x5 xs0).2.1)

theorem accD_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : ¬condL i)
    (x0 x1 x2 x3 x4 : Vec F S512x512 .f32) (x5 : Vec F S512x512 .i32) (xs0 : Vec F S512x512 .f32) (xs1 : Vec F S512x512 .f32) (y : S512x512.Idx) :
    ∃ pc ∈ (kernelRunD c i arg3 harg3 arg4 harg4 arg5 harg5 arg6 harg6 arg7 harg7 arg8 harg8 arg9 harg9 arg10 harg10 arg11 harg11 arg12 harg12 arg13 harg13 hZ hD hL x0 x1 x2 x3 x4 x5 xs0 xs1).1, y ∈ pc.1.set :=
  View.cover_of_tiledL (kernelRunD c i arg3 harg3 arg4 harg4 arg5 harg5 arg6 harg6 arg7 harg7 arg8 harg8 arg9 harg9 arg10 harg10 arg11 harg11 arg12 harg12 arg13 harg13 hZ hD hL x0 x1 x2 x3 x4 x5 xs0 xs1).1 S512x512.size (by sl_kernel_rfl) y

def accD (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : ¬condL i)
    (x0 x1 x2 x3 x4 : Vec F S512x512 .f32) (x5 : Vec F S512x512 .i32) (xs0 : Vec F S512x512 .f32) (xs1 : Vec F S512x512 .f32) : Vec F S512x512 .f32 :=
  VF.read (Elt F) (VF.writes (Elt F) VF.junk (kernelRunD c i arg3 harg3 arg4 harg4 arg5 harg5 arg6 harg6 arg7 harg7 arg8 harg8 arg9 harg9 arg10 harg10 arg11 harg11 arg12 harg12 arg13 harg13 hZ hD hL x0 x1 x2 x3 x4 x5 xs0 xs1).1)

theorem o6E_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : condL i)
    (x0 x1 x2 x3 x4 : Vec F S512x512 .f32) (x5 : Vec F S512x512 .i32) (xs0 : Vec F S512x512 .f32) (y : S512x512.Idx) :
    ∃ pc ∈ (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).1, y ∈ pc.1.set :=
  View.cover_of_tiledL (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).1 S512x512.size (by sl_kernel_rfl) y

def o6E (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : condL i)
    (x0 x1 x2 x3 x4 : Vec F S512x512 .f32) (x5 : Vec F S512x512 .i32) (xs0 : Vec F S512x512 .f32) : Vec F S512x512 .f32 :=
  VO6.read (Elt F) (VO6.writes (Elt F) VO6.junk (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).1)

theorem o7E_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : condL i)
    (x0 x1 x2 x3 x4 : Vec F S512x512 .f32) (x5 : Vec F S512x512 .i32) (xs0 : Vec F S512x512 .f32) (y : S512x512.Idx) :
    ∃ pc ∈ (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).2.1, y ∈ pc.1.set :=
  View.cover_of_tiledL (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).2.1 S512x512.size (by sl_kernel_rfl) y

def o7E (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : condL i)
    (x0 x1 x2 x3 x4 : Vec F S512x512 .f32) (x5 : Vec F S512x512 .i32) (xs0 : Vec F S512x512 .f32) : Vec F S512x512 .f32 :=
  VO7.read (Elt F) (VO7.writes (Elt F) VO7.junk (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).2.1)

theorem o8E_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : condL i)
    (x0 x1 x2 x3 x4 : Vec F S512x512 .f32) (x5 : Vec F S512x512 .i32) (xs0 : Vec F S512x512 .f32) (y : S512x512.Idx) :
    ∃ pc ∈ (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).2.2.1, y ∈ pc.1.set :=
  View.cover_of_tiledL (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).2.2.1 S512x512.size (by sl_kernel_rfl) y

def o8E (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : condL i)
    (x0 x1 x2 x3 x4 : Vec F S512x512 .f32) (x5 : Vec F S512x512 .i32) (xs0 : Vec F S512x512 .f32) : Vec F S512x512 .i32 :=
  VO8.read (Elt F) (VO8.writes (Elt F) VO8.junk (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).2.2.1)

theorem accE_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : condL i)
    (x0 x1 x2 x3 x4 : Vec F S512x512 .f32) (x5 : Vec F S512x512 .i32) (xs0 : Vec F S512x512 .f32) (y : S512x512.Idx) :
    ∃ pc ∈ (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).2.2.2.1, y ∈ pc.1.set :=
  View.cover_of_tiledL (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).2.2.2.1 S512x512.size (by sl_kernel_rfl) y

def accE (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : condL i)
    (x0 x1 x2 x3 x4 : Vec F S512x512 .f32) (x5 : Vec F S512x512 .i32) (xs0 : Vec F S512x512 .f32) : Vec F S512x512 .f32 :=
  VF.read (Elt F) (VF.writes (Elt F) VF.junk (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).2.2.2.1)

theorem diagE_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : condL i)
    (x0 x1 x2 x3 x4 : Vec F S512x512 .f32) (x5 : Vec F S512x512 .i32) (xs0 : Vec F S512x512 .f32) (y : S512x512.Idx) :
    ∃ pc ∈ (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).2.2.2.2.1, y ∈ pc.1.set :=
  View.cover_of_tiledL (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).2.2.2.2.1 S512x512.size (by sl_kernel_rfl) y

def diagE (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : condL i)
    (x0 x1 x2 x3 x4 : Vec F S512x512 .f32) (x5 : Vec F S512x512 .i32) (xs0 : Vec F S512x512 .f32) : Vec F S512x512 .f32 :=
  VD.read (Elt F) (VD.writes (Elt F) VD.junk (kernelRunE c i arg3 harg3 arg4 harg4 arg5 harg5 arg6 harg6 arg7 harg7 arg8 harg8 arg9 harg9 arg10 harg10 arg11 harg11 arg12 harg12 arg13 harg13 hZ hD hL x0 x1 x2 x3 x4 x5 xs0).2.2.2.2.1)

theorem o6G_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : condL i)
    (x0 x1 x2 x3 x4 : Vec F S512x512 .f32) (x5 : Vec F S512x512 .i32) (xs0 : Vec F S512x512 .f32) (xs1 : Vec F S512x512 .f32) (y : S512x512.Idx) :
    ∃ pc ∈ (kernelRunG c i arg3 harg3 arg4 harg4 arg5 harg5 arg6 harg6 arg7 harg7 arg8 harg8 arg9 harg9 arg10 harg10 arg11 harg11 arg12 harg12 arg13 harg13 hZ hD hL x0 x1 x2 x3 x4 x5 xs0 xs1).1, y ∈ pc.1.set :=
  View.cover_of_tiledL (kernelRunG c i arg3 harg3 arg4 harg4 arg5 harg5 arg6 harg6 arg7 harg7 arg8 harg8 arg9 harg9 arg10 harg10 arg11 harg11 arg12 harg12 arg13 harg13 hZ hD hL x0 x1 x2 x3 x4 x5 xs0 xs1).1 S512x512.size (by sl_kernel_rfl) y

def o6G (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : condL i)
    (x0 x1 x2 x3 x4 : Vec F S512x512 .f32) (x5 : Vec F S512x512 .i32) (xs0 : Vec F S512x512 .f32) (xs1 : Vec F S512x512 .f32) : Vec F S512x512 .f32 :=
  VO6.read (Elt F) (VO6.writes (Elt F) VO6.junk (kernelRunG c i arg3 harg3 arg4 harg4 arg5 harg5 arg6 harg6 arg7 harg7 arg8 harg8 arg9 harg9 arg10 harg10 arg11 harg11 arg12 harg12 arg13 harg13 hZ hD hL x0 x1 x2 x3 x4 x5 xs0 xs1).1)

theorem o7G_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : condL i)
    (x0 x1 x2 x3 x4 : Vec F S512x512 .f32) (x5 : Vec F S512x512 .i32) (xs0 : Vec F S512x512 .f32) (xs1 : Vec F S512x512 .f32) (y : S512x512.Idx) :
    ∃ pc ∈ (kernelRunG c i arg3 harg3 arg4 harg4 arg5 harg5 arg6 harg6 arg7 harg7 arg8 harg8 arg9 harg9 arg10 harg10 arg11 harg11 arg12 harg12 arg13 harg13 hZ hD hL x0 x1 x2 x3 x4 x5 xs0 xs1).2.1, y ∈ pc.1.set :=
  View.cover_of_tiledL (kernelRunG c i arg3 harg3 arg4 harg4 arg5 harg5 arg6 harg6 arg7 harg7 arg8 harg8 arg9 harg9 arg10 harg10 arg11 harg11 arg12 harg12 arg13 harg13 hZ hD hL x0 x1 x2 x3 x4 x5 xs0 xs1).2.1 S512x512.size (by sl_kernel_rfl) y

def o7G (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : condL i)
    (x0 x1 x2 x3 x4 : Vec F S512x512 .f32) (x5 : Vec F S512x512 .i32) (xs0 : Vec F S512x512 .f32) (xs1 : Vec F S512x512 .f32) : Vec F S512x512 .f32 :=
  VO7.read (Elt F) (VO7.writes (Elt F) VO7.junk (kernelRunG c i arg3 harg3 arg4 harg4 arg5 harg5 arg6 harg6 arg7 harg7 arg8 harg8 arg9 harg9 arg10 harg10 arg11 harg11 arg12 harg12 arg13 harg13 hZ hD hL x0 x1 x2 x3 x4 x5 xs0 xs1).2.1)

theorem o8G_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : condL i)
    (x0 x1 x2 x3 x4 : Vec F S512x512 .f32) (x5 : Vec F S512x512 .i32) (xs0 : Vec F S512x512 .f32) (xs1 : Vec F S512x512 .f32) (y : S512x512.Idx) :
    ∃ pc ∈ (kernelRunG c i arg3 harg3 arg4 harg4 arg5 harg5 arg6 harg6 arg7 harg7 arg8 harg8 arg9 harg9 arg10 harg10 arg11 harg11 arg12 harg12 arg13 harg13 hZ hD hL x0 x1 x2 x3 x4 x5 xs0 xs1).2.2.1, y ∈ pc.1.set :=
  View.cover_of_tiledL (kernelRunG c i arg3 harg3 arg4 harg4 arg5 harg5 arg6 harg6 arg7 harg7 arg8 harg8 arg9 harg9 arg10 harg10 arg11 harg11 arg12 harg12 arg13 harg13 hZ hD hL x0 x1 x2 x3 x4 x5 xs0 xs1).2.2.1 S512x512.size (by sl_kernel_rfl) y

def o8G (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : condL i)
    (x0 x1 x2 x3 x4 : Vec F S512x512 .f32) (x5 : Vec F S512x512 .i32) (xs0 : Vec F S512x512 .f32) (xs1 : Vec F S512x512 .f32) : Vec F S512x512 .i32 :=
  VO8.read (Elt F) (VO8.writes (Elt F) VO8.junk (kernelRunG c i arg3 harg3 arg4 harg4 arg5 harg5 arg6 harg6 arg7 harg7 arg8 harg8 arg9 harg9 arg10 harg10 arg11 harg11 arg12 harg12 arg13 harg13 hZ hD hL x0 x1 x2 x3 x4 x5 xs0 xs1).2.2.1)

theorem accG_cover (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : condL i)
    (x0 x1 x2 x3 x4 : Vec F S512x512 .f32) (x5 : Vec F S512x512 .i32) (xs0 : Vec F S512x512 .f32) (xs1 : Vec F S512x512 .f32) (y : S512x512.Idx) :
    ∃ pc ∈ (kernelRunG c i arg3 harg3 arg4 harg4 arg5 harg5 arg6 harg6 arg7 harg7 arg8 harg8 arg9 harg9 arg10 harg10 arg11 harg11 arg12 harg12 arg13 harg13 hZ hD hL x0 x1 x2 x3 x4 x5 xs0 xs1).2.2.2.1, y ∈ pc.1.set :=
  View.cover_of_tiledL (kernelRunG c i arg3 harg3 arg4 harg4 arg5 harg5 arg6 harg6 arg7 harg7 arg8 harg8 arg9 harg9 arg10 harg10 arg11 harg11 arg12 harg12 arg13 harg13 hZ hD hL x0 x1 x2 x3 x4 x5 xs0 xs1).2.2.2.1 S512x512.size (by sl_kernel_rfl) y

def accG (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : condL i)
    (x0 x1 x2 x3 x4 : Vec F S512x512 .f32) (x5 : Vec F S512x512 .i32) (xs0 : Vec F S512x512 .f32) (xs1 : Vec F S512x512 .f32) : Vec F S512x512 .f32 :=
  VF.read (Elt F) (VF.writes (Elt F) VF.junk (kernelRunG c i arg3 harg3 arg4 harg4 arg5 harg5 arg6 harg6 arg7 harg7 arg8 harg8 arg9 harg9 arg10 harg10 arg11 harg11 arg12 harg12 arg13 harg13 hZ hD hL x0 x1 x2 x3 x4 x5 xs0 xs1).2.2.2.1)

/-! ## The tuple after each point -/

/-- The three result buffers, the running sum and the captured block. -/
abbrev Tup (F : FTy → Type) [FloatOps F] : Type :=
  Vec F S512x512 .f32 × Vec F S512x512 .f32 × Vec F S512x512 .i32 × Vec F S512x512 .f32 × Vec F S512x512 .f32

/-- What an idle result buffer is said to hold: never consulted. -/
def junk6 : Vec F S512x512 .f32 := VO6.read (Elt F) VO6.junk
def junk7 : Vec F S512x512 .f32 := VO7.read (Elt F) VO7.junk
def junk8 : Vec F S512x512 .i32 := VO8.read (Elt F) VO8.junk

/-- The six input blocks at a point, at their literal types. -/
abbrev b0 (c : Dev nD) (t : Fin cfg0.N) : Vec F S512x512 .f32 := iblk m c 0 t
abbrev b1 (c : Dev nD) (t : Fin cfg0.N) : Vec F S512x512 .f32 := iblk m c 1 t
abbrev b2 (c : Dev nD) (t : Fin cfg0.N) : Vec F S512x512 .f32 := iblk m c 2 t
abbrev b3 (c : Dev nD) (t : Fin cfg0.N) : Vec F S512x512 .f32 := iblk m c 3 t
abbrev b4 (c : Dev nD) (t : Fin cfg0.N) : Vec F S512x512 .f32 := iblk m c 4 t
abbrev b5 (c : Dev nD) (t : Fin cfg0.N) : Vec F S512x512 .i32 := iblk m c 5 t

/-- The tuple a point of kind A leaves. -/
def tupA (c : Dev nD) (t : Fin cfg0.N) (hZ : condZ (grid0.coords t)) (hD : condD (grid0.coords t)) (hL : ¬condL (grid0.coords t)) : Tup F :=
  (junk6, junk7, junk8, accA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t), diagA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t))

/-- The tuple a point of kind B leaves. -/
def tupB (c : Dev nD) (t : Fin cfg0.N) (hZ : condZ (grid0.coords t)) (hD : ¬condD (grid0.coords t)) (hL : ¬condL (grid0.coords t)) (xs1 : Vec F S512x512 .f32) : Tup F :=
  (junk6, junk7, junk8, accB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t) xs1, xs1)

/-- The tuple a point of kind C leaves. -/
def tupC (c : Dev nD) (t : Fin cfg0.N) (hZ : ¬condZ (grid0.coords t)) (hD : condD (grid0.coords t)) (hL : ¬condL (grid0.coords t)) (xs0 : Vec F S512x512 .f32) : Tup F :=
  (junk6, junk7, junk8, accC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t) xs0, diagC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t) xs0)

/-- The tuple a point of kind D leaves. -/
def tupD (c : Dev nD) (t : Fin cfg0.N) (hZ : ¬condZ (grid0.coords t)) (hD : ¬condD (grid0.coords t)) (hL : ¬condL (grid0.coords t)) (xs0 : Vec F S512x512 .f32) (xs1 : Vec F S512x512 .f32) : Tup F :=
  (junk6, junk7, junk8, accD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t) xs0 xs1, xs1)

/-- The tuple a point of kind E leaves. -/
def tupE (c : Dev nD) (t : Fin cfg0.N) (hZ : ¬condZ (grid0.coords t)) (hD : condD (grid0.coords t)) (hL : condL (grid0.coords t)) (xs0 : Vec F S512x512 .f32) : Tup F :=
  (o6E c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t) xs0, o7E c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t) xs0, o8E c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t) xs0, accE c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t) xs0, diagE c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t) xs0)

/-- The tuple a point of kind G leaves. -/
def tupG (c : Dev nD) (t : Fin cfg0.N) (hZ : ¬condZ (grid0.coords t)) (hD : ¬condD (grid0.coords t)) (hL : condL (grid0.coords t)) (xs0 : Vec F S512x512 .f32) (xs1 : Vec F S512x512 .f32) : Tup F :=
  (o6G c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t) xs0 xs1, o7G c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t) xs0 xs1, o8G c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t) xs0 xs1, accG c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) diagM (Memref.isWhole_whole _) hZ hD hL (b0 m c t) (b1 m c t) (b2 m c t) (b3 m c t) (b4 m c t) (b5 m c t) xs0 xs1, xs1)

/-- THE RECURSION over the points: the kind of the point selects the run; the running sum and the captured block
    are taken from the point before where the run reads them. (The reset and the results never meet at one point:
    that branch repeats the point before and is never reached.) -/
def outsAt (c : Dev nD) : (n : ℕ) → n < cfg0.N → Tup F
  | 0, hn => tupA m c ⟨0, hn⟩ ((condZ_iff ⟨0, hn⟩).mpr (Nat.zero_mod _)) ((condD_iff ⟨0, hn⟩).mpr (show (0 : ℕ) % 8 = 0 / 8 % 8 from rfl)) (fun h => absurd ((condL_iff ⟨0, hn⟩).mp h) (show ¬ (0 : ℕ) % 8 = 7 by decide))
  | n + 1, hn =>
    if hZ : condZ (grid0.coords ⟨n + 1, hn⟩) then
      if hD : condD (grid0.coords ⟨n + 1, hn⟩) then
        if hL : condL (grid0.coords ⟨n + 1, hn⟩) then outsAt c n (Nat.lt_of_succ_lt hn)
        else tupA m c ⟨n + 1, hn⟩ hZ hD hL
      else
        if hL : condL (grid0.coords ⟨n + 1, hn⟩) then outsAt c n (Nat.lt_of_succ_lt hn)
        else tupB m c ⟨n + 1, hn⟩ hZ hD hL (outsAt c n (Nat.lt_of_succ_lt hn)).2.2.2.2
    else
      if hD : condD (grid0.coords ⟨n + 1, hn⟩) then
        if hL : condL (grid0.coords ⟨n + 1, hn⟩) then tupE m c ⟨n + 1, hn⟩ hZ hD hL (outsAt c n (Nat.lt_of_succ_lt hn)).2.2.2.1
        else tupC m c ⟨n + 1, hn⟩ hZ hD hL (outsAt c n (Nat.lt_of_succ_lt hn)).2.2.2.1
      else
        if hL : condL (grid0.coords ⟨n + 1, hn⟩) then tupG m c ⟨n + 1, hn⟩ hZ hD hL (outsAt c n (Nat.lt_of_succ_lt hn)).2.2.2.1 (outsAt c n (Nat.lt_of_succ_lt hn)).2.2.2.2
        else tupD m c ⟨n + 1, hn⟩ hZ hD hL (outsAt c n (Nat.lt_of_succ_lt hn)).2.2.2.1 (outsAt c n (Nat.lt_of_succ_lt hn)).2.2.2.2

/-- The point before, as a bound. -/
theorem pred_lt (t : Fin cfg0.N) : t.val - 1 < cfg0.N := Nat.lt_of_le_of_lt (Nat.sub_le _ _) t.isLt

theorem ne_zero_of_notZ (t : Fin cfg0.N) (hZ : ¬condZ (grid0.coords t)) : t.val ≠ 0 := fun h0 =>
  hZ ((condZ_iff t).mpr (by rw [h0]))
theorem ne_zero_of_notD (t : Fin cfg0.N) (hD : ¬condD (grid0.coords t)) : t.val ≠ 0 := fun h0 =>
  hD ((condD_iff t).mpr (by rw [h0]))

theorem outsAt_A (c : Dev nD) (t : Fin cfg0.N) (hZ : condZ (grid0.coords t)) (hD : condD (grid0.coords t)) (hL : ¬condL (grid0.coords t)) :
    outsAt m c t.val t.isLt = tupA m c t hZ hD hL := by
  obtain ⟨n, hn⟩ := t
  cases n with
  | zero => exact rfl
  | succ n => exact (dif_pos hZ).trans ((dif_pos hD).trans ((dif_neg hL).trans rfl))

theorem outsAt_B (c : Dev nD) (t : Fin cfg0.N) (hZ : condZ (grid0.coords t)) (hD : ¬condD (grid0.coords t)) (hL : ¬condL (grid0.coords t)) :
    outsAt m c t.val t.isLt = tupB m c t hZ hD hL (outsAt m c (t.val - 1) (pred_lt t)).2.2.2.2 := by
  obtain ⟨n, hn⟩ := t
  cases n with
  | zero => exact absurd rfl (ne_zero_of_notD ⟨0, hn⟩ hD)
  | succ n => exact (dif_pos hZ).trans ((dif_neg hD).trans ((dif_neg hL).trans rfl))

theorem outsAt_C (c : Dev nD) (t : Fin cfg0.N) (hZ : ¬condZ (grid0.coords t)) (hD : condD (grid0.coords t)) (hL : ¬condL (grid0.coords t)) :
    outsAt m c t.val t.isLt = tupC m c t hZ hD hL (outsAt m c (t.val - 1) (pred_lt t)).2.2.2.1 := by
  obtain ⟨n, hn⟩ := t
  cases n with
  | zero => exact absurd rfl (ne_zero_of_notZ ⟨0, hn⟩ hZ)
  | succ n => exact (dif_neg hZ).trans ((dif_pos hD).trans ((dif_neg hL).trans rfl))

theorem outsAt_D (c : Dev nD) (t : Fin cfg0.N) (hZ : ¬condZ (grid0.coords t)) (hD : ¬condD (grid0.coords t)) (hL : ¬condL (grid0.coords t)) :
    outsAt m c t.val t.isLt = tupD m c t hZ hD hL (outsAt m c (t.val - 1) (pred_lt t)).2.2.2.1 (outsAt m c (t.val - 1) (pred_lt t)).2.2.2.2 := by
  obtain ⟨n, hn⟩ := t
  cases n with
  | zero => exact absurd rfl (ne_zero_of_notZ ⟨0, hn⟩ hZ)
  | succ n => exact (dif_neg hZ).trans ((dif_neg hD).trans ((dif_neg hL).trans rfl))

theorem outsAt_E (c : Dev nD) (t : Fin cfg0.N) (hZ : ¬condZ (grid0.coords t)) (hD : condD (grid0.coords t)) (hL : condL (grid0.coords t)) :
    outsAt m c t.val t.isLt = tupE m c t hZ hD hL (outsAt m c (t.val - 1) (pred_lt t)).2.2.2.1 := by
  obtain ⟨n, hn⟩ := t
  cases n with
  | zero => exact absurd rfl (ne_zero_of_notZ ⟨0, hn⟩ hZ)
  | succ n => exact (dif_neg hZ).trans ((dif_pos hD).trans ((dif_pos hL).trans rfl))

theorem outsAt_G (c : Dev nD) (t : Fin cfg0.N) (hZ : ¬condZ (grid0.coords t)) (hD : ¬condD (grid0.coords t)) (hL : condL (grid0.coords t)) :
    outsAt m c t.val t.isLt = tupG m c t hZ hD hL (outsAt m c (t.val - 1) (pred_lt t)).2.2.2.1 (outsAt m c (t.val - 1) (pred_lt t)).2.2.2.2 := by
  obtain ⟨n, hn⟩ := t
  cases n with
  | zero => exact absurd rfl (ne_zero_of_notZ ⟨0, hn⟩ hZ)
  | succ n => exact (dif_neg hZ).trans ((dif_neg hD).trans ((dif_pos hL).trans rfl))

/-! ## The invariant between points -/

/-- Before the first point the two scratch blocks hold anything; afterwards what the point before left. -/
def PhiS (c : Dev nD) : (n : ℕ) → n ≤ cfg0.N → sProp 𝕄
  | 0, _ => Pipeline.ΦA spec0 c
  | n + 1, hn => iprop(iprop(owns (c : Thread nD τ) accM fullShare ((outsAt m c n hn).2.2.2.1) ∗ owns (c : Thread nD τ) diagM fullShare ((outsAt m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((outsAt m c n hn).2.2.2.1) ∗ owns (c : Thread nD τ) diagM fullShare ((outsAt m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) accM fullShare ((outsAt m c (n - 1) (by omega)).2.2.2.1) ∗ owns (c : Thread nD τ) diagM fullShare ((outsAt m c (n - 1) (by omega)).2.2.2.2)) ∗ (∃ r, prngReg c r)) := by
  cases n with
  | zero => exact absurd rfl hz
  | succ n => rfl

/-- At any point the invariant holds the two scratch blocks at some contents. -/
theorem PhiS_weak (c : Dev nD) (n : ℕ) (h : n ≤ cfg0.N) :
    PhiS m c n h ⊢ iprop(iprop((∃ d, owns (c : Thread nD τ) accM fullShare d) ∗ (∃ d, owns (c : Thread nD τ) diagM fullShare d)) ∗ (∃ r, prngReg c r)) := by
  cases n with
  | zero => rw [PhiS_zero m c 0 h rfl, PhiA_eq]
  | succ n =>
    rw [PhiS_succ]
    iintro ⟨⟨HS0, HS1⟩, Hg⟩
    isplitl [HS0 HS1]
    · isplitl [HS0]
      · iexists _; iexact HS0
      iexists _; iexact HS1
    iexact Hg

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
    | ⟨7, _⟩ => (outsAt m c t.val t.isLt).2.1
    | ⟨8, _⟩ => (outsAt m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (outsAt m c t.val t.isLt).1 := by dsimp only [dats]
theorem after_7 (c : Dev nD) (t : Fin cfg0.N) : (dats m 0 c).after 7 t = (outsAt m c t.val t.isLt).2.1 := by dsimp only [dats]
theorem after_8 (c : Dev nD) (t : Fin cfg0.N) : (dats m 0 c).after 8 t = (outsAt m c t.val t.isLt).2.2.1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

end Cert.KernelIdeal.Body

end
-- ==== Proof.KI.Body.lean ====
/-
  The body obligation of the fused LIF step's pipeline, the run of @main and the frame: at every grid point the
  body, given the invariant's two scratch blocks, the inputs' buffers at their blocks and the results' buffers,
  runs to the end and leaves the tuple the recursion computes; so every weakly fair execution of @main terminates
  with the argument arrays unchanged and each result array at what the proof data's write-backs assemble.
-/
import proofs.«152879_j87522843560962_1_alg».proof.Proof.KI.Data

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 8000000 in
/-- The body at any point: its kind is decided by the three conditions; the invariant hands the body the two
    scratch blocks (at what the point before left, or at anything at the very first point) and takes them back
    at this point's tuple; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  rw [show (dats m 0 c).leavesExact 3 t = owns (c : Thread nD τ) (ms3 t) fullShare ((dats m 0 c).after 3 t) from by
    unfold Dat.leavesExact; rw [live_3 t], after_3]
  rw [show (dats m 0 c).leavesExact 4 t = owns (c : Thread nD τ) (ms4 t) fullShare ((dats m 0 c).after 4 t) from by
    unfold Dat.leavesExact; rw [live_4 t], after_4]
  rw [show (dats m 0 c).leavesExact 5 t = owns (c : Thread nD τ) (ms5 t) fullShare ((dats m 0 c).after 5 t) from by
    unfold Dat.leavesExact; rw [live_5 t], after_5]
  by_cases hZ : condZ (grid0.coords t)
  · by_cases hD : condD (grid0.coords t)
    · by_cases hL : condL (grid0.coords t)
      · exfalso; have h1 := (condZ_iff t).mp hZ; have h2 := (condL_iff t).mp hL; omega
      · rw [Dat.leavesExact_idle (dats m 0 c) 6 t (idle_6 t hL) (noFlush_6 t hL)]
        rw [Dat.leavesExact_idle (dats m 0 c) 7 t (idle_7 t hL) (noFlush_7 t hL)]
        rw [Dat.leavesExact_idle (dats m 0 c) 8 t (idle_8 t hL) (noFlush_8 t hL)]
        rw [outsAt_A m c t hZ hD hL]
        unfold tupA accA diagA; (try dsimp only)
        rw [PhiS_castSucc m c t]
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        ihave HΦ' := (PhiS_weak m c _ _) $$ HΦ
        icases HΦ' with ⟨⟨HS0, HS1⟩, Hg⟩
        iapply ((kernelRunA c (grid0.coords t) _ _ _ _ _ _ _ _ _ _ _ _ _ _ _ _ _ _ _ _ _ _ hZ hD hL (b0 m c t) (b1 m c t) (b2 m c t) (b3 m c t) (b4 m c t) (b5 m c t)).2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (accA_cover c _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (diagA_cover c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        iexists _; iexact H8
    · by_cases hL : condL (grid0.coords t)
      · exfalso; have h1 := (condZ_iff t).mp hZ; have h2 := (condL_iff t).mp hL; omega
      · rw [Dat.leavesExact_idle (dats m 0 c) 6 t (idle_6 t hL) (noFlush_6 t hL)]
        rw [Dat.leavesExact_idle (dats m 0 c) 7 t (idle_7 t hL) (noFlush_7 t hL)]
        rw [Dat.leavesExact_idle (dats m 0 c) 8 t (idle_8 t hL) (noFlush_8 t hL)]
        rw [outsAt_B m c t hZ hD hL]
        unfold tupB accB; (try dsimp only)
        rw [PhiS_castSucc m c t, PhiS_pos m c _ _ (ne_zero_of_notD t hD)]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRunB c (grid0.coords t) _ _ _ _ _ _ _ _ _ _ _ _ _ _ _ _ _ _ _ _ _ _ hZ hD hL (b0 m c t) (b1 m c t) (b2 m c t) (b3 m c t) (b4 m c t) (b5 m c t) _).2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        isplitl [HS1]; · iexact HS1
        iintro ⟨H0, H1, H2, H3, H4, H5, H6, H7, H8, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (accB_cover c _ _ _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        iexists _; iexact H8
  · by_cases hD : condD (grid0.coords t)
    · by_cases hL : condL (grid0.coords t)
      · rw [show (dats m 0 c).leavesExact 6 t = owns (c : Thread nD τ) (ms6 t) fullShare ((dats m 0 c).after 6 t) from by
          unfold Dat.leavesExact; rw [live_6 t hL], after_6]
        rw [show (dats m 0 c).leavesExact 7 t = owns (c : Thread nD τ) (ms7 t) fullShare ((dats m 0 c).after 7 t) from by
          unfold Dat.leavesExact; rw [live_7 t hL], after_7]
        rw [show (dats m 0 c).leavesExact 8 t = owns (c : Thread nD τ) (ms8 t) fullShare ((dats m 0 c).after 8 t) from by
          unfold Dat.leavesExact; rw [live_8 t hL], after_8]
        rw [outsAt_E m c t hZ hD hL]
        unfold tupE o6E o7E o8E accE diagE; (try dsimp only)
        rw [PhiS_castSucc m c t, PhiS_pos m c _ _ (ne_zero_of_notZ t hZ)]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRunE c (grid0.coords t) _ _ _ _ _ _ _ _ _ _ _ _ _ _ _ _ _ _ _ _ _ _ hZ hD hL (b0 m c t) (b1 m c t) (b2 m c t) (b3 m c t) (b4 m c t) (b5 m c t) _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [HS0]; · iexact HS0
        isplitl [HS1]; · iexists _; iexact HS1
        iintro ⟨H0, H1, H2, H3, H4, H5, ⟨%e6, H6⟩, ⟨%e7, H7⟩, ⟨%e8, H8⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (accE_cover c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (diagE_cover c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (o6E_cover c _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (o7E_cover c _ _ _ _ _ _ _ _ _ _ _ _ _ _ _ _ _ _ _ _ _ _ _ _ _ _ _ _ _ _ _ _ _)
        unfold owns; iexists _; isplitr
        swap; · iexact H8
        ipureintro; exact View.read_writes_of_cover _ _ _ _ _ (o8E_cover c _ _ _ _ _ _ _ _ _ _ _ _ _ _ _ _ _ _ _ _ _ _ _ _ _ _ _ _ _ _ _ _ _)
      · rw [Dat.leavesExact_idle (dats m 0 c) 6 t (idle_6 t hL) (noFlush_6 t hL)]
        rw [Dat.leavesExact_idle (dats m 0 c) 7 t (idle_7 t hL) (noFlush_7 t hL)]
        rw [Dat.leavesExact_idle (dats m 0 c) 8 t (idle_8 t hL) (noFlush_8 t hL)]
        rw [outsAt_C m c t hZ hD hL]
        unfold tupC accC diagC; (try dsimp only)
        rw [PhiS_castSucc m c t, PhiS_pos m c _ _ (ne_zero_of_notZ t hZ)]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRunC c (grid0.coords t) _ _ _ _ _ _ _ _ _ _ _ _ _ _ _ _ _ _ _ _ _ _ hZ hD hL (b0 m c t) (b1 m c t) (b2 m c t) (b3 m c t) (b4 m c t) (b5 m c t) _).2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexists _; iexact HS1
        iintro ⟨H0, H1, H2, H3, H4, H5, H6, H7, H8, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (accC_cover c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (diagC_cover c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        iexists _; iexact H8
    · by_cases hL : condL (grid0.coords t)
      · rw [show (dats m 0 c).leavesExact 6 t = owns (c : Thread nD τ) (ms6 t) fullShare ((dats m 0 c).after 6 t) from by
          unfold Dat.leavesExact; rw [live_6 t hL], after_6]
        rw [show (dats m 0 c).leavesExact 7 t = owns (c : Thread nD τ) (ms7 t) fullShare ((dats m 0 c).after 7 t) from by
          unfold Dat.leavesExact; rw [live_7 t hL], after_7]
        rw [show (dats m 0 c).leavesExact 8 t = owns (c : Thread nD τ) (ms8 t) fullShare ((dats m 0 c).after 8 t) from by
          unfold Dat.leavesExact; rw [live_8 t hL], after_8]
        rw [outsAt_G m c t hZ hD hL]
        unfold tupG o6G o7G o8G accG; (try dsimp only)
        rw [PhiS_castSucc m c t, PhiS_pos m c _ _ (ne_zero_of_notZ t hZ)]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRunG c (grid0.coords t) _ _ _ _ _ _ _ _ _ _ _ _ _ _ _ _ _ _ _ _ _ _ hZ hD hL (b0 m c t) (b1 m c t) (b2 m c t) (b3 m c t) (b4 m c t) (b5 m c t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [HS0]; · iexact HS0
        isplitl [HS1]; · iexact HS1
        iintro ⟨H0, H1, H2, H3, H4, H5, ⟨%e6, H6⟩, ⟨%e7, H7⟩, ⟨%e8, H8⟩, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (accG_cover c _ _ _ _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (o6G_cover c _ _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (o7G_cover c _ _ _ _ _ _ _ _ _ _ _ _ _ _ _ _ _ _ _ _ _ _ _ _ _ _ _ _ _ _ _ _ _ _)
        unfold owns; iexists _; isplitr
        swap; · iexact H8
        ipureintro; exact View.read_writes_of_cover _ _ _ _ _ (o8G_cover c _ _ _ _ _ _ _ _ _ _ _ _ _ _ _ _ _ _ _ _ _ _ _ _ _ _ _ _ _ _ _ _ _ _)
      · rw [Dat.leavesExact_idle (dats m 0 c) 6 t (idle_6 t hL) (noFlush_6 t hL)]
        rw [Dat.leavesExact_idle (dats m 0 c) 7 t (idle_7 t hL) (noFlush_7 t hL)]
        rw [Dat.leavesExact_idle (dats m 0 c) 8 t (idle_8 t hL) (noFlush_8 t hL)]
        rw [outsAt_D m c t hZ hD hL]
        unfold tupD accD; (try dsimp only)
        rw [PhiS_castSucc m c t, PhiS_pos m c _ _ (ne_zero_of_notZ t hZ)]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRunD c (grid0.coords t) _ _ _ _ _ _ _ _ _ _ _ _ _ _ _ _ _ _ _ _ _ _ hZ hD hL (b0 m c t) (b1 m c t) (b2 m c t) (b3 m c t) (b4 m c t) (b5 m c t) _ _).2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (accD_cover c _ _ _ _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch blocks back at some contents. -/
theorem Phi_weak (c : Dev nD) (t : Fin (cfg0.N + 1)) : (dats m 0 c).Φ t ⊢ Pipeline.ΦA spec0 c := by
  rw [show (dats m 0 c).Φ t = PhiS m c t.val (Nat.le_of_lt_succ t.isLt) from rfl, PhiA_eq]
  exact PhiS_weak m c _ _

theorem hout (c : Dev nD) : (dats m 0 c).Φ (Fin.last cfg0.N) ⊢ Pipeline.ΦA spec0 c := Phi_weak m c _

set_option backward.isDefEq.respectTransparency.types false in
/-- Every weakly fair execution of @main terminates, every array of the pipeline at what the proof data's
    write-backs assemble and nothing else changed. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: @main runs to the end and leaves its six argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.KI.Pieces.lean ====
/-
  What each kind of grid point leaves in the buffers it writes, as the body's arithmetic of the blocks it was
  given: the running sum is the update of the sum the point found (of zero where it was reset), the captured block
  is the spikes' block, and the three results are computed from the captured block, the updated sum, and the
  potential's and the counters' blocks.
-/
import proofs.«152879_j87522843560962_1_alg».proof.Proof.KI.Data
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz00 : (![0, 0] : Fin 2 → Nat) = fun _ => 0 := by funext a; fin_cases a <;> rfl

theorem accA_eq (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : condZ i) (hD : condD i) (hL : ¬condL i)
    (x0 x1 x2 x3 x4 : Vec F S512x512 .f32) (x5 : Vec F S512x512 .i32) :
    accA c i arg3 harg3 arg4 harg4 arg5 harg5 arg6 harg6 arg7 harg7 arg8 harg8 arg9 harg9 arg10 harg10 arg11 harg11 arg12 harg12 arg13 harg13 hZ hD hL x0 x1 x2 x3 x4 x5 = k0_pay6 i x3 x0 x1 x2 (k0_pay4 (F := F)) := by
  unfold accA
  rw [View.read_writes_eq_canon _ _ _ (accA_cover c i arg3 harg3 arg4 harg4 arg5 harg5 arg6 harg6 arg7 harg7 arg8 harg8 arg9 harg9 arg10 harg10 arg11 harg11 arg12 harg12 arg13 harg13 hZ hD hL x0 x1 x2 x3 x4 x5)]
  unfold kernelRunA
  dsimp only
  sl_unfold_words
  simp only [View.canon_cons_unit_zero (S := S512x512) hz00, View.readCov_unit_zero (S := S512x512) _ hz00, View.readAt_eq_ld, Memref.IsWhole.read_unread,
    View.ld_unit_zero (S := S512x512) hz00]

theorem diagA_eq (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : condZ i) (hD : condD i) (hL : ¬condL i)
    (x0 x1 x2 x3 x4 : Vec F S512x512 .f32) (x5 : Vec F S512x512 .i32) :
    diagA c i arg3 harg3 arg4 harg4 arg5 harg5 arg6 harg6 arg7 harg7 arg8 harg8 arg9 harg9 arg10 harg10 arg11 harg11 arg12 harg12 arg13 harg13 hZ hD hL x0 x1 x2 x3 x4 x5 = k0_pay5 x2 := by
  unfold diagA
  rw [View.read_writes_eq_canon _ _ _ (diagA_cover c i arg3 harg3 arg4 harg4 arg5 harg5 arg6 harg6 arg7 harg7 arg8 harg8 arg9 harg9 arg10 harg10 arg11 harg11 arg12 harg12 arg13 harg13 hZ hD hL x0 x1 x2 x3 x4 x5)]
  unfold kernelRunA
  dsimp only
  sl_unfold_words
  simp only [View.canon_cons_unit_zero (S := S512x512) hz00, View.readCov_unit_zero (S := S512x512) _ hz00, View.readAt_eq_ld, Memref.IsWhole.read_unread,
    View.ld_unit_zero (S := S512x512) hz00]

theorem accB_eq (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : condZ i) (hD : ¬condD i) (hL : ¬condL i)
    (x0 x1 x2 x3 x4 : Vec F S512x512 .f32) (x5 : Vec F S512x512 .i32) (xs1 : Vec F S512x512 .f32) :
    accB c i arg3 harg3 arg4 harg4 arg5 harg5 arg6 harg6 arg7 harg7 arg8 harg8 arg9 harg9 arg10 harg10 arg11 harg11 arg12 harg12 arg13 harg13 hZ hD hL x0 x1 x2 x3 x4 x5 xs1 = k0_pay6 i x3 x0 x1 x2 (k0_pay4 (F := F)) := by
  unfold accB
  rw [View.read_writes_eq_canon _ _ _ (accB_cover c i arg3 harg3 arg4 harg4 arg5 harg5 arg6 harg6 arg7 harg7 arg8 harg8 arg9 harg9 arg10 harg10 arg11 harg11 arg12 harg12 arg13 harg13 hZ hD hL x0 x1 x2 x3 x4 x5 xs1)]
  unfold kernelRunB
  dsimp only
  sl_unfold_words
  simp only [View.canon_cons_unit_zero (S := S512x512) hz00, View.readCov_unit_zero (S := S512x512) _ hz00, View.readAt_eq_ld, Memref.IsWhole.read_unread,
    View.ld_unit_zero (S := S512x512) hz00]

theorem accC_eq (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : ¬condL i)
    (x0 x1 x2 x3 x4 : Vec F S512x512 .f32) (x5 : Vec F S512x512 .i32) (xs0 : Vec F S512x512 .f32) :
    accC c i arg3 harg3 arg4 harg4 arg5 harg5 arg6 harg6 arg7 harg7 arg8 harg8 arg9 harg9 arg10 harg10 arg11 harg11 arg12 harg12 arg13 harg13 hZ hD hL x0 x1 x2 x3 x4 x5 xs0 = k0_pay6 i x3 x0 x1 x2 xs0 := by
  unfold accC
  rw [View.read_writes_eq_canon _ _ _ (accC_cover c i arg3 harg3 arg4 harg4 arg5 harg5 arg6 harg6 arg7 harg7 arg8 harg8 arg9 harg9 arg10 harg10 arg11 harg11 arg12 harg12 arg13 harg13 hZ hD hL x0 x1 x2 x3 x4 x5 xs0)]
  unfold kernelRunC
  dsimp only
  sl_unfold_words
  simp only [View.canon_cons_unit_zero (S := S512x512) hz00, View.readCov_unit_zero (S := S512x512) _ hz00, View.readAt_eq_ld, Memref.IsWhole.read_unread,
    View.ld_unit_zero (S := S512x512) hz00]

theorem diagC_eq (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : ¬condL i)
    (x0 x1 x2 x3 x4 : Vec F S512x512 .f32) (x5 : Vec F S512x512 .i32) (xs0 : Vec F S512x512 .f32) :
    diagC c i arg3 harg3 arg4 harg4 arg5 harg5 arg6 harg6 arg7 harg7 arg8 harg8 arg9 harg9 arg10 harg10 arg11 harg11 arg12 harg12 arg13 harg13 hZ hD hL x0 x1 x2 x3 x4 x5 xs0 = k0_pay5 x2 := by
  unfold diagC
  rw [View.read_writes_eq_canon _ _ _ (diagC_cover c i arg3 harg3 arg4 harg4 arg5 harg5 arg6 harg6 arg7 harg7 arg8 harg8 arg9 harg9 arg10 harg10 arg11 harg11 arg12 harg12 arg13 harg13 hZ hD hL x0 x1 x2 x3 x4 x5 xs0)]
  unfold kernelRunC
  dsimp only
  sl_unfold_words
  simp only [View.canon_cons_unit_zero (S := S512x512) hz00, View.readCov_unit_zero (S := S512x512) _ hz00, View.readAt_eq_ld, Memref.IsWhole.read_unread,
    View.ld_unit_zero (S := S512x512) hz00]

theorem accD_eq (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : ¬condL i)
    (x0 x1 x2 x3 x4 : Vec F S512x512 .f32) (x5 : Vec F S512x512 .i32) (xs0 : Vec F S512x512 .f32) (xs1 : Vec F S512x512 .f32) :
    accD c i arg3 harg3 arg4 harg4 arg5 harg5 arg6 harg6 arg7 harg7 arg8 harg8 arg9 harg9 arg10 harg10 arg11 harg11 arg12 harg12 arg13 harg13 hZ hD hL x0 x1 x2 x3 x4 x5 xs0 xs1 = k0_pay6 i x3 x0 x1 x2 xs0 := by
  unfold accD
  rw [View.read_writes_eq_canon _ _ _ (accD_cover c i arg3 harg3 arg4 harg4 arg5 harg5 arg6 harg6 arg7 harg7 arg8 harg8 arg9 harg9 arg10 harg10 arg11 harg11 arg12 harg12 arg13 harg13 hZ hD hL x0 x1 x2 x3 x4 x5 xs0 xs1)]
  unfold kernelRunD
  dsimp only
  sl_unfold_words
  simp only [View.canon_cons_unit_zero (S := S512x512) hz00, View.readCov_unit_zero (S := S512x512) _ hz00, View.readAt_eq_ld, Memref.IsWhole.read_unread,
    View.ld_unit_zero (S := S512x512) hz00]

theorem o6E_eq (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : condL i)
    (x0 x1 x2 x3 x4 : Vec F S512x512 .f32) (x5 : Vec F S512x512 .i32) (xs0 : Vec F S512x512 .f32) :
    o6E c i arg3 harg3 arg4 harg4 arg5 harg5 arg6 harg6 arg7 harg7 arg8 harg8 arg9 harg9 arg10 harg10 arg11 harg11 arg12 harg12 arg13 harg13 hZ hD hL x0 x1 x2 x3 x4 x5 xs0 = k0_pay1 (k0_pay5 x2) (k0_pay6 i x3 x0 x1 x2 xs0) x4 := by
  unfold o6E
  rw [View.read_writes_eq_canon _ _ _ (o6E_cover c i arg3 harg3 arg4 harg4 arg5 harg5 arg6 harg6 arg7 harg7 arg8 harg8 arg9 harg9 arg10 harg10 arg11 harg11 arg12 harg12 arg13 harg13 hZ hD hL x0 x1 x2 x3 x4 x5 xs0)]
  unfold kernelRunE
  dsimp only
  sl_unfold_words
  simp only [View.canon_cons_unit_zero (S := S512x512) hz00, View.readCov_unit_zero (S := S512x512) _ hz00, View.readAt_eq_ld, Memref.IsWhole.read_unread,
    View.ld_unit_zero (S := S512x512) hz00]

theorem o7E_eq (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : condL i)
    (x0 x1 x2 x3 x4 : Vec F S512x512 .f32) (x5 : Vec F S512x512 .i32) (xs0 : Vec F S512x512 .f32) :
    o7E c i arg3 harg3 arg4 harg4 arg5 harg5 arg6 harg6 arg7 harg7 arg8 harg8 arg9 harg9 arg10 harg10 arg11 harg11 arg12 harg12 arg13 harg13 hZ hD hL x0 x1 x2 x3 x4 x5 xs0 = k0_pay2 (k0_pay5 x2) (k0_pay6 i x3 x0 x1 x2 xs0) x4 x5 := by
  unfold o7E
  rw [View.read_writes_eq_canon _ _ _ (o7E_cover c i arg3 harg3 arg4 harg4 arg5 harg5 arg6 harg6 arg7 harg7 arg8 harg8 arg9 harg9 arg10 harg10 arg11 harg11 arg12 harg12 arg13 harg13 hZ hD hL x0 x1 x2 x3 x4 x5 xs0)]
  unfold kernelRunE
  dsimp only
  sl_unfold_words
  simp only [View.canon_cons_unit_zero (S := S512x512) hz00, View.readCov_unit_zero (S := S512x512) _ hz00, View.readAt_eq_ld, Memref.IsWhole.read_unread,
    View.ld_unit_zero (S := S512x512) hz00]

theorem o8E_eq (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : condL i)
    (x0 x1 x2 x3 x4 : Vec F S512x512 .f32) (x5 : Vec F S512x512 .i32) (xs0 : Vec F S512x512 .f32) :
    o8E c i arg3 harg3 arg4 harg4 arg5 harg5 arg6 harg6 arg7 harg7 arg8 harg8 arg9 harg9 arg10 harg10 arg11 harg11 arg12 harg12 arg13 harg13 hZ hD hL x0 x1 x2 x3 x4 x5 xs0 = k0_pay3 (k0_pay5 x2) (k0_pay6 i x3 x0 x1 x2 xs0) x4 x5 x5 := by
  unfold o8E
  rw [View.read_writes_eq_canon _ _ _ (o8E_cover c i arg3 harg3 arg4 harg4 arg5 harg5 arg6 harg6 arg7 harg7 arg8 harg8 arg9 harg9 arg10 harg10 arg11 harg11 arg12 harg12 arg13 harg13 hZ hD hL x0 x1 x2 x3 x4 x5 xs0)]
  unfold kernelRunE
  dsimp only
  sl_unfold_words
  simp only [View.canon_cons_unit_zero (S := S512x512) hz00, View.readCov_unit_zero (S := S512x512) _ hz00, View.readAt_eq_ld, Memref.IsWhole.read_unread,
    View.ld_unit_zero (S := S512x512) hz00]

theorem accE_eq (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : condL i)
    (x0 x1 x2 x3 x4 : Vec F S512x512 .f32) (x5 : Vec F S512x512 .i32) (xs0 : Vec F S512x512 .f32) :
    accE c i arg3 harg3 arg4 harg4 arg5 harg5 arg6 harg6 arg7 harg7 arg8 harg8 arg9 harg9 arg10 harg10 arg11 harg11 arg12 harg12 arg13 harg13 hZ hD hL x0 x1 x2 x3 x4 x5 xs0 = k0_pay6 i x3 x0 x1 x2 xs0 := by
  unfold accE
  rw [View.read_writes_eq_canon _ _ _ (accE_cover c i arg3 harg3 arg4 harg4 arg5 harg5 arg6 harg6 arg7 harg7 arg8 harg8 arg9 harg9 arg10 harg10 arg11 harg11 arg12 harg12 arg13 harg13 hZ hD hL x0 x1 x2 x3 x4 x5 xs0)]
  unfold kernelRunE
  dsimp only
  sl_unfold_words
  simp only [View.canon_cons_unit_zero (S := S512x512) hz00, View.readCov_unit_zero (S := S512x512) _ hz00, View.readAt_eq_ld, Memref.IsWhole.read_unread,
    View.ld_unit_zero (S := S512x512) hz00]

theorem diagE_eq (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : condD i) (hL : condL i)
    (x0 x1 x2 x3 x4 : Vec F S512x512 .f32) (x5 : Vec F S512x512 .i32) (xs0 : Vec F S512x512 .f32) :
    diagE c i arg3 harg3 arg4 harg4 arg5 harg5 arg6 harg6 arg7 harg7 arg8 harg8 arg9 harg9 arg10 harg10 arg11 harg11 arg12 harg12 arg13 harg13 hZ hD hL x0 x1 x2 x3 x4 x5 xs0 = k0_pay5 x2 := by
  unfold diagE
  rw [View.read_writes_eq_canon _ _ _ (diagE_cover c i arg3 harg3 arg4 harg4 arg5 harg5 arg6 harg6 arg7 harg7 arg8 harg8 arg9 harg9 arg10 harg10 arg11 harg11 arg12 harg12 arg13 harg13 hZ hD hL x0 x1 x2 x3 x4 x5 xs0)]
  unfold kernelRunE
  dsimp only
  sl_unfold_words
  simp only [View.canon_cons_unit_zero (S := S512x512) hz00, View.readCov_unit_zero (S := S512x512) _ hz00, View.readAt_eq_ld, Memref.IsWhole.read_unread,
    View.ld_unit_zero (S := S512x512) hz00]

theorem o6G_eq (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : condL i)
    (x0 x1 x2 x3 x4 : Vec F S512x512 .f32) (x5 : Vec F S512x512 .i32) (xs0 : Vec F S512x512 .f32) (xs1 : Vec F S512x512 .f32) :
    o6G c i arg3 harg3 arg4 harg4 arg5 harg5 arg6 harg6 arg7 harg7 arg8 harg8 arg9 harg9 arg10 harg10 arg11 harg11 arg12 harg12 arg13 harg13 hZ hD hL x0 x1 x2 x3 x4 x5 xs0 xs1 = k0_pay1 xs1 (k0_pay6 i x3 x0 x1 x2 xs0) x4 := by
  unfold o6G
  rw [View.read_writes_eq_canon _ _ _ (o6G_cover c i arg3 harg3 arg4 harg4 arg5 harg5 arg6 harg6 arg7 harg7 arg8 harg8 arg9 harg9 arg10 harg10 arg11 harg11 arg12 harg12 arg13 harg13 hZ hD hL x0 x1 x2 x3 x4 x5 xs0 xs1)]
  unfold kernelRunG
  dsimp only
  sl_unfold_words
  simp only [View.canon_cons_unit_zero (S := S512x512) hz00, View.readCov_unit_zero (S := S512x512) _ hz00, View.readAt_eq_ld, Memref.IsWhole.read_unread,
    View.ld_unit_zero (S := S512x512) hz00]

theorem o7G_eq (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : condL i)
    (x0 x1 x2 x3 x4 : Vec F S512x512 .f32) (x5 : Vec F S512x512 .i32) (xs0 : Vec F S512x512 .f32) (xs1 : Vec F S512x512 .f32) :
    o7G c i arg3 harg3 arg4 harg4 arg5 harg5 arg6 harg6 arg7 harg7 arg8 harg8 arg9 harg9 arg10 harg10 arg11 harg11 arg12 harg12 arg13 harg13 hZ hD hL x0 x1 x2 x3 x4 x5 xs0 xs1 = k0_pay2 xs1 (k0_pay6 i x3 x0 x1 x2 xs0) x4 x5 := by
  unfold o7G
  rw [View.read_writes_eq_canon _ _ _ (o7G_cover c i arg3 harg3 arg4 harg4 arg5 harg5 arg6 harg6 arg7 harg7 arg8 harg8 arg9 harg9 arg10 harg10 arg11 harg11 arg12 harg12 arg13 harg13 hZ hD hL x0 x1 x2 x3 x4 x5 xs0 xs1)]
  unfold kernelRunG
  dsimp only
  sl_unfold_words
  simp only [View.canon_cons_unit_zero (S := S512x512) hz00, View.readCov_unit_zero (S := S512x512) _ hz00, View.readAt_eq_ld, Memref.IsWhole.read_unread,
    View.ld_unit_zero (S := S512x512) hz00]

theorem o8G_eq (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : condL i)
    (x0 x1 x2 x3 x4 : Vec F S512x512 .f32) (x5 : Vec F S512x512 .i32) (xs0 : Vec F S512x512 .f32) (xs1 : Vec F S512x512 .f32) :
    o8G c i arg3 harg3 arg4 harg4 arg5 harg5 arg6 harg6 arg7 harg7 arg8 harg8 arg9 harg9 arg10 harg10 arg11 harg11 arg12 harg12 arg13 harg13 hZ hD hL x0 x1 x2 x3 x4 x5 xs0 xs1 = k0_pay3 xs1 (k0_pay6 i x3 x0 x1 x2 xs0) x4 x5 x5 := by
  unfold o8G
  rw [View.read_writes_eq_canon _ _ _ (o8G_cover c i arg3 harg3 arg4 harg4 arg5 harg5 arg6 harg6 arg7 harg7 arg8 harg8 arg9 harg9 arg10 harg10 arg11 harg11 arg12 harg12 arg13 harg13 hZ hD hL x0 x1 x2 x3 x4 x5 xs0 xs1)]
  unfold kernelRunG
  dsimp only
  sl_unfold_words
  simp only [View.canon_cons_unit_zero (S := S512x512) hz00, View.readCov_unit_zero (S := S512x512) _ hz00, View.readAt_eq_ld, Memref.IsWhole.read_unread,
    View.ld_unit_zero (S := S512x512) hz00]

theorem accG_eq (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .i32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .i32) (harg11 : arg11.IsWhole) (arg12 : Memref sig .tc .vmem S512x512 .f32) (harg12 : arg12.IsWhole) (arg13 : Memref sig .tc .vmem S512x512 .f32) (harg13 : arg13.IsWhole) (hZ : ¬condZ i) (hD : ¬condD i) (hL : condL i)
    (x0 x1 x2 x3 x4 : Vec F S512x512 .f32) (x5 : Vec F S512x512 .i32) (xs0 : Vec F S512x512 .f32) (xs1 : Vec F S512x512 .f32) :
    accG c i arg3 harg3 arg4 harg4 arg5 harg5 arg6 harg6 arg7 harg7 arg8 harg8 arg9 harg9 arg10 harg10 arg11 harg11 arg12 harg12 arg13 harg13 hZ hD hL x0 x1 x2 x3 x4 x5 xs0 xs1 = k0_pay6 i x3 x0 x1 x2 xs0 := by
  unfold accG
  rw [View.read_writes_eq_canon _ _ _ (accG_cover c i arg3 harg3 arg4 harg4 arg5 harg5 arg6 harg6 arg7 harg7 arg8 harg8 arg9 harg9 arg10 harg10 arg11 harg11 arg12 harg12 arg13 harg13 hZ hD hL x0 x1 x2 x3 x4 x5 xs0 xs1)]
  unfold kernelRunG
  dsimp only
  sl_unfold_words
  simp only [View.canon_cons_unit_zero (S := S512x512) hz00, View.readCov_unit_zero (S := S512x512) _ hz00, View.readAt_eq_ld, Memref.IsWhole.read_unread,
    View.ld_unit_zero (S := S512x512) hz00]

end Cert.KernelIdeal.Body

end
-- ==== Proof.Spec.lean ====
/-
  The LIF step as mathematics, over the extended reals. With x the input, z the previous spikes, W_in and W_rec the
  weights, v the membrane potential and r the refractory counters (all 4096 x 4096):
    cur(i, j)   = sum_k x(i,k) W_in(k,j) + sum_k z(i,k) (W_rec(k,j) (1 - [k = j]))
    new_v(i, j) = c2 v(i,j) + (c1 cur(i,j) + (-1) z(i,j))
    new_z(i, j) = 0 where r(i,j) > 0, else [ (new_v(i,j) - 1) / 1 > 0 ]
    new_r(i, j) = min 5 (max 0 (r(i,j) - 1 + trunc (5 new_z(i,j))))
  The kernel sums cur over eight blocks of 512 reduction indices; `part` is the running sum after n + 1 blocks, and
  `part_last` says the eighth is the whole. Sums of extended reals may be regrouped freely (addition is commutative
  and associative there), so no finiteness is used.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.LIF

open Idealize.ShloMosaic Idealize.ShloMosaic.ValueIdx

abbrev SA : Shape := ⟨2, ![4096, 4096]⟩
abbrev SB : Shape := ⟨2, ![512, 512]⟩

/-- The global index of local index `r` of block `b`. -/
def gi (b : Fin 8) (r : Fin 512) : Fin 4096 := ⟨512 * b.val + r.val, by have := b.isLt; have := r.isLt; omega⟩

theorem gi_val (b : Fin 8) (r : Fin 512) : (gi b r).val = 512 * b.val + r.val := rfl

theorem gi_inj {b b' : Fin 8} {r r' : Fin 512} : gi b r = gi b' r' ↔ b = b' ∧ r = r' := by
  constructor
  · intro h
    have hv : 512 * b.val + r.val = 512 * b'.val + r'.val := congrArg Fin.val h
    have := r.isLt; have := r'.isLt
    exact ⟨Fin.ext (by omega), Fin.ext (by omega)⟩
  · rintro ⟨rfl, rfl⟩; rfl

/-! ## The constants, as the extended reals their patterns denote -/

def c1 : EReal := Ideal.ofBits .f32 0x3D47C3A8#32
def c2 : EReal := Ideal.ofBits .f32 0x3F7383C6#32
def cm1 : EReal := Ideal.ofBits .f32 0xBF800000#32
def cOne : EReal := Ideal.ofBits .f32 0x3F800000#32
def cZero : EReal := Ideal.ofBits .f32 0x00000000#32
def cFive : EReal := Ideal.ofBits .f32 0x40A00000#32

theorem cOne_eq : cOne = 1 := by
  unfold cOne; simp [Ideal.ofBits, Ideal.ieee, -EReal.coe_mul]; norm_num
theorem cZero_eq : cZero = 0 := by
  unfold cZero; simp [Ideal.ofBits, Ideal.ieee]

/-! ## The recurrent weight without self-connections, and the input current -/

/-- `W_rec(k, j) (1 - [k = j])`. -/
def wnd (wrec : SA.Idx → EReal) (k j : Fin 4096) : EReal :=
  wrec (ix2 k j) * (cOne - (if k = j then (1 : EReal) else 0))

/-- The same inside one 512 x 512 block: masked when the block is on the diagonal (`d`), untouched otherwise. -/
def wmask (d : Prop) [Decidable d] (w : SB.Idx → EReal) (kk c : Fin 512) : EReal :=
  if d then w (ix2 kk c) * (cOne - (if kk = c then (1 : EReal) else 0)) else w (ix2 kk c)

/-- The input current. -/
def cur (x z win wrec : SA.Idx → EReal) (i j : Fin 4096) : EReal :=
  (∑ k : Fin 4096, x (ix2 i k) * win (ix2 k j)) + (∑ k : Fin 4096, z (ix2 i k) * wnd wrec k j)

/-- Reduction block `b`'s share of the input current at local (r, c) of output block (bi, bj). -/
def term (x z win wrec : SA.Idx → EReal) (bi bj : Fin 8) (b : ℕ) (r c : Fin 512) : EReal :=
  if h : b < 8 then
    (∑ kk : Fin 512, x (ix2 (gi bi r) (gi ⟨b, h⟩ kk)) * win (ix2 (gi ⟨b, h⟩ kk) (gi bj c)))
      + (∑ kk : Fin 512, z (ix2 (gi bi r) (gi ⟨b, h⟩ kk)) * wnd wrec (gi ⟨b, h⟩ kk) (gi bj c))
  else 0

/-- The running sum after reduction blocks 0 … n. -/
def part (x z win wrec : SA.Idx → EReal) (bi bj : Fin 8) (n : ℕ) (r c : Fin 512) : EReal :=
  ∑ b ∈ Finset.range (n + 1), term x z win wrec bi bj b r c

theorem part_zero (x z win wrec : SA.Idx → EReal) (bi bj : Fin 8) (r c : Fin 512) :
    part x z win wrec bi bj 0 r c = 0 + term x z win wrec bi bj 0 r c := by
  unfold part; simp

theorem part_succ (x z win wrec : SA.Idx → EReal) (bi bj : Fin 8) (n : ℕ) (r c : Fin 512) :
    part x z win wrec bi bj (n + 1) r c = part x z win wrec bi bj n r c + term x z win wrec bi bj (n + 1) r c := by
  unfold part; rw [Finset.sum_range_succ]

/-- Summing over the eight blocks and then inside each block visits each of the 4096 indices exactly once:
(b, kk) ↦ 512 b + kk is the bijection Fin 8 × Fin 512 ≃ Fin 4096. -/
private theorem sum_gi (f : Fin 4096 → EReal) :
    ∑ b : Fin 8, ∑ kk : Fin 512, f (gi b kk) = ∑ k : Fin 4096, f k := by
  rw [← Fintype.sum_prod_type' (f := fun b kk => f (gi b kk))]
  refine Fintype.sum_equiv (finProdFinEquiv (m := 8) (n := 512)) _ _ (fun p => ?_)
  refine congrArg f (Fin.ext ?_)
  show 512 * p.1.val + p.2.val = p.2.val + 512 * p.1.val
  omega

/-- For a block inside the range, its share is the two sums over its 512 indices. -/
private theorem term_fin (x z win wrec : SA.Idx → EReal) (bi bj b : Fin 8) (r c : Fin 512) :
    term x z win wrec bi bj b.val r c =
      (∑ kk : Fin 512, x (ix2 (gi bi r) (gi b kk)) * win (ix2 (gi b kk) (gi bj c)))
        + (∑ kk : Fin 512, z (ix2 (gi bi r) (gi b kk)) * wnd wrec (gi b kk) (gi bj c)) := by
  unfold term
  rw [dif_pos b.isLt]

/-- Eight blocks of 512 are the 4096 reduction indices. -/
theorem part_last (x z win wrec : SA.Idx → EReal) (bi bj : Fin 8) (r c : Fin 512) :
    part x z win wrec bi bj 7 r c = cur x z win wrec (gi bi r) (gi bj c) := by
  unfold part cur
  rw [Finset.sum_range]
  simp only [term_fin]
  rw [Finset.sum_add_distrib]
  exact congrArg₂ (· + ·)
    (sum_gi (fun k => x (ix2 (gi bi r) k) * win (ix2 k (gi bj c))))
    (sum_gi (fun k => z (ix2 (gi bi r) k) * wnd wrec k (gi bj c)))

/-! ## The three results at one entry -/

def vOf (v z a : EReal) : EReal := c2 * v + (c1 * a + cm1 * z)

def spk (nv : EReal) : BitVec 1 := Ideal.cmp .ogt (Ideal.div (nv - cOne) cOne) cZero

def zOf (nv : EReal) (r : BitVec 32) : EReal :=
  Scalar.select (IntOp.cmpi .sgt r 0#32) cZero (((spk nv).toNat : ℝ) : EReal)

def rOf (nv : EReal) (r : BitVec 32) : BitVec 32 :=
  IntOp.minsi 5#32 (IntOp.maxsi 0#32 (IntOp.addi (IntOp.subi r 1#32) (Ideal.fptosi 32 (zOf nv r * cFive))))

/-- new_v, new_z, new_r as whole arrays of the arguments. -/
def newV (x v z win wrec : SA.Idx → EReal) : SA.Idx → EReal := fun idx =>
  vOf (v idx) (z idx) (cur x z win wrec ⟨(idx 0).val, (idx 0).isLt⟩ ⟨(idx 1).val, (idx 1).isLt⟩)
def newZ (x v : SA.Idx → EReal) (r : SA.Idx → BitVec 32) (z win wrec : SA.Idx → EReal) : SA.Idx → EReal := fun idx =>
  zOf (newV x v z win wrec idx) (r idx)
def newR (x v : SA.Idx → EReal) (r : SA.Idx → BitVec 32) (z win wrec : SA.Idx → EReal) : SA.Idx → BitVec 32 := fun idx =>
  rOf (newV x v z win wrec idx) (r idx)

theorem newV_ix2 (x v z win wrec : SA.Idx → EReal) (i j : Fin 4096) :
    newV x v z win wrec (ix2 i j) = vOf (v (ix2 i j)) (z (ix2 i j)) (cur x z win wrec i j) := rfl

end Cert.LIF

end
-- ==== Proof.KI.Pay.lean ====
/-
  The kernel body's arithmetic at one entry of a 512 x 512 block, over the extended reals: the reset value is zero;
  the captured block is the spikes' block; the running sum's update adds the two block products, the recurrent
  weight's block masked on its diagonal when the block itself is on the diagonal; and the three results are
  new_v, new_z, new_r of the entry's potential, captured spike and running sum.
-/
import proofs.«152879_j87522843560962_1_alg».proof.Proof.Spec
import proofs.«152879_j87522843560962_1_alg».proof.Proof.Gen.KernelIdeal.Skeleton
import Idealize.ShloMosaic.Lib.Pipeline.Value
import Idealize.ShloMosaic.Lib.KernelVsHost

noncomputable section

namespace Cert.KernelIdeal.Pay

open Idealize.ShloMosaic Idealize.ShloMosaic.ValueIdx Cert.LIF Cert.KernelIdeal Cert.KernelIdeal.Gen

/-! ## Words and bits -/

/-- A one-bit word widened to 32 bits and converted signed is the bit as a real number. -/
private theorem sitofp_bit (b : BitVec 1) :
    FloatOps.sitofp (F := Ideal) .f32 (b.setWidth 32) = (((b.toNat : ℝ)) : EReal) := by
  show (((b.setWidth 32).toInt : ℝ) : EReal) = _
  rw [toInt_setWidth_bit]
  norm_cast

/-- Two numbers below 2^32 are the same 32-bit word exactly when they are equal. -/
private theorem ofNat32_eq_iff (m n : ℕ) (hm : m < 2 ^ 32) (hn : n < 2 ^ 32) :
    BitVec.ofNat 32 m = BitVec.ofNat 32 n ↔ m = n := by
  constructor
  · intro h
    have h' := congrArg BitVec.toNat h
    simp only [BitVec.toNat_ofNat] at h'
    omega
  · rintro rfl; rfl

/-- The equality test of two such words, as a bit. -/
private theorem cmpi_eq_ofNat (m n : ℕ) (hm : m < 2 ^ 32) (hn : n < 2 ^ 32) :
    IntOp.cmpi .eq (BitVec.ofNat 32 m) (BitVec.ofNat 32 n) = if m = n then 1#1 else 0#1 := by
  by_cases h : m = n
  · subst h; simp [IntOp.cmpi]
  · have hne : (BitVec.ofNat 32 m == BitVec.ofNat 32 n) = false :=
      beq_eq_false_iff_ne.2 fun e => h ((ofNat32_eq_iff m n hm hn).1 e)
    rw [if_neg h]
    show BitVec.ofBool (BitVec.ofNat 32 m == BitVec.ofNat 32 n) = 0#1
    rw [hne]; rfl

/-- The identity matrix's entry: the row number against the column number, widened and converted. -/
private theorem eye_apply (kk c : Fin 512) :
    FloatOps.sitofp (F := Ideal) .f32 ((IntOp.cmpi .eq (BitVec.ofNat 32 kk.val) (BitVec.ofNat 32 c.val)).setWidth 32)
      = if kk = c then (1 : EReal) else 0 := by
  rw [sitofp_bit, cmpi_eq_ofNat _ _ (by have := kk.isLt; omega) (by have := c.isLt; omega)]
  by_cases h : kk = c
  · rw [if_pos (congrArg Fin.val h), if_pos h]; simp
  · rw [if_neg (fun hv => h (Fin.ext hv)), if_neg h]; simp

/-! ## The masked recurrent weight -/

/-- The recurrent weight's block as the kernel multiplies by it, at (kk, c): times one minus the identity's entry
    when the two grid coordinates agree (the block is on the diagonal), untouched otherwise. -/
private theorem mask_apply (i : grid0.Coords) (w : Vec Ideal S512x512 .f32)
    (h0 : S512x512.Iotas .tc 32 [0]) (h1 : S512x512.Iotas .tc 32 [1]) (hlt : 1 < 32) (kk c : Fin 512) :
    (Scalar.select (Scalar.cmpi .eq (BitVec.ofNat 32 (i 2).val) (BitVec.ofNat 32 (i 1).val))
        (mulf w (subf (broadcast S512x512 (Scalar.ofBits (F := Ideal) .f32 0x3F800000#32))
          (sitofp .f32 (extui 32 (cmpi .eq (iota .tc S512x512 32 [0] h0) (iota .tc S512x512 32 [1] h1)) hlt))))
        w : FVec Ideal S512x512 .f32) (ix2 kk c)
      = wmask ((i 2).val = (i 1).val) w kk c := by
  unfold wmask
  have hsel : Scalar.cmpi .eq (BitVec.ofNat 32 (i 2).val) (BitVec.ofNat 32 (i 1).val)
      = if (i 2).val = (i 1).val then 1#1 else 0#1 :=
    cmpi_eq_ofNat _ _ (by have : (i 2).val < 8 := (i 2).isLt; omega) (by have : (i 1).val < 8 := (i 1).isLt; omega)
  rw [hsel]
  by_cases hd : (i 2).val = (i 1).val
  · rw [if_pos hd, if_pos hd, select_one]
    show w (ix2 kk c) * (cOne - FloatOps.sitofp (F := Ideal) .f32
      ((IntOp.cmpi .eq (iota .tc S512x512 32 [0] h0 (ix2 kk c)) (iota .tc S512x512 32 [1] h1 (ix2 kk c))).setWidth 32)) = _
    rw [iota_single_apply, iota_single_apply]
    show w (ix2 kk c) * (cOne - FloatOps.sitofp (F := Ideal) .f32
      ((IntOp.cmpi .eq (BitVec.ofNat 32 kk.val) (BitVec.ofNat 32 c.val)).setWidth 32)) = _
    rw [eye_apply]
  · rw [if_neg hd, if_neg hd, select_zero]

/-! ## A block product at an entry -/

private theorem lhs_0 (j : S512x512.Idx) (q : dot_S512x512_S512x512_S512x512_1_0_0_1_n_n.contr.Idx) :
    (dot_S512x512_S512x512_S512x512_1_0_0_1_n_n.lhsIdx j q 0).val = (j 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
private theorem lhs_1 (j : S512x512.Idx) (q : dot_S512x512_S512x512_S512x512_1_0_0_1_n_n.contr.Idx) :
    (dot_S512x512_S512x512_S512x512_1_0_0_1_n_n.lhsIdx j q 1).val = (q ⟨0, by decide⟩).val :=
  dot_S512x512_S512x512_S512x512_1_0_0_1_n_n.lhsIdx_val_of_single rfl j q
private theorem rhs_0 (j : S512x512.Idx) (q : dot_S512x512_S512x512_S512x512_1_0_0_1_n_n.contr.Idx) :
    (dot_S512x512_S512x512_S512x512_1_0_0_1_n_n.rhsIdx j q 0).val = (q ⟨0, by decide⟩).val :=
  dot_S512x512_S512x512_S512x512_1_0_0_1_n_n.rhsIdx_val_of_single rfl j q
private theorem rhs_1 (j : S512x512.Idx) (q : dot_S512x512_S512x512_S512x512_1_0_0_1_n_n.contr.Idx) :
    (dot_S512x512_S512x512_S512x512_1_0_0_1_n_n.rhsIdx j q 1).val = (j 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- A block product into the zero block, at (r, c): the sum over the 512 contraction indices. -/
private theorem mm_apply {φ₁ φ₂ : FTy} (A : FVec Ideal S512x512 φ₁) (B : FVec Ideal S512x512 φ₂) (r c : Fin 512) :
    FloatOps.matmul dot_S512x512_S512x512_S512x512_1_0_0_1_n_n none A B (constant S512x512 .f32 0x00000000#32) (ix2 r c)
      = ∑ kk : Fin 512, A (ix2 r kk) * B (ix2 kk c) := by
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 r c) ((contrEquiv1 dot_S512x512_S512x512_S512x512_1_0_0_1_n_n 512 rfl rfl).symm k) = ix2 r k := funext fun a => Fin.ext (by
    match a with
    | ⟨0, _⟩ => exact lhs_0 _ _
    | ⟨1, _⟩ => exact (lhs_1 _ _).trans hk)
  have er : dot_S512x512_S512x512_S512x512_1_0_0_1_n_n.rhsIdx (ix2 r c) ((contrEquiv1 dot_S512x512_S512x512_S512x512_1_0_0_1_n_n 512 rfl rfl).symm k) = ix2 k c := funext fun a => Fin.ext (by
    match a with
    | ⟨0, _⟩ => exact (rhs_0 _ _).trans hk
    | ⟨1, _⟩ => exact rhs_1 _ _)
  rw [el, er]

/-! ## The six payloads -/

theorem pay4_apply (y : S512x512.Idx) : k0_pay4 (F := Ideal) y = 0 := by
  unfold k0_pay4
  rw [shapeCast_self]
  exact Ideal.ofBits_zero_f32

theorem pay5_eq (x : Vec Ideal S512x512 .f32) : k0_pay5 (F := Ideal) x = x := by
  unfold k0_pay5
  exact shapeCast_self _ _

theorem pay6_apply (i : grid0.Coords) (w x win z acc : Vec Ideal S512x512 .f32) (r c : Fin 512) :
    k0_pay6 (F := Ideal) i w x win z acc (ix2 r c)
      = acc (ix2 r c) + ((∑ kk : Fin 512, x (ix2 r kk) * win (ix2 kk c))
          + (∑ kk : Fin 512, z (ix2 r kk) * wmask ((i 2).val = (i 1).val) w kk c)) := by
  unfold k0_pay6
  rw [shapeCast_self]
  show acc (ix2 r c) + (_ + _) = _
  refine congrArg (acc (ix2 r c) + ·) ?_
  refine congrArg₂ (· + ·) (mm_apply _ _ r c) ((mm_apply _ _ r c).trans ?_)
  refine Finset.sum_congr rfl fun kk _ => congrArg (z (ix2 r kk) * ·) ?_
  exact mask_apply i w _ _ _ kk c

theorem pay1_apply (d a v : Vec Ideal S512x512 .f32) (y : S512x512.Idx) :
    k0_pay1 (F := Ideal) d a v y = vOf (v y) (d y) (a y) := by
  rfl

theorem pay2_apply (d a v : Vec Ideal S512x512 .f32) (r : Vec Ideal S512x512 .i32) (y : S512x512.Idx) :
    k0_pay2 (F := Ideal) d a v r y = zOf (vOf (v y) (d y) (a y)) (r y) := by
  unfold k0_pay2 zOf
  exact congrArg (Scalar.select (IntOp.cmpi .sgt (r y) 0#32) cZero) (sitofp_bit _)

theorem pay3_apply (d a v : Vec Ideal S512x512 .f32) (r : Vec Ideal S512x512 .i32) (y : S512x512.Idx) :
    k0_pay3 (F := Ideal) d a v r r y = rOf (vOf (v y) (d y) (a y)) (r y) := by
  unfold k0_pay3 rOf
  show IntOp.minsi 5#32 (IntOp.maxsi 0#32 (IntOp.addi (IntOp.subi (r y) 1#32)
    (Ideal.fptosi 32 (k0_pay2 (F := Ideal) d a v r y * cFive)))) = _
  rw [pay2_apply]

end Cert.KernelIdeal.Pay

end
-- ==== Proof.KI.Blocks.lean ====
/-
  Where the windows' blocks sit in the arrays. Grid point t has coordinates (bi, bj, bk); the inputs' and the
  spikes' blocks are rows 512 bi … and columns 512 bk … of their arrays, the two weights' blocks rows 512 bk … and
  columns 512 bj …, the potential's, the counters' and the three results' blocks rows 512 bi … and columns 512 bj ….
  The point before a point with bk > 0 has the same bi and bj and bk - 1. The recurrent weight's block, masked on
  its own diagonal when bk = bj, is the weight without self-connections at the block's global indices.
-/
import proofs.«152879_j87522843560962_1_alg».proof.Proof.KI.Data
import proofs.«152879_j87522843560962_1_alg».proof.Proof.Spec
import Idealize.ShloMosaic.Lib.Pipeline.Value

set_option maxRecDepth 16384

noncomputable section

namespace Cert.KernelIdeal.Val

open Cert.KernelIdeal Cert.KernelIdeal.Gen Cert.KernelIdeal.Body Cert.LIF
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The three coordinates of a grid point. -/
def cI (t : Fin cfg0.N) : Fin 8 := ⟨(grid0.coords t 0).val, (grid0.coords t 0).isLt⟩
def cJ (t : Fin cfg0.N) : Fin 8 := ⟨(grid0.coords t 1).val, (grid0.coords t 1).isLt⟩
def cK (t : Fin cfg0.N) : Fin 8 := ⟨(grid0.coords t 2).val, (grid0.coords t 2).isLt⟩

/-- The six argument arrays as the region finds them, at their literal types. -/
abbrev aX (c : Dev nD) : SA.Idx → EReal := V m c main_arg0
abbrev aV (c : Dev nD) : SA.Idx → EReal := V m c main_arg1
abbrev aR (c : Dev nD) : SA.Idx → BitVec 32 := V m c main_arg2
abbrev aZ (c : Dev nD) : SA.Idx → EReal := V m c main_arg3
abbrev aWin (c : Dev nD) : SA.Idx → EReal := V m c main_arg4
abbrev aWrec (c : Dev nD) : SA.Idx → EReal := V m c main_arg5

/-! ## The grid, decided once -/

/-- The coordinates of point t of the 8 x 8 x 8 grid, the last one running fastest. -/
private theorem coords_facts : ∀ t : Fin cfg0.N,
    (grid0.coords t 0).val = t.val / 64 ∧ (grid0.coords t 1).val = t.val / 8 % 8 ∧ (grid0.coords t 2).val = t.val % 8 :=
  (by decide +kernel : ∀ t : Fin grid0.N,
    (grid0.coords t 0).val = t.val / 64 ∧ (grid0.coords t 1).val = t.val / 8 % 8 ∧ (grid0.coords t 2).val = t.val % 8)

/-- The block indices of the nine windows at a point, in the point's coordinates. -/
private theorem idx_facts : ∀ t : Fin cfg0.N,
    (win0_0.index t (0 : Fin 2) = (grid0.coords t 0).val ∧ win0_0.index t (1 : Fin 2) = (grid0.coords t 2).val)
    ∧ (win0_1.index t (0 : Fin 2) = (grid0.coords t 2).val ∧ win0_1.index t (1 : Fin 2) = (grid0.coords t 1).val)
    ∧ (win0_2.index t (0 : Fin 2) = (grid0.coords t 0).val ∧ win0_2.index t (1 : Fin 2) = (grid0.coords t 2).val)
    ∧ (win0_3.index t (0 : Fin 2) = (grid0.coords t 2).val ∧ win0_3.index t (1 : Fin 2) = (grid0.coords t 1).val)
    ∧ (win0_4.index t (0 : Fin 2) = (grid0.coords t 0).val ∧ win0_4.index t (1 : Fin 2) = (grid0.coords t 1).val)
    ∧ (win0_5.index t (0 : Fin 2) = (grid0.coords t 0).val ∧ win0_5.index t (1 : Fin 2) = (grid0.coords t 1).val)
    ∧ (win0_6.index t (0 : Fin 2) = (grid0.coords t 0).val ∧ win0_6.index t (1 : Fin 2) = (grid0.coords t 1).val)
    ∧ (win0_7.index t (0 : Fin 2) = (grid0.coords t 0).val ∧ win0_7.index t (1 : Fin 2) = (grid0.coords t 1).val)
    ∧ (win0_8.index t (0 : Fin 2) = (grid0.coords t 0).val ∧ win0_8.index t (1 : Fin 2) = (grid0.coords t 1).val) :=
  (by decide +kernel : ∀ t : Fin grid0.N, _)

/-! ## The conditions, in coordinates -/

theorem condZ_coords (t : Fin cfg0.N) : condZ (grid0.coords t) ↔ (cK t).val = 0 := by
  obtain ⟨-, -, a2⟩ := coords_facts t
  refine (condZ_iff t).trans ?_
  show t.val % 8 = 0 ↔ (grid0.coords t 2).val = 0
  rw [a2]
theorem condD_coords (t : Fin cfg0.N) : condD (grid0.coords t) ↔ (cK t).val = (cJ t).val := by
  obtain ⟨-, a1, a2⟩ := coords_facts t
  refine (condD_iff t).trans ?_
  show t.val % 8 = t.val / 8 % 8 ↔ (grid0.coords t 2).val = (grid0.coords t 1).val
  rw [a1, a2]
theorem condL_coords (t : Fin cfg0.N) : condL (grid0.coords t) ↔ (cK t).val = 7 := by
  obtain ⟨-, -, a2⟩ := coords_facts t
  refine (condL_iff t).trans ?_
  show t.val % 8 = 7 ↔ (grid0.coords t 2).val = 7
  rw [a2]

/-- The point before a point whose reduction block is not the first: the same output block, one reduction block
    earlier. -/
theorem pred_coords (t : Fin cfg0.N) (h : ¬condZ (grid0.coords t)) :
    cI ⟨t.val - 1, pred_lt t⟩ = cI t ∧ cJ ⟨t.val - 1, pred_lt t⟩ = cJ t ∧ (cK ⟨t.val - 1, pred_lt t⟩).val + 1 = (cK t).val := by
  have hz : t.val % 8 ≠ 0 := fun h0 => h ((condZ_iff t).mpr h0)
  obtain ⟨a0, a1, a2⟩ := coords_facts t
  obtain ⟨p0, p1, p2⟩ := coords_facts ⟨t.val - 1, pred_lt t⟩
  have q0 : (grid0.coords ⟨t.val - 1, pred_lt t⟩ 0).val = (t.val - 1) / 64 := p0
  have q1 : (grid0.coords ⟨t.val - 1, pred_lt t⟩ 1).val = (t.val - 1) / 8 % 8 := p1
  have q2 : (grid0.coords ⟨t.val - 1, pred_lt t⟩ 2).val = (t.val - 1) % 8 := p2
  refine ⟨Fin.ext ?_, Fin.ext ?_, ?_⟩
  · show (grid0.coords ⟨t.val - 1, pred_lt t⟩ 0).val = (grid0.coords t 0).val
    rw [q0, a0]; omega
  · show (grid0.coords ⟨t.val - 1, pred_lt t⟩ 1).val = (grid0.coords t 1).val
    rw [q1, a1]; omega
  · show (grid0.coords ⟨t.val - 1, pred_lt t⟩ 2).val + 1 = (grid0.coords t 2).val
    rw [q2, a2]; omega

/-- Every output block is written back at the point of its last reduction block. -/
theorem last_point (bi bj : Fin 8) : ∃ t : Fin cfg0.N, cI t = bi ∧ cJ t = bj ∧ (cK t).val = 7 := by
  have hN : cfg0.N = 512 := N_0
  have hbi : bi.val < 8 := bi.isLt
  have hbj : bj.val < 8 := bj.isLt
  have hlt : 64 * bi.val + 8 * bj.val + 7 < cfg0.N := by rw [hN]; omega
  obtain ⟨p0, p1, p2⟩ := coords_facts ⟨64 * bi.val + 8 * bj.val + 7, hlt⟩
  have q0 : (grid0.coords ⟨64 * bi.val + 8 * bj.val + 7, hlt⟩ 0).val = (64 * bi.val + 8 * bj.val + 7) / 64 := p0
  have q1 : (grid0.coords ⟨64 * bi.val + 8 * bj.val + 7, hlt⟩ 1).val = (64 * bi.val + 8 * bj.val + 7) / 8 % 8 := p1
  have q2 : (grid0.coords ⟨64 * bi.val + 8 * bj.val + 7, hlt⟩ 2).val = (64 * bi.val + 8 * bj.val + 7) % 8 := p2
  refine ⟨⟨64 * bi.val + 8 * bj.val + 7, hlt⟩, Fin.ext ?_, Fin.ext ?_, ?_⟩
  · show (grid0.coords ⟨64 * bi.val + 8 * bj.val + 7, hlt⟩ 0).val = bi.val
    rw [q0]; omega
  · show (grid0.coords ⟨64 * bi.val + 8 * bj.val + 7, hlt⟩ 1).val = bj.val
    rw [q1]; omega
  · show (grid0.coords ⟨64 * bi.val + 8 * bj.val + 7, hlt⟩ 2).val = 7
    rw [q2]; omega

/-! ## The input blocks, read at an index -/

theorem b0_apply (c : Dev nD) (t : Fin cfg0.N) (r kk : Fin 512) :
    b0 m c t (ix2 r kk) = aX m c (ix2 (gi (cI t) r) (gi (cK t) kk)) := by
  obtain ⟨E0, E1, E2, E3, E4, E5, E6, E7, E8⟩ := idx_facts t
  obtain ⟨e0, e1⟩ := E0
  show iblk m c 0 t (ix2 r kk) = V m c main_arg0 _
  unfold iblk
  rw [View.read_apply]
  show V m c main_arg0 _ = V m c main_arg0 _
  congr 1
  funext a
  apply Fin.ext
  match a with
  | ⟨0, _⟩ => show win0_0.index t (0 : Fin 2) * 512 + 1 * r.val = 512 * (grid0.coords t 0).val + r.val; rw [e0]; omega
  | ⟨1, _⟩ => show win0_0.index t (1 : Fin 2) * 512 + 1 * kk.val = 512 * (grid0.coords t 2).val + kk.val; rw [e1]; omega
theorem b1_apply (c : Dev nD) (t : Fin cfg0.N) (kk cc : Fin 512) :
    b1 m c t (ix2 kk cc) = aWin m c (ix2 (gi (cK t) kk) (gi (cJ t) cc)) := by
  obtain ⟨E0, E1, E2, E3, E4, E5, E6, E7, E8⟩ := idx_facts t
  obtain ⟨e0, e1⟩ := E1
  show iblk m c 1 t (ix2 kk cc) = V m c main_arg4 _
  unfold iblk
  rw [View.read_apply]
  show V m c main_arg4 _ = V m c main_arg4 _
  congr 1
  funext a
  apply Fin.ext
  match a with
  | ⟨0, _⟩ => show win0_1.index t (0 : Fin 2) * 512 + 1 * kk.val = 512 * (grid0.coords t 2).val + kk.val; rw [e0]; omega
  | ⟨1, _⟩ => show win0_1.index t (1 : Fin 2) * 512 + 1 * cc.val = 512 * (grid0.coords t 1).val + cc.val; rw [e1]; omega
theorem b2_apply (c : Dev nD) (t : Fin cfg0.N) (r kk : Fin 512) :
    b2 m c t (ix2 r kk) = aZ m c (ix2 (gi (cI t) r) (gi (cK t) kk)) := by
  obtain ⟨E0, E1, E2, E3, E4, E5, E6, E7, E8⟩ := idx_facts t
  obtain ⟨e0, e1⟩ := E2
  show iblk m c 2 t (ix2 r kk) = V m c main_arg3 _
  unfold iblk
  rw [View.read_apply]
  show V m c main_arg3 _ = V m c main_arg3 _
  congr 1
  funext a
  apply Fin.ext
  match a with
  | ⟨0, _⟩ => show win0_2.index t (0 : Fin 2) * 512 + 1 * r.val = 512 * (grid0.coords t 0).val + r.val; rw [e0]; omega
  | ⟨1, _⟩ => show win0_2.index t (1 : Fin 2) * 512 + 1 * kk.val = 512 * (grid0.coords t 2).val + kk.val; rw [e1]; omega
theorem b3_apply (c : Dev nD) (t : Fin cfg0.N) (kk cc : Fin 512) :
    b3 m c t (ix2 kk cc) = aWrec m c (ix2 (gi (cK t) kk) (gi (cJ t) cc)) := by
  obtain ⟨E0, E1, E2, E3, E4, E5, E6, E7, E8⟩ := idx_facts t
  obtain ⟨e0, e1⟩ := E3
  show iblk m c 3 t (ix2 kk cc) = V m c main_arg5 _
  unfold iblk
  rw [View.read_apply]
  show V m c main_arg5 _ = V m c main_arg5 _
  congr 1
  funext a
  apply Fin.ext
  match a with
  | ⟨0, _⟩ => show win0_3.index t (0 : Fin 2) * 512 + 1 * kk.val = 512 * (grid0.coords t 2).val + kk.val; rw [e0]; omega
  | ⟨1, _⟩ => show win0_3.index t (1 : Fin 2) * 512 + 1 * cc.val = 512 * (grid0.coords t 1).val + cc.val; rw [e1]; omega
theorem b4_apply (c : Dev nD) (t : Fin cfg0.N) (r cc : Fin 512) :
    b4 m c t (ix2 r cc) = aV m c (ix2 (gi (cI t) r) (gi (cJ t) cc)) := by
  obtain ⟨E0, E1, E2, E3, E4, E5, E6, E7, E8⟩ := idx_facts t
  obtain ⟨e0, e1⟩ := E4
  show iblk m c 4 t (ix2 r cc) = V m c main_arg1 _
  unfold iblk
  rw [View.read_apply]
  show V m c main_arg1 _ = V m c main_arg1 _
  congr 1
  funext a
  apply Fin.ext
  match a with
  | ⟨0, _⟩ => show win0_4.index t (0 : Fin 2) * 512 + 1 * r.val = 512 * (grid0.coords t 0).val + r.val; rw [e0]; omega
  | ⟨1, _⟩ => show win0_4.index t (1 : Fin 2) * 512 + 1 * cc.val = 512 * (grid0.coords t 1).val + cc.val; rw [e1]; omega
theorem b5_apply (c : Dev nD) (t : Fin cfg0.N) (r cc : Fin 512) :
    b5 m c t (ix2 r cc) = aR m c (ix2 (gi (cI t) r) (gi (cJ t) cc)) := by
  obtain ⟨E0, E1, E2, E3, E4, E5, E6, E7, E8⟩ := idx_facts t
  obtain ⟨e0, e1⟩ := E5
  show iblk m c 5 t (ix2 r cc) = V m c main_arg2 _
  unfold iblk
  rw [View.read_apply]
  show V m c main_arg2 _ = V m c main_arg2 _
  congr 1
  funext a
  apply Fin.ext
  match a with
  | ⟨0, _⟩ => show win0_5.index t (0 : Fin 2) * 512 + 1 * r.val = 512 * (grid0.coords t 0).val + r.val; rw [e0]; omega
  | ⟨1, _⟩ => show win0_5.index t (1 : Fin 2) * 512 + 1 * cc.val = 512 * (grid0.coords t 1).val + cc.val; rw [e1]; omega

/-- The recurrent weight's block as the body masks it is the weight without self-connections. -/
theorem wmask_eq (c : Dev nD) (t : Fin cfg0.N) (kk cc : Fin 512) :
    wmask ((grid0.coords t 2).val = (grid0.coords t 1).val) (b3 m c t) kk cc = wnd (aWrec m c) (gi (cK t) kk) (gi (cJ t) cc) := by
  unfold wmask wnd
  rw [b3_apply]
  by_cases h : (grid0.coords t 2).val = (grid0.coords t 1).val
  · have hKJ : cK t = cJ t := Fin.ext h
    rw [if_pos h]
    by_cases hk : kk = cc
    · rw [if_pos hk, if_pos (by rw [hKJ, hk])]
    · rw [if_neg hk, if_neg (fun e => hk (gi_inj.mp e).2)]
  · have hne : ¬ gi (cK t) kk = gi (cJ t) cc := fun e => h (congrArg Fin.val (gi_inj.mp e).1)
    rw [if_neg h, if_neg hne]
    rw [cOne_eq, sub_zero, mul_one]

/-! ## The results' blocks -/

/-- Reading an array of the results' shape through result window w's block at point t: local (r, cc) is global
    (512 bi + r, 512 bj + cc). -/
theorem blk6_read (t : Fin cfg0.N) (G : SA.Idx → EReal) (r cc : Fin 512) :
    ((cfg0.win 6).blk t).view.read (Elt Ideal) G (ix2 r cc) = G (ix2 (gi (cI t) r) (gi (cJ t) cc)) := by
  obtain ⟨E0, E1, E2, E3, E4, E5, E6, E7, E8⟩ := idx_facts t
  obtain ⟨e0, e1⟩ := E6
  rw [View.read_apply]
  show G _ = G _
  congr 1
  funext a
  apply Fin.ext
  match a with
  | ⟨0, _⟩ => show win0_6.index t (0 : Fin 2) * 512 + 1 * r.val = 512 * (grid0.coords t 0).val + r.val; rw [e0]; omega
  | ⟨1, _⟩ => show win0_6.index t (1 : Fin 2) * 512 + 1 * cc.val = 512 * (grid0.coords t 1).val + cc.val; rw [e1]; omega
theorem blk7_read (t : Fin cfg0.N) (G : SA.Idx → EReal) (r cc : Fin 512) :
    ((cfg0.win 7).blk t).view.read (Elt Ideal) G (ix2 r cc) = G (ix2 (gi (cI t) r) (gi (cJ t) cc)) := by
  obtain ⟨E0, E1, E2, E3, E4, E5, E6, E7, E8⟩ := idx_facts t
  obtain ⟨e0, e1⟩ := E7
  rw [View.read_apply]
  show G _ = G _
  congr 1
  funext a
  apply Fin.ext
  match a with
  | ⟨0, _⟩ => show win0_7.index t (0 : Fin 2) * 512 + 1 * r.val = 512 * (grid0.coords t 0).val + r.val; rw [e0]; omega
  | ⟨1, _⟩ => show win0_7.index t (1 : Fin 2) * 512 + 1 * cc.val = 512 * (grid0.coords t 1).val + cc.val; rw [e1]; omega
theorem blk8_read (t : Fin cfg0.N) (G : SA.Idx → BitVec 32) (r cc : Fin 512) :
    ((cfg0.win 8).blk t).view.read (Elt Ideal) G (ix2 r cc) = G (ix2 (gi (cI t) r) (gi (cJ t) cc)) := by
  obtain ⟨E0, E1, E2, E3, E4, E5, E6, E7, E8⟩ := idx_facts t
  obtain ⟨e0, e1⟩ := E8
  rw [View.read_apply]
  show G _ = G _
  congr 1
  funext a
  apply Fin.ext
  match a with
  | ⟨0, _⟩ => show win0_8.index t (0 : Fin 2) * 512 + 1 * r.val = 512 * (grid0.coords t 0).val + r.val; rw [e0]; omega
  | ⟨1, _⟩ => show win0_8.index t (1 : Fin 2) * 512 + 1 * cc.val = 512 * (grid0.coords t 1).val + cc.val; rw [e1]; omega

/-- An index of the array is in point t's block of result window 6 iff each coordinate is in the block's range. -/
private theorem mem_blk6 (t : Fin cfg0.N) (i : SA.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v0_0).slice (win0_6.rect t)).set ↔ _
  rw [View.set_slice_whole, Rect.mem_set_unit]
  exact Iff.rfl

/-- An index of the array is in point t's block of result window 7 iff each coordinate is in the block's range. -/
private theorem mem_blk7 (t : Fin cfg0.N) (i : SA.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v0_1).slice (win0_7.rect t)).set ↔ _
  rw [View.set_slice_whole, Rect.mem_set_unit]
  exact Iff.rfl

/-- An index of the array is in point t's block of result window 8 iff each coordinate is in the block's range. -/
private theorem mem_blk8 (t : Fin cfg0.N) (i : SA.Idx) :
    i ∈ ((cfg0.win 8).blk t).view.set ↔ ∀ a : Fin 2, win0_8.index t a * S512x512.size a ≤ (i a).val ∧ (i a).val < win0_8.index t a * S512x512.size a + S512x512.size a := by
  show i ∈ ((View.whole main_v0_2).slice (win0_8.rect t)).set ↔ _
  rw [View.set_slice_whole, Rect.mem_set_unit]
  exact Iff.rfl

/-- Every index of a result array lies in the block some point writes back. -/
theorem cover6 (i : SA.Idx) : ∃ t : Fin cfg0.N, (cfg0.win 6).flush t = true ∧ i ∈ ((cfg0.win 6).blk t).view.set := by
  have hi0 : (i 0).val < 4096 := (i 0).isLt
  have hi1 : (i 1).val < 4096 := (i 1).isLt
  obtain ⟨t, hI, hJ, hK⟩ := last_point ⟨(i 0).val / 512, by omega⟩ ⟨(i 1).val / 512, by omega⟩
  have hI' : (grid0.coords t 0).val = (i 0).val / 512 := congrArg Fin.val hI
  have hJ' : (grid0.coords t 1).val = (i 1).val / 512 := congrArg Fin.val hJ
  obtain ⟨E0, E1, E2, E3, E4, E5, E6, E7, E8⟩ := idx_facts t
  obtain ⟨e0, e1⟩ := E6
  refine ⟨t, (flush0_6 t).mpr ((condL_iff t).mp ((condL_coords t).mpr hK)), ?_⟩
  rw [mem_blk6]
  intro a
  match a with
  | ⟨0, _⟩ => show win0_6.index t (0 : Fin 2) * 512 ≤ (i 0).val ∧ (i 0).val < win0_6.index t (0 : Fin 2) * 512 + 512; rw [e0, hI']; omega
  | ⟨1, _⟩ => show win0_6.index t (1 : Fin 2) * 512 ≤ (i 1).val ∧ (i 1).val < win0_6.index t (1 : Fin 2) * 512 + 512; rw [e1, hJ']; omega
theorem cover7 (i : SA.Idx) : ∃ t : Fin cfg0.N, (cfg0.win 7).flush t = true ∧ i ∈ ((cfg0.win 7).blk t).view.set := by
  have hi0 : (i 0).val < 4096 := (i 0).isLt
  have hi1 : (i 1).val < 4096 := (i 1).isLt
  obtain ⟨t, hI, hJ, hK⟩ := last_point ⟨(i 0).val / 512, by omega⟩ ⟨(i 1).val / 512, by omega⟩
  have hI' : (grid0.coords t 0).val = (i 0).val / 512 := congrArg Fin.val hI
  have hJ' : (grid0.coords t 1).val = (i 1).val / 512 := congrArg Fin.val hJ
  obtain ⟨E0, E1, E2, E3, E4, E5, E6, E7, E8⟩ := idx_facts t
  obtain ⟨e0, e1⟩ := E7
  refine ⟨t, (flush0_7 t).mpr ((condL_iff t).mp ((condL_coords t).mpr hK)), ?_⟩
  rw [mem_blk7]
  intro a
  match a with
  | ⟨0, _⟩ => show win0_7.index t (0 : Fin 2) * 512 ≤ (i 0).val ∧ (i 0).val < win0_7.index t (0 : Fin 2) * 512 + 512; rw [e0, hI']; omega
  | ⟨1, _⟩ => show win0_7.index t (1 : Fin 2) * 512 ≤ (i 1).val ∧ (i 1).val < win0_7.index t (1 : Fin 2) * 512 + 512; rw [e1, hJ']; omega
theorem cover8 (i : SA.Idx) : ∃ t : Fin cfg0.N, (cfg0.win 8).flush t = true ∧ i ∈ ((cfg0.win 8).blk t).view.set := by
  have hi0 : (i 0).val < 4096 := (i 0).isLt
  have hi1 : (i 1).val < 4096 := (i 1).isLt
  obtain ⟨t, hI, hJ, hK⟩ := last_point ⟨(i 0).val / 512, by omega⟩ ⟨(i 1).val / 512, by omega⟩
  have hI' : (grid0.coords t 0).val = (i 0).val / 512 := congrArg Fin.val hI
  have hJ' : (grid0.coords t 1).val = (i 1).val / 512 := congrArg Fin.val hJ
  obtain ⟨E0, E1, E2, E3, E4, E5, E6, E7, E8⟩ := idx_facts t
  obtain ⟨e0, e1⟩ := E8
  refine ⟨t, (flush0_8 t).mpr ((condL_iff t).mp ((condL_coords t).mpr hK)), ?_⟩
  rw [mem_blk8]
  intro a
  match a with
  | ⟨0, _⟩ => show win0_8.index t (0 : Fin 2) * 512 ≤ (i 0).val ∧ (i 0).val < win0_8.index t (0 : Fin 2) * 512 + 512; rw [e0, hI']; omega
  | ⟨1, _⟩ => show win0_8.index t (1 : Fin 2) * 512 ≤ (i 1).val ∧ (i 1).val < win0_8.index t (1 : Fin 2) * 512 + 512; rw [e1, hJ']; omega

end Cert.KernelIdeal.Val

end
-- ==== Proof.KI.Value.lean ====
/-
  What the fused LIF step's three result arrays hold at the end, over the extended reals. By induction on the grid
  points: after the point with coordinates (bi, bj, bk) the running sum's scratch block holds, at local (r, c), the
  input current's sum over the reduction blocks 0 … bk at global (512 bi + r, 512 bj + c), and from bk = bj on the
  captured block is the spikes' block (bi, bj). At bk = 7 the sum is the whole input current, so the three blocks
  stored there are new_v, new_z and new_r at the block's global indices; those blocks are written back and tile the
  result arrays.
-/
import proofs.«152879_j87522843560962_1_alg».proof.Proof.KI.Body
import proofs.«152879_j87522843560962_1_alg».proof.Proof.KI.Pieces
import proofs.«152879_j87522843560962_1_alg».proof.Proof.KI.Pay
import proofs.«152879_j87522843560962_1_alg».proof.Proof.KI.Blocks
import proofs.«152879_j87522843560962_1_alg».proof.Proof.Spec
import Idealize.ShloMosaic.Lib.Pipeline.Value

set_option maxRecDepth 16384

noncomputable section

namespace Cert.KernelIdeal.Val

open Cert.KernelIdeal Cert.KernelIdeal.Gen Cert.KernelIdeal.Body Cert.KernelIdeal.Pay Cert.LIF
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The running sum and the captured block after point t. -/
abbrev accAt (c : Dev nD) (t : Fin cfg0.N) : Vec Ideal S512x512 .f32 := (outsAt m c t.val t.isLt).2.2.2.1
abbrev diagAt (c : Dev nD) (t : Fin cfg0.N) : Vec Ideal S512x512 .f32 := (outsAt m c t.val t.isLt).2.2.2.2

/-- The point before. -/
abbrev prev (t : Fin cfg0.N) : Fin cfg0.N := ⟨t.val - 1, pred_lt t⟩

/-! ## One point's step, in the body's arithmetic -/

theorem acc_Z (c : Dev nD) (t : Fin cfg0.N) (hZ : condZ (grid0.coords t)) :
    accAt m c t = k0_pay6 (grid0.coords t) (b3 m c t) (b0 m c t) (b1 m c t) (b2 m c t) (k0_pay4 (F := Ideal)) := by
  have hL : ¬condL (grid0.coords t) := fun hL => by
    have h1 := (condZ_iff t).mp hZ; have h2 := (condL_iff t).mp hL; omega
  by_cases hD : condD (grid0.coords t)
  · show (outsAt m c t.val t.isLt).2.2.2.1 = _
    rw [outsAt_A m c t hZ hD hL]
    unfold tupA; dsimp only
    rw [accA_eq]
  · show (outsAt m c t.val t.isLt).2.2.2.1 = _
    rw [outsAt_B m c t hZ hD hL]
    unfold tupB; dsimp only
    rw [accB_eq]

theorem acc_nZ (c : Dev nD) (t : Fin cfg0.N) (hZ : ¬condZ (grid0.coords t)) :
    accAt m c t = k0_pay6 (grid0.coords t) (b3 m c t) (b0 m c t) (b1 m c t) (b2 m c t) (accAt m c (prev t)) := by
  by_cases hD : condD (grid0.coords t)
  · by_cases hL : condL (grid0.coords t)
    · show (outsAt m c t.val t.isLt).2.2.2.1 = _
      rw [outsAt_E m c t hZ hD hL]
      unfold tupE; dsimp only
      rw [accE_eq]
    · show (outsAt m c t.val t.isLt).2.2.2.1 = _
      rw [outsAt_C m c t hZ hD hL]
      unfold tupC; dsimp only
      rw [accC_eq]
  · by_cases hL : condL (grid0.coords t)
    · show (outsAt m c t.val t.isLt).2.2.2.1 = _
      rw [outsAt_G m c t hZ hD hL]
      unfold tupG; dsimp only
      rw [accG_eq]
    · show (outsAt m c t.val t.isLt).2.2.2.1 = _
      rw [outsAt_D m c t hZ hD hL]
      unfold tupD; dsimp only
      rw [accD_eq]

theorem diag_D (c : Dev nD) (t : Fin cfg0.N) (hD : condD (grid0.coords t)) :
    diagAt m c t = k0_pay5 (b2 m c t) := by
  by_cases hZ : condZ (grid0.coords t)
  · have hL : ¬condL (grid0.coords t) := fun hL => by
      have h1 := (condZ_iff t).mp hZ; have h2 := (condL_iff t).mp hL; omega
    show (outsAt m c t.val t.isLt).2.2.2.2 = _
    rw [outsAt_A m c t hZ hD hL]
    unfold tupA; dsimp only
    rw [diagA_eq]
  · by_cases hL : condL (grid0.coords t)
    · show (outsAt m c t.val t.isLt).2.2.2.2 = _
      rw [outsAt_E m c t hZ hD hL]
      unfold tupE; dsimp only
      rw [diagE_eq]
    · show (outsAt m c t.val t.isLt).2.2.2.2 = _
      rw [outsAt_C m c t hZ hD hL]
      unfold tupC; dsimp only
      rw [diagC_eq]

theorem diag_nD (c : Dev nD) (t : Fin cfg0.N) (hZ : ¬condZ (grid0.coords t)) (hD : ¬condD (grid0.coords t)) :
    diagAt m c t = diagAt m c (prev t) := by
  by_cases hL : condL (grid0.coords t)
  · show (outsAt m c t.val t.isLt).2.2.2.2 = _
    rw [outsAt_G m c t hZ hD hL]; unfold tupG; dsimp only
  · show (outsAt m c t.val t.isLt).2.2.2.2 = _
    rw [outsAt_D m c t hZ hD hL]; unfold tupD; dsimp only

/-- At the last reduction block the three results are computed from the captured block and the running sum the
    point itself leaves. -/
theorem outs_L (c : Dev nD) (t : Fin cfg0.N) (hL : condL (grid0.coords t)) :
    (outsAt m c t.val t.isLt).1 = k0_pay1 (diagAt m c t) (accAt m c t) (b4 m c t)
    ∧ (outsAt m c t.val t.isLt).2.1 = k0_pay2 (diagAt m c t) (accAt m c t) (b4 m c t) (b5 m c t)
    ∧ (outsAt m c t.val t.isLt).2.2.1 = k0_pay3 (diagAt m c t) (accAt m c t) (b4 m c t) (b5 m c t) (b5 m c t) := by
  have hZ : ¬condZ (grid0.coords t) := fun hZ => by
    have h1 := (condZ_iff t).mp hZ; have h2 := (condL_iff t).mp hL; omega
  by_cases hD : condD (grid0.coords t)
  · unfold accAt diagAt
    rw [outsAt_E m c t hZ hD hL]
    unfold tupE; dsimp only
    rw [o6E_eq, o7E_eq, o8E_eq, accE_eq, diagE_eq]
    exact ⟨rfl, rfl, rfl⟩
  · unfold accAt diagAt
    rw [outsAt_G m c t hZ hD hL]
    unfold tupG; dsimp only
    rw [o6G_eq, o7G_eq, o8G_eq, accG_eq]
    exact ⟨rfl, rfl, rfl⟩

/-! ## The invariant -/

/-- Reduction block bk's share, in the blocks the point is given. -/
theorem term_at (c : Dev nD) (t : Fin cfg0.N) (r cc : Fin 512) :
    term (aX m c) (aZ m c) (aWin m c) (aWrec m c) (cI t) (cJ t) (cK t).val r cc
      = (∑ kk : Fin 512, b0 m c t (ix2 r kk) * b1 m c t (ix2 kk cc))
        + (∑ kk : Fin 512, b2 m c t (ix2 r kk) * wmask ((grid0.coords t 2).val = (grid0.coords t 1).val) (b3 m c t) kk cc) := by
  unfold term
  rw [dif_pos (cK t).isLt]
  simp only [b0_apply, b1_apply, b2_apply, wmask_eq, Fin.eta]

/-- What the invariant says of a point. -/
def Inv (c : Dev nD) (t : Fin cfg0.N) : Prop :=
  (∀ r cc : Fin 512, accAt m c t (ix2 r cc) = part (aX m c) (aZ m c) (aWin m c) (aWrec m c) (cI t) (cJ t) (cK t).val r cc)
  ∧ ((cJ t).val ≤ (cK t).val → ∀ r cc : Fin 512, diagAt m c t (ix2 r cc) = aZ m c (ix2 (gi (cI t) r) (gi (cJ t) cc)))

theorem inv_step (c : Dev nD) (t : Fin cfg0.N) (ih : ¬condZ (grid0.coords t) → Inv m c (prev t)) : Inv m c t := by
  constructor
  · intro r cc
    by_cases hZ : condZ (grid0.coords t)
    · rw [acc_Z m c t hZ, pay6_apply, pay4_apply, ← term_at, (condZ_coords t).mp hZ, part_zero]
    · obtain ⟨e1, e2, e3⟩ : cI (prev t) = cI t ∧ cJ (prev t) = cJ t ∧ (cK (prev t)).val + 1 = (cK t).val := pred_coords t hZ
      rw [acc_nZ m c t hZ, pay6_apply, ← term_at, (ih hZ).1 r cc, e1, e2, ← e3, part_succ]
  · intro hle r cc
    by_cases hD : condD (grid0.coords t)
    · have hk : cK t = cJ t := Fin.ext ((condD_coords t).mp hD)
      rw [diag_D m c t hD, pay5_eq, b2_apply, hk]
    · have hne : (cK t).val ≠ (cJ t).val := fun h => hD ((condD_coords t).mpr h)
      have hZ : ¬condZ (grid0.coords t) := fun hZ => by
        have := (condZ_coords t).mp hZ; omega
      obtain ⟨e1, e2, e3⟩ : cI (prev t) = cI t ∧ cJ (prev t) = cJ t ∧ (cK (prev t)).val + 1 = (cK t).val := pred_coords t hZ
      rw [diag_nD m c t hZ hD, (ih hZ).2 (by rw [e2]; omega) r cc, e1, e2]

theorem inv (c : Dev nD) : ∀ (n : ℕ) (hn : n < cfg0.N), Inv m c ⟨n, hn⟩ := by
  intro n
  induction n with
  | zero => intro hn; exact inv_step m c ⟨0, hn⟩ (fun hZ => absurd rfl (ne_zero_of_notZ ⟨0, hn⟩ hZ))
  | succ n ih => intro hn; exact inv_step m c ⟨n + 1, hn⟩ (fun _ => ih (Nat.lt_of_succ_lt hn))

theorem inv' (c : Dev nD) (t : Fin cfg0.N) : Inv m c t := inv m c t.val t.isLt

/-! ## The three results at the last reduction block -/

theorem sum_last (c : Dev nD) (t : Fin cfg0.N) (hL : condL (grid0.coords t)) (r cc : Fin 512) :
    accAt m c t (ix2 r cc) = cur (aX m c) (aZ m c) (aWin m c) (aWrec m c) (gi (cI t) r) (gi (cJ t) cc) := by
  rw [(inv' m c t).1 r cc, (condL_coords t).mp hL, part_last]

theorem diag_last (c : Dev nD) (t : Fin cfg0.N) (hL : condL (grid0.coords t)) (r cc : Fin 512) :
    diagAt m c t (ix2 r cc) = aZ m c (ix2 (gi (cI t) r) (gi (cJ t) cc)) :=
  (inv' m c t).2 (by have := (condL_coords t).mp hL; have := (cJ t).isLt; omega) r cc

theorem out6_at (c : Dev nD) (t : Fin cfg0.N) (hL : condL (grid0.coords t)) (r cc : Fin 512) :
    (outsAt m c t.val t.isLt).1 (ix2 r cc)
      = newV (aX m c) (aV m c) (aZ m c) (aWin m c) (aWrec m c) (ix2 (gi (cI t) r) (gi (cJ t) cc)) := by
  rw [(outs_L m c t hL).1, pay1_apply, sum_last m c t hL, diag_last m c t hL, b4_apply, newV_ix2]

theorem out7_at (c : Dev nD) (t : Fin cfg0.N) (hL : condL (grid0.coords t)) (r cc : Fin 512) :
    (outsAt m c t.val t.isLt).2.1 (ix2 r cc)
      = newZ (aX m c) (aV m c) (aR m c) (aZ m c) (aWin m c) (aWrec m c) (ix2 (gi (cI t) r) (gi (cJ t) cc)) := by
  rw [(outs_L m c t hL).2.1, pay2_apply, sum_last m c t hL, diag_last m c t hL, b4_apply, b5_apply]
  unfold newZ; rw [newV_ix2]

theorem out8_at (c : Dev nD) (t : Fin cfg0.N) (hL : condL (grid0.coords t)) (r cc : Fin 512) :
    (outsAt m c t.val t.isLt).2.2.1 (ix2 r cc)
      = newR (aX m c) (aV m c) (aR m c) (aZ m c) (aWin m c) (aWrec m c) (ix2 (gi (cI t) r) (gi (cJ t) cc)) := by
  rw [(outs_L m c t hL).2.2, pay3_apply, sum_last m c t hL, diag_last m c t hL, b4_apply, b5_apply]
  unfold newR; rw [newV_ix2]

/-! ## From the blocks to the arrays -/

theorem flushed6 (c : Dev nD) (t : Fin cfg0.N) (hf : (cfg0.win 6).flush t = true) :
    (dats m 0 c).flushed 6 t = ((cfg0.win 6).blk t).view.read (Elt Ideal) (newV (aX m c) (aV m c) (aZ m c) (aWin m c) (aWrec m c)) := by
  have hL : condL (grid0.coords t) := (condL_iff t).mpr ((flush0_6 t).mp hf)
  show (cfg0.win 6).cut (grid0.coords t) ((dats m 0 c).after 6 t) = _
  rw [after_6]
  funext y
  obtain ⟨r, cc, rfl⟩ : ∃ (r : Fin 512) (cc : Fin 512), y = ix2 r cc := ⟨y 0, y 1, eq_ix2 y⟩
  rw [blk6_read]
  exact out6_at m c t hL r cc

theorem flushed7 (c : Dev nD) (t : Fin cfg0.N) (hf : (cfg0.win 7).flush t = true) :
    (dats m 0 c).flushed 7 t = ((cfg0.win 7).blk t).view.read (Elt Ideal) (newZ (aX m c) (aV m c) (aR m c) (aZ m c) (aWin m c) (aWrec m c)) := by
  have hL : condL (grid0.coords t) := (condL_iff t).mpr ((flush0_7 t).mp hf)
  show (cfg0.win 7).cut (grid0.coords t) ((dats m 0 c).after 7 t) = _
  rw [after_7]
  funext y
  obtain ⟨r, cc, rfl⟩ : ∃ (r : Fin 512) (cc : Fin 512), y = ix2 r cc := ⟨y 0, y 1, eq_ix2 y⟩
  rw [blk7_read]
  exact out7_at m c t hL r cc

theorem flushed8 (c : Dev nD) (t : Fin cfg0.N) (hf : (cfg0.win 8).flush t = true) :
    (dats m 0 c).flushed 8 t = ((cfg0.win 8).blk t).view.read (Elt Ideal) (newR (aX m c) (aV m c) (aR m c) (aZ m c) (aWin m c) (aWrec m c)) := by
  have hL : condL (grid0.coords t) := (condL_iff t).mpr ((flush0_8 t).mp hf)
  show (cfg0.win 8).cut (grid0.coords t) ((dats m 0 c).after 8 t) = _
  rw [after_8]
  funext y
  obtain ⟨r, cc, rfl⟩ : ∃ (r : Fin 512) (cc : Fin 512), y = ix2 r cc := ⟨y 0, y 1, eq_ix2 y⟩
  rw [blk8_read]
  exact out8_at m c t hL r cc

theorem final6 (c : Dev nD) : (dats m 0 c).arrAt 6 cfg0.N = newV (aX m c) (aV m c) (aZ m c) (aWin m c) (aWrec m c) :=
  (dats m 0 c).arrAt_eq_of_cover 6 _ (fun t hf => flushed6 m c t hf) cover6

theorem final7 (c : Dev nD) : (dats m 0 c).arrAt 7 cfg0.N = newZ (aX m c) (aV m c) (aR m c) (aZ m c) (aWin m c) (aWrec m c) :=
  (dats m 0 c).arrAt_eq_of_cover 7 _ (fun t hf => flushed7 m c t hf) cover7

theorem final8 (c : Dev nD) : (dats m 0 c).arrAt 8 cfg0.N = newR (aX m c) (aV m c) (aR m c) (aZ m c) (aWin m c) (aWrec m c) :=
  (dats m 0 c).arrAt_eq_of_cover 8 _ (fun t hf => flushed8 m c t hf) cover8

/-! ## The run, read -/

/-- Every weakly fair execution of the kernel's program terminates with the three result arrays at new_v, new_z and
    new_r of the argument arrays, and the arguments unchanged. -/
theorem run : θ_run defs (onTc (τ := τ) (main (F := Ideal))) ⟨m, fun _ => 0, ρ⟩ fun r => ∀ c : Dev nD,
      r.2.mem ((c.tc : Thread nD τ).loc main_v0_0) = newV (aX m c) (aV m c) (aZ m c) (aWin m c) (aWrec m c)
      ∧ r.2.mem ((c.tc : Thread nD τ).loc main_v0_1) = newZ (aX m c) (aV m c) (aR m c) (aZ m c) (aWin m c) (aWrec m c)
      ∧ r.2.mem ((c.tc : Thread nD τ).loc main_v0_2) = newR (aX m c) (aV m c) (aR m c) (aZ m c) (aWin m c) (aWrec m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final6 m c), ((h c).1 7).trans (final7 m c), ((h c).1 8).trans (final8 m c),
      ((h c).1 0).trans (((dats m 0 c).arrAt_in 0 rfl _).trans ((A_eq m c 0).trans (V_main_arg0 m c))),
      ((h c).1 4).trans (((dats m 0 c).arrAt_in 4 rfl _).trans ((A_eq m c 4).trans (V_main_arg1 m c))),
      ((h c).1 5).trans (((dats m 0 c).arrAt_in 5 rfl _).trans ((A_eq m c 5).trans (V_main_arg2 m c))),
      ((h c).1 2).trans (((dats m 0 c).arrAt_in 2 rfl _).trans ((A_eq m c 2).trans (V_main_arg3 m c))),
      ((h c).1 1).trans (((dats m 0 c).arrAt_in 1 rfl _).trans ((A_eq m c 1).trans (V_main_arg4 m c))),
      ((h c).1 3).trans (((dats m 0 c).arrAt_in 3 rfl _).trans ((A_eq m c 3).trans (V_main_arg5 m c)))⟩)
    (run_main m ρ)

end Cert.KernelIdeal.Val

end
-- ==== Proof.Ref.RefIs.lean ====
/-
  The reference's three results are the LIF step's new_v, new_z and new_r: its operations read one at a time at an
  index — the two matrix products as sums over the 4096 reduction indices, the identity matrix as the indicator of
  the diagonal, the constants and the pointwise chain as written.
-/
import proofs.«152879_j87522843560962_1_alg».proof.Proof.Spec
import proofs.«152879_j87522843560962_1_alg».proof.Proof.Ref.ReadP

noncomputable section

namespace Cert.LIF.Ref

open Idealize.ShloMosaic Idealize.ShloMosaic.ValueIdx Cert.LIF Cert.ReferenceIdeal Cert.ReferenceIdeal.ReadP

private theorem ofNat32_eq_iff {a b : Nat} (ha : a < 4096) (hb : b < 4096) :
    BitVec.ofNat 32 a = BitVec.ofNat 32 b ↔ a = b := by
  constructor
  · intro h
    have h2 := congrArg BitVec.toNat h
    simp only [BitVec.toNat_ofNat] at h2
    omega
  · rintro rfl; rfl

/-- The reference's identity matrix (the comparison of the two iotas, converted to a float) is the indicator of the
    diagonal. -/
private theorem eye_apply (k j : Fin 4096) :
    val_main_v5 (F := Ideal) (ix2 k j) = if k = j then (1 : EReal) else 0 := by
  rw [val_main_v5_apply, val_main_v4_apply, val_main_v3_apply, val_main_v0_apply, val_main_v1_apply,
    val_main_v2_apply, val_main_c_apply]
  have h0 : (ix2 k j 0).val = k.val := rfl
  have h1 : (ix2 k j 1).val = j.val := rfl
  rw [h0, h1]
  have hadd : IntOp.addi (BitVec.ofNat 32 k.val) 0#32 = BitVec.ofNat 32 k.val := by
    unfold IntOp.addi; exact BitVec.add_zero _
  rw [hadd]
  show (((IntOp.cmpi CmpIPredicate.eq (BitVec.ofNat 32 k.val) (BitVec.ofNat 32 j.val)).toNat : ℝ) : EReal) = _
  unfold IntOp.cmpi
  by_cases h : k = j
  · subst h
    simp
  · have hne : BitVec.ofNat 32 k.val ≠ BitVec.ofNat 32 j.val := fun e =>
      h (Fin.ext ((ofNat32_eq_iff k.isLt j.isLt).mp e))
    simp [h, hne]

private theorem lidx9 (i j k : Fin 4096) : lidx_main_v9 (ix2 i j) k = ix2 i k :=
  funext fun a => Fin.ext (by match a with | ⟨0, _⟩ => rfl | ⟨1, _⟩ => rfl)
private theorem ridx9 (i j k : Fin 4096) : ridx_main_v9 (ix2 i j) k = ix2 k j :=
  funext fun a => Fin.ext (by match a with | ⟨0, _⟩ => rfl | ⟨1, _⟩ => rfl)
private theorem lidx10 (i j k : Fin 4096) : lidx_main_v10 (ix2 i j) k = ix2 i k :=
  funext fun a => Fin.ext (by match a with | ⟨0, _⟩ => rfl | ⟨1, _⟩ => rfl)
private theorem ridx10 (i j k : Fin 4096) : ridx_main_v10 (ix2 i j) k = ix2 k j :=
  funext fun a => Fin.ext (by match a with | ⟨0, _⟩ => rfl | ⟨1, _⟩ => rfl)

/-- The masked recurrent weight of the reference at (k, j). -/
private theorem v8_apply (x5 : SA.Idx → EReal) (k j : Fin 4096) :
    val_main_v8 (F := Ideal) x5 (ix2 k j) = wnd x5 k j := by
  rw [val_main_v8_apply, val_main_v7_apply, val_main_v6_apply, val_main_cst_apply, eye_apply]
  rfl

/-- The reference's new membrane potential at (i, j). -/
private theorem v19_ix2 (x0 x1 x3 x4 x5 : SA.Idx → EReal) (i j : Fin 4096) :
    val_main_v19 (F := Ideal) x0 x1 x3 x4 x5 (ix2 i j) = newV x0 x1 x3 x4 x5 (ix2 i j) := by
  rw [newV_ix2, val_main_v19_apply, val_main_v18_apply, val_main_v17_apply, val_main_cst_2_apply,
    val_main_v16_apply, val_main_v15_apply, val_main_v14_apply, val_main_cst_1_apply, val_main_v13_apply,
    val_main_v12_apply, val_main_v11_apply, val_main_cst_0_apply, val_main_v9_apply, val_main_v10_apply]
  simp only [lidx9, ridx9, lidx10, ridx10, v8_apply]
  rfl

theorem ref_newV (x0 x1 x3 x4 x5 : SA.Idx → EReal) :
    val_main_v19 (F := Ideal) x0 x1 x3 x4 x5 = newV x0 x1 x3 x4 x5 := by
  funext idx
  obtain ⟨i, j, rfl⟩ : ∃ (i : Fin 4096) (j : Fin 4096), idx = ix2 i j := ⟨idx 0, idx 1, eq_ix2 idx⟩
  exact v19_ix2 x0 x1 x3 x4 x5 i j

theorem ref_newZ (x0 x1 : SA.Idx → EReal) (x2 : SA.Idx → BitVec 32) (x3 x4 x5 : SA.Idx → EReal) :
    val_main_v29 (F := Ideal) x0 x1 x2 x3 x4 x5 = newZ x0 x1 x2 x3 x4 x5 := by
  funext idx
  rw [val_main_v29_apply, val_main_v28_apply, val_main_v27_apply, val_main_c_6_apply, val_main_call0_v1_apply,
    val_main_call0_v0_apply, val_main_cst_7_apply, val_main_v26_apply, val_main_v25_apply, val_main_v24_apply,
    val_main_cst_5_apply, val_main_v23_apply, val_main_v22_apply, val_main_cst_4_apply, val_main_v21_apply,
    val_main_v20_apply, val_main_cst_3_apply, ref_newV]
  rfl

theorem ref_newR (x0 x1 : SA.Idx → EReal) (x2 : SA.Idx → BitVec 32) (x3 x4 x5 : SA.Idx → EReal) :
    val_main_v36 (F := Ideal) x0 x1 x2 x3 x4 x5 = newR x0 x1 x2 x3 x4 x5 := by
  funext idx
  rw [val_main_v36_apply, val_main_call1_v4_apply, val_main_call1_v3_apply, val_main_c_11_apply,
    val_main_call1_v2_apply, val_main_call1_v1_apply, val_main_call1_v0_apply, val_main_c_10_apply,
    val_main_v35_apply, val_main_v31_apply, val_main_v30_apply, val_main_c_8_apply, val_main_v34_apply,
    val_main_v33_apply, val_main_v32_apply, val_main_cst_9_apply, ref_newZ]
  rfl

end Cert.LIF.Ref

end
-- ==== Proof.lean ====
/-
  The fused LIF step against its jnp reference, over the extended reals.
  The kernel walks an 8 x 8 x 8 grid of 512-blocks; per output block (bi, bj) it keeps in scratch the running sum
  of  x[bi, bk] W_in[bk, bj] + z[bi, bk] W_rec'[bk, bj]  over the reduction blocks bk (W_rec' = W_rec with its
  diagonal removed, which only the block bk = bj meets) and the block z[bi, bj], and at bk = 7 stores
  new_v = c2 v + (c1 cur + (-1) z), the spike new_z and the refractory counter new_r. The reference computes the
  same three arrays from the two whole matrix products. Both are the functions newV, newZ, newR of Proof/Spec.lean:
  the reference by reading its operations at an index (Proof/Ref/RefIs.lean), the kernel by induction over the grid
  points (Proof/KI/Value.lean); the eight block sums are the whole sum because addition of extended reals is
  commutative and associative, so the precondition is never opened. The frames of the two kernel programs are the
  run of the pipeline with the body run at each kind of grid point (Proof/K, Proof/KI); the reference's frame is
  its run. Nothing was rewritten by the idealization, so the fourth conjunct is trivial.
-/
import proofs.«152879_j87522843560962_1_alg».proof.Defs
import proofs.«152879_j87522843560962_1_alg».proof.Proof.Gen.Kernel
import proofs.«152879_j87522843560962_1_alg».proof.Proof.Gen.KernelIdeal
import proofs.«152879_j87522843560962_1_alg».proof.Proof.Gen.ReferenceIdeal
import proofs.«152879_j87522843560962_1_alg».proof.Proof.Gen.Pre_finite_inputs
import proofs.«152879_j87522843560962_1_alg».proof.Proof.K.Body
import proofs.«152879_j87522843560962_1_alg».proof.Proof.KI.Value
import proofs.«152879_j87522843560962_1_alg».proof.Proof.Ref.RefIs
import Idealize.ShloMosaic.Adequacy
import Idealize.ShloMosaic.Init

noncomputable section

namespace Cert.Proof

open Idealize.ShloMosaic Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2.2.2) (Cert.ReferenceIdeal.ValueP.run (F := Ideal) m ρ)

/-- From memories agreeing on the arguments both programs end with new_v, new_z, new_r of those arguments. -/
theorem algebraic : Cert.algebraic_KernelIdeal_ReferenceIdeal := by
  intro m ρ m' ρ' _ hagree
  refine ⟨_, _, _, Cert.KernelIdeal.Val.run m ρ, ?_⟩
  refine (θ_run Cert.ReferenceIdeal.defs _ _).mono (fun _ h c => ⟨?_, ?_, ?_, (h c).2.2.2⟩)
    (Cert.ReferenceIdeal.ValueP.run (F := Ideal) m' ρ')
  · rw [(h c).1, Cert.ReferenceIdeal.ReadP.val_main_v19_eq, Cert.LIF.Ref.ref_newV, (hagree c).1, (hagree c).2.1,
      (hagree c).2.2.2.1, (hagree c).2.2.2.2.1, (hagree c).2.2.2.2.2]
  · rw [(h c).2.1, Cert.ReferenceIdeal.ReadP.val_main_v29_eq, Cert.LIF.Ref.ref_newZ, (hagree c).1, (hagree c).2.1,
      (hagree c).2.2.1, (hagree c).2.2.2.1, (hagree c).2.2.2.2.1, (hagree c).2.2.2.2.2]
  · rw [(h c).2.2.1, Cert.ReferenceIdeal.ReadP.val_main_v36_eq, Cert.LIF.Ref.ref_newR, (hagree c).1, (hagree c).2.1,
      (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
